-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x16x512x512 : Shape := ⟨4, ![16, 16, 512, 512]⟩
abbrev S16x2x16384 : Shape := ⟨3, ![16, 2, 16384]⟩
abbrev S_ : Shape := ⟨0, ![]⟩

class Facts : Prop where
  bcast_S_S16x16x512x512 : S_.BroadcastsInDim S16x16x512x512 (![] : Fin 0 → Fin S16x16x512x512.rank)
  reducesTo_S16x16x512x512_S_d0_1_2_3 : S16x16x512x512.ReducesTo [0, 1, 2, 3] S_
  h_S_ : 0 < S_.numel
  bcast_S_S16x2x16384 : S_.BroadcastsInDim S16x2x16384 (![] : Fin 0 → Fin S16x2x16384.rank)
  reducesTo_S16x2x16384_S_d0_1_2 : S16x2x16384.ReducesTo [0, 1, 2] S_

variable [Facts]

def fn {F : FTy → Type} [FloatOps F] (main_arg0 : FVec F S16x16x512x512 .f32) (main_arg1 : FVec F S16x2x16384 .f32) : IVec S_ 1 :=
  let main_v0 : FVec F S16x16x512x512 .f32 := Host.absf main_arg0
  let main_cst : FVec F S_ .f32 := constant S_ .f32 0x7F800000#32
  let main_v1 : FVec F S16x16x512x512 .f32 := broadcastInDim S16x16x512x512 ![] bcast_S_S16x16x512x512 main_cst
  let main_v2 : IVec S16x16x512x512 1 := cmpf .olt main_v0 main_v1
  let main_c : IVec S_ 1 := constantI S_ 1 1#1
  let main_v3 : IVec S_ 1 := (fun x v => Host.reduce IntOp.andi x v reducesTo_S16x16x512x512_S_d0_1_2_3 h_S_) main_v2 main_c
  let main_v4 : FVec F S16x2x16384 .f32 := Host.absf main_arg1
  let main_cst_0 : FVec F S_ .f32 := constant S_ .f32 0x7F800000#32
  let main_v5 : FVec F S16x2x16384 .f32 := broadcastInDim S16x2x16384 ![] bcast_S_S16x2x16384 main_cst_0
  let main_v6 : IVec S16x2x16384 1 := cmpf .olt main_v4 main_v5
  let main_c_1 : IVec S_ 1 := constantI S_ 1 1#1
  let main_v7 : IVec S_ 1 := (fun x v => Host.reduce IntOp.andi x v reducesTo_S16x2x16384_S_d0_1_2 h_S_) main_v6 main_c_1
  let main_v8 : IVec S_ 1 := andi main_v3 main_v7
  main_v8
-- ==== Kernel.lean ====
abbrev S16x16x512x512 : Shape := ⟨4, ![16, 16, 512, 512]⟩
abbrev S16x2x16384 : Shape := ⟨3, ![16, 2, 16384]⟩
abbrev S16x1x16384 : Shape := ⟨3, ![16, 1, 16384]⟩
abbrev S16x16384 : Shape := ⟨2, ![16, 16384]⟩
abbrev S_ : Shape := ⟨0, ![]⟩
abbrev S16x16x16384 : Shape := ⟨3, ![16, 16, 16384]⟩
abbrev S1x1x2048 : Shape := ⟨3, ![1, 1, 2048]⟩
abbrev S1x16x512x512 : Shape := ⟨4, ![1, 16, 512, 512]⟩
abbrev S1x16x2048 : Shape := ⟨3, ![1, 16, 2048]⟩
abbrev S2048 : Shape := ⟨1, ![2048]⟩
abbrev S2048x512 : Shape := ⟨2, ![2048, 512]⟩
abbrev S2048x1 : Shape := ⟨2, ![2048, 1]⟩
abbrev S1x1x512x512 : Shape := ⟨4, ![1, 1, 512, 512]⟩
abbrev S512x512 : Shape := ⟨2, ![512, 512]⟩
abbrev S1x2048 : Shape := ⟨2, ![1, 2048]⟩
abbrev S16x2048 : Shape := ⟨2, ![16, 2048]⟩

abbrev nBuf : Space → Nat
  | .hbm => 56
  | .vmem => 16
  | .smem => 0
  | _ => 0

abbrev bufTy : (tb : Table) → Fin (tcTables nBuf tb) → BufTy
  | .hbm, ⟨0, _⟩ => ⟨S16x16x512x512, .f32⟩
  | .hbm, ⟨1, _⟩ => ⟨S16x2x16384, .f32⟩
  | .hbm, ⟨2, _⟩ => ⟨S16x1x16384, .f32⟩
  | .hbm, ⟨3, _⟩ => ⟨S16x16384, .f32⟩
  | .hbm, ⟨4, _⟩ => ⟨S_, .f32⟩
  | .hbm, ⟨5, _⟩ => ⟨S16x16384, .f32⟩
  | .hbm, ⟨6, _⟩ => ⟨S16x16384, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S16x16384, .f32⟩
  | .hbm, ⟨11, _⟩ => ⟨S16x16384, .f32⟩
  | .hbm, ⟨12, _⟩ => ⟨S_, .f32⟩
  | .hbm, ⟨13, _⟩ => ⟨S16x16384, .f32⟩
  | .hbm, ⟨14, _⟩ => ⟨S16x16384, .f32⟩
  | .hbm, ⟨15, _⟩ => ⟨S16x1x16384, .f32⟩
  | .hbm, ⟨16, _⟩ => ⟨S16x16384, .f32⟩
  | .hbm, ⟨17, _⟩ => ⟨S_, .f32⟩
  | .hbm, ⟨18, _⟩ => ⟨S16x16384, .f32⟩
  | .hbm, ⟨19, _⟩ => ⟨S16x16384, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S16x16384, .f32⟩
  | .hbm, ⟨24, _⟩ => ⟨S16x16384, .f32⟩
  | .hbm, ⟨25, _⟩ => ⟨S_, .f32⟩
  | .hbm, ⟨26, _⟩ => ⟨S16x16384, .f32⟩
  | .hbm, ⟨27, _⟩ => ⟨S16x16384, .f32⟩
  | .hbm, ⟨28, _⟩ => ⟨S16x16384, .f32⟩
  | .hbm, ⟨29, _⟩ => ⟨S16x16384, .i32⟩
  | .hbm, ⟨30, _⟩ => ⟨S16x16384, .f32⟩
  | .hbm, ⟨31, _⟩ => ⟨S16x16384, .i32⟩
  | .hbm, ⟨32, _⟩ => ⟨S_, .i32⟩
  | .hbm, ⟨33, _⟩ => ⟨S16x16384, .i32⟩
  | .hbm, ⟨34, _⟩ => ⟨S16x16384, .i32⟩
  | .hbm, ⟨35, _⟩ => ⟨S_, .i32⟩
  | .hbm, ⟨36, _⟩ => ⟨S16x16384, .i32⟩
  | .hbm, ⟨37, _⟩ => ⟨S16x16384, .i32⟩
  | .hbm, ⟨38, _⟩ => ⟨S_, .i32⟩
  | .hbm, ⟨39, _⟩ => ⟨S16x16384, .i32⟩
  | .hbm, ⟨40, _⟩ => ⟨S16x16384, .i32⟩
  | .hbm, ⟨41, _⟩ => ⟨S_, .i32⟩
  | .hbm, ⟨42, _⟩ => ⟨S16x16384, .i32⟩
  | .hbm, ⟨43, _⟩ => ⟨S16x16384, .i32⟩
  | .hbm, ⟨44, _⟩ => ⟨S16x16384, .f32⟩
  | .hbm, ⟨45, _⟩ => ⟨S16x16384, .f32⟩
  | .hbm, ⟨46, _⟩ => ⟨S16x16384, .f32⟩
  | .hbm, ⟨47, _⟩ => ⟨S16x16384, .f32⟩
  | .hbm, ⟨48, _⟩ => ⟨S16x1x16384, .i32⟩
  | .hbm, ⟨49, _⟩ => ⟨S16x1x16384, .i32⟩
  | .hbm, ⟨50, _⟩ => ⟨S16x1x16384, .i32⟩
  | .hbm, ⟨51, _⟩ => ⟨S16x1x16384, .i32⟩
  | .hbm, ⟨52, _⟩ => ⟨S16x1x16384, .f32⟩
  | .hbm, ⟨53, _⟩ => ⟨S16x1x16384, .f32⟩
  | .hbm, ⟨54, _⟩ => ⟨S16x16x512x512, .bf16⟩
  | .hbm, ⟨55, _⟩ => ⟨S16x16x16384, .f32⟩
  | .local _ .vmem, ⟨0, _⟩ => ⟨S1x1x2048, .i32⟩
  | .local _ .vmem, ⟨1, _⟩ => ⟨S1x1x2048, .i32⟩
  | .local _ .vmem, ⟨2, _⟩ => ⟨S1x1x2048, .i32⟩
  | .local _ .vmem, ⟨3, _⟩ => ⟨S1x1x2048, .i32⟩
  | .local _ .vmem, ⟨4, _⟩ => ⟨S1x1x2048, .i32⟩
  | .local _ .vmem, ⟨5, _⟩ => ⟨S1x1x2048, .i32⟩
  | .local _ .vmem, ⟨6, _⟩ => ⟨S1x1x2048, .i32⟩
  | .local _ .vmem, ⟨7, _⟩ => ⟨S1x1x2048, .i32⟩
  | .local _ .vmem, ⟨8, _⟩ => ⟨S1x1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x16x512x512, .bf16⟩
  | .local _ .vmem, ⟨13, _⟩ => ⟨S1x16x512x512, .bf16⟩
  | .local _ .vmem, ⟨14, _⟩ => ⟨S1x16x2048, .f32⟩
  | .local _ .vmem, ⟨15, _⟩ => ⟨S1x16x2048, .f32⟩
  | _, _ => ⟨S16x16x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_cst_1 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_cst_4 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c : Ref sig .tc := ⟨.hbm, 32, rfl⟩
abbrev main_v14 : Ref sig .tc := ⟨.hbm, 33, rfl⟩
abbrev main_v15 : Ref sig .tc := ⟨.hbm, 34, rfl⟩
abbrev main_c_5 : Ref sig .tc := ⟨.hbm, 35, rfl⟩
abbrev main_v16 : Ref sig .tc := ⟨.hbm, 36, rfl⟩
abbrev main_v17 : Ref sig .tc := ⟨.hbm, 37, rfl⟩
abbrev main_c_6 : Ref sig .tc := ⟨.hbm, 38, rfl⟩
abbrev main_v18 : Ref sig .tc := ⟨.hbm, 39, rfl⟩
abbrev main_v19 : Ref sig .tc := ⟨.hbm, 40, rfl⟩
abbrev main_c_7 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x16x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  slices_S16x2x16384_S16x1x16384_0_0_0 : S16x2x16384.Slices ![0, 0, 0] S16x1x16384
  shapeCasts_S16x1x16384_S16x16384 : S16x1x16384.ShapeCasts S16x16384
  bcast_S_S16x16384 : S_.BroadcastsInDim S16x16384 (![] : Fin 0 → Fin S16x16384.rank)
  slices_S16x2x16384_S16x1x16384_0_1_0 : S16x2x16384.Slices ![0, 1, 0] S16x1x16384
  shapeCasts_S16x16384_S16x1x16384 : S16x16384.ShapeCasts S16x1x16384
  bitsLt_bf16_f32 : FTy.bits .bf16 < FTy.bits .f32
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S2048 : S1x1x2048.ShapeCasts S2048
  iota_S2048x512_d1_w32 : S2048x512.Iotas .tc 32 [1]
  shapeCasts_S2048_S2048x1 : S2048.ShapeCasts S2048x1
  broadcasts_S2048x1_S2048x512 : S2048x1.Broadcasts S2048x512
  shapeCasts_S2048x1_S2048x1 : S2048x1.ShapeCasts S2048x1
  inb_S1x16x512x512_S1x1x512x512_0_0_0_0 : ∀ a, (![0, 0, 0, 0] : Fin 4 → Nat) a + S1x1x512x512.size a ≤ S1x16x512x512.size a
  h_S1x1x512x512 : 0 < S1x1x512x512.numel
  shapeCasts_S1x1x512x512_S512x512 : S1x1x512x512.ShapeCasts S512x512
  reduces_S2048x512_S2048 : S2048x512.Reduces [1] S2048
  inb_S1x16x512x512_S1x1x512x512_0_1_0_0 : ∀ a, (![0, 1, 0, 0] : Fin 4 → Nat) a + S1x1x512x512.size a ≤ S1x16x512x512.size a
  inb_S1x16x512x512_S1x1x512x512_0_2_0_0 : ∀ a, (![0, 2, 0, 0] : Fin 4 → Nat) a + S1x1x512x512.size a ≤ S1x16x512x512.size a
  inb_S1x16x512x512_S1x1x512x512_0_3_0_0 : ∀ a, (![0, 3, 0, 0] : Fin 4 → Nat) a + S1x1x512x512.size a ≤ S1x16x512x512.size a
  inb_S1x16x512x512_S1x1x512x512_0_4_0_0 : ∀ a, (![0, 4, 0, 0] : Fin 4 → Nat) a + S1x1x512x512.size a ≤ S1x16x512x512.size a
  inb_S1x16x512x512_S1x1x512x512_0_5_0_0 : ∀ a, (![0, 5, 0, 0] : Fin 4 → Nat) a + S1x1x512x512.size a ≤ S1x16x512x512.size a
  inb_S1x16x512x512_S1x1x512x512_0_6_0_0 : ∀ a, (![0, 6, 0, 0] : Fin 4 → Nat) a + S1x1x512x512.size a ≤ S1x16x512x512.size a
  inb_S1x16x512x512_S1x1x512x512_0_7_0_0 : ∀ a, (![0, 7, 0, 0] : Fin 4 → Nat) a + S1x1x512x512.size a ≤ S1x16x512x512.size a
  inb_S1x16x512x512_S1x1x512x512_0_8_0_0 : ∀ a, (![0, 8, 0, 0] : Fin 4 → Nat) a + S1x1x512x512.size a ≤ S1x16x512x512.size a
  inb_S1x16x512x512_S1x1x512x512_0_9_0_0 : ∀ a, (![0, 9, 0, 0] : Fin 4 → Nat) a + S1x1x512x512.size a ≤ S1x16x512x512.size a
  inb_S1x16x512x512_S1x1x512x512_0_10_0_0 : ∀ a, (![0, 10, 0, 0] : Fin 4 → Nat) a + S1x1x512x512.size a ≤ S1x16x512x512.size a
  inb_S1x16x512x512_S1x1x512x512_0_11_0_0 : ∀ a, (![0, 11, 0, 0] : Fin 4 → Nat) a + S1x1x512x512.size a ≤ S1x16x512x512.size a
  inb_S1x16x512x512_S1x1x512x512_0_12_0_0 : ∀ a, (![0, 12, 0, 0] : Fin 4 → Nat) a + S1x1x512x512.size a ≤ S1x16x512x512.size a
  inb_S1x16x512x512_S1x1x512x512_0_13_0_0 : ∀ a, (![0, 13, 0, 0] : Fin 4 → Nat) a + S1x1x512x512.size a ≤ S1x16x512x512.size a
  inb_S1x16x512x512_S1x1x512x512_0_14_0_0 : ∀ a, (![0, 14, 0, 0] : Fin 4 → Nat) a + S1x1x512x512.size a ≤ S1x16x512x512.size a
  inb_S1x16x512x512_S1x1x512x512_0_15_0_0 : ∀ a, (![0, 15, 0, 0] : Fin 4 → Nat) a + S1x1x512x512.size a ≤ S1x16x512x512.size a
  shapeCasts_S2048_S1x2048 : S2048.ShapeCasts S1x2048
  concatenates_S1x2048_S1x2048_S1x2048_S1x2048_S1x2048_S1x2048_S1x2048_S1x2048_S1x2048_S1x2048_S1x2048_S1x2048_S1x2048_S1x2048_S1x2048_S1x2048_S16x2048_d0 : Shape.Concatenates [S1x2048, S1x2048, S1x2048, S1x2048, S1x2048, S1x2048, S1x2048, S1x2048, S1x2048, S1x2048, S1x2048, S1x2048, S1x2048, S1x2048, S1x2048, S1x2048] S16x2048 0
  inb_S1x16x2048_S1x16x2048_0_0_0 : ∀ a, (![0, 0, 0] : Fin 3 → Nat) a + S1x16x2048.size a ≤ S1x16x2048.size a
  h_S1x16x2048 : 0 < S1x16x2048.numel
  shapeCasts_S1x16x2048_S16x2048 : S1x16x2048.ShapeCasts S16x2048
  shapeCasts_S16x2048_S1x16x2048 : S16x2048.ShapeCasts S1x16x2048
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x2048.size a ≤ S16x1x16384.size a
  hwx0_0 : ∀ i : grid0.Coords, EltTy.bits .i32 = 32 ∨ (Rect.block (s := S16x1x16384) S1x1x2048.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048.size a ≤ S16x1x16384.size a
  hwx0_1 : ∀ i : grid0.Coords, EltTy.bits .i32 = 32 ∨ (Rect.block (s := S16x1x16384) S1x1x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048.size a ≤ S16x1x16384.size a
  hwx0_2 : ∀ i : grid0.Coords, EltTy.bits .i32 = 32 ∨ (Rect.block (s := S16x1x16384) S1x1x2048.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x2048.size a ≤ S16x1x16384.size a
  hwx0_3 : ∀ i : grid0.Coords, EltTy.bits .i32 = 32 ∨ (Rect.block (s := S16x1x16384) S1x1x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x2048.size a ≤ S16x1x16384.size a
  hwx0_4 : ∀ i : grid0.Coords, EltTy.bits .f32 = 32 ∨ (Rect.block (s := S16x1x16384) S1x1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x2048.size a ≤ S16x1x16384.size a
  hwx0_5 : ∀ i : grid0.Coords, EltTy.bits .f32 = 32 ∨ (Rect.block (s := S16x1x16384) S1x1x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x16x512x512.size a ≤ S16x16x512x512.size a
  hwx0_6 : ∀ i : grid0.Coords, EltTy.bits .bf16 = 32 ∨ (Rect.block (s := S16x16x512x512) S1x16x512x512.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x16x2048.size a ≤ S16x16x16384.size a
  hwx0_7 : ∀ i : grid0.Coords, EltTy.bits .f32 = 32 ∨ (Rect.block (s := S16x16x16384) S1x16x2048.size (cc0_transform_7 i) (hinb0_7 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_v26) S1x1x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S1x1x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v28) S1x1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v29) S1x1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v30) S1x1x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v31) S1x1x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v32) S1x16x512x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v33) S1x16x2048.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16x16x512x512 : Shape := ⟨4, ![16, 16, 512, 512]⟩
abbrev S16x2x16384 : Shape := ⟨3, ![16, 2, 16384]⟩
abbrev S16x1x16384 : Shape := ⟨3, ![16, 1, 16384]⟩
abbrev S16x16384 : Shape := ⟨2, ![16, 16384]⟩
abbrev S_ : Shape := ⟨0, ![]⟩
abbrev S16x16x262144 : Shape := ⟨3, ![16, 16, 262144]⟩
abbrev S16x16x16384 : Shape := ⟨3, ![16, 16, 16384]⟩
abbrev S16x16x16384x1 : Shape := ⟨4, ![16, 16, 16384, 1]⟩
abbrev S1 : Shape := ⟨1, ![1]⟩
abbrev S1x1x1x1 : Shape := ⟨4, ![1, 1, 1, 1]⟩

abbrev nBuf : Space → Nat
  | .hbm => 194
  | .vmem => 0
  | .smem => 0
  | _ => 0

abbrev hbmTy0_0 (i : Nat) : BufTy := match i % 128 with
  | 0 => ⟨S16x16x512x512, .f32⟩
  | 1 => ⟨S16x2x16384, .f32⟩
  | 2 => ⟨S16x1x16384, .f32⟩
  | 3 => ⟨S16x16384, .f32⟩
  | 4 => ⟨S_, .f32⟩
  | 5 => ⟨S16x16384, .f32⟩
  | 6 => ⟨S16x16384, .f32⟩
  | 7 => ⟨S_, .f32⟩
  | 8 => ⟨S_, .i32⟩
  | 9 => ⟨S_, .f32⟩
  | 10 => ⟨S16x16384, .f32⟩
  | 11 => ⟨S16x16384, .f32⟩
  | 12 => ⟨S_, .f32⟩
  | 13 => ⟨S16x16384, .f32⟩
  | 14 => ⟨S16x16384, .f32⟩
  | 15 => ⟨S16x1x16384, .f32⟩
  | 16 => ⟨S16x16384, .f32⟩
  | 17 => ⟨S_, .f32⟩
  | 18 => ⟨S16x16384, .f32⟩
  | 19 => ⟨S16x16384, .f32⟩
  | 20 => ⟨S_, .f32⟩
  | 21 => ⟨S_, .i32⟩
  | 22 => ⟨S_, .f32⟩
  | 23 => ⟨S16x16384, .f32⟩
  | 24 => ⟨S16x16384, .f32⟩
  | 25 => ⟨S_, .f32⟩
  | 26 => ⟨S16x16384, .f32⟩
  | 27 => ⟨S16x16384, .f32⟩
  | 28 => ⟨S16x16384, .f32⟩
  | 29 => ⟨S16x16384, .i32⟩
  | 30 => ⟨S16x16384, .f32⟩
  | 31 => ⟨S16x16384, .i32⟩
  | 32 => ⟨S_, .i32⟩
  | 33 => ⟨S16x16384, .i32⟩
  | 34 => ⟨S16x16384, .i32⟩
  | 35 => ⟨S_, .i32⟩
  | 36 => ⟨S16x16384, .i32⟩
  | 37 => ⟨S16x16384, .i32⟩
  | 38 => ⟨S_, .i32⟩
  | 39 => ⟨S16x16384, .i32⟩
  | 40 => ⟨S16x16384, .i32⟩
  | 41 => ⟨S_, .i32⟩
  | 42 => ⟨S16x16384, .i32⟩
  | 43 => ⟨S16x16384, .i32⟩
  | 44 => ⟨S16x16384, .f32⟩
  | 45 => ⟨S16x16384, .f32⟩
  | 46 => ⟨S16x1x16384, .f32⟩
  | 47 => ⟨S16x16384, .f32⟩
  | 48 => ⟨S16x16384, .f32⟩
  | 49 => ⟨S16x1x16384, .f32⟩
  | 50 => ⟨S16x16x262144, .f32⟩
  | 51 => ⟨S_, .i32⟩
  | 52 => ⟨S16x16384, .i32⟩
  | 53 => ⟨S16x16384, .i32⟩
  | 54 => ⟨S16x16384, .i32⟩
  | 55 => ⟨S16x1x16384, .i32⟩
  | 56 => ⟨S16x16x16384, .i32⟩
  | 57 => ⟨S_, .i32⟩
  | 58 => ⟨S16x16x16384, .i32⟩
  | 59 => ⟨S16x16x16384, .i1⟩
  | 60 => ⟨S_, .i32⟩
  | 61 => ⟨S16x16x16384, .i32⟩
  | 62 => ⟨S16x16x16384, .i32⟩
  | 63 => ⟨S16x16x16384, .i32⟩
  | 64 => ⟨S16x16x16384x1, .i32⟩
  | 65 => ⟨S1, .i32⟩
  | 66 => ⟨S_, .i32⟩
  | 67 => ⟨S16x16x16384x1, .i32⟩
  | 68 => ⟨S16x16x16384x1, .i1⟩
  | 69 => ⟨S1x1x1x1, .i32⟩
  | 70 => ⟨S16x16x16384x1, .i32⟩
  | 71 => ⟨S16x16x16384x1, .i1⟩
  | 72 => ⟨S16x16x16384x1, .i1⟩
  | 73 => ⟨S_, .i1⟩
  | 74 => ⟨S16x16x16384, .i1⟩
  | 75 => ⟨S16x16x16384, .f32⟩
  | 76 => ⟨S_, .f32⟩
  | 77 => ⟨S16x16x16384, .f32⟩
  | 78 => ⟨S16x16x16384, .f32⟩
  | 79 => ⟨S_, .i32⟩
  | 80 => ⟨S16x16384, .i32⟩
  | 81 => ⟨S16x16384, .i32⟩
  | 82 => ⟨S16x16384, .i32⟩
  | 83 => ⟨S16x1x16384, .i32⟩
  | 84 => ⟨S16x16x16384, .i32⟩
  | 85 => ⟨S_, .i32⟩
  | 86 => ⟨S16x16x16384, .i32⟩
  | 87 => ⟨S16x16x16384, .i1⟩
  | 88 => ⟨S_, .i32⟩
  | 89 => ⟨S16x16x16384, .i32⟩
  | 90 => ⟨S16x16x16384, .i32⟩
  | 91 => ⟨S16x16x16384, .i32⟩
  | 92 => ⟨S16x16x16384x1, .i32⟩
  | 93 => ⟨S1, .i32⟩
  | 94 => ⟨S_, .i32⟩
  | 95 => ⟨S16x16x16384x1, .i32⟩
  | 96 => ⟨S16x16x16384x1, .i1⟩
  | 97 => ⟨S1x1x1x1, .i32⟩
  | 98 => ⟨S16x16x16384x1, .i32⟩
  | 99 => ⟨S16x16x16384x1, .i1⟩
  | 100 => ⟨S16x16x16384x1, .i1⟩
  | 101 => ⟨S_, .i1⟩
  | 102 => ⟨S16x16x16384, .i1⟩
  | 103 => ⟨S16x16x16384, .f32⟩
  | 104 => ⟨S_, .f32⟩
  | 105 => ⟨S16x16x16384, .f32⟩
  | 106 => ⟨S16x16x16384, .f32⟩
  | 107 => ⟨S_, .i32⟩
  | 108 => ⟨S16x16384, .i32⟩
  | 109 => ⟨S16x16384, .i32⟩
  | 110 => ⟨S16x16384, .i32⟩
  | 111 => ⟨S16x1x16384, .i32⟩
  | 112 => ⟨S16x16x16384, .i32⟩
  | 113 => ⟨S_, .i32⟩
  | 114 => ⟨S16x16x16384, .i32⟩
  | 115 => ⟨S16x16x16384, .i1⟩
  | 116 => ⟨S_, .i32⟩
  | 117 => ⟨S16x16x16384, .i32⟩
  | 118 => ⟨S16x16x16384, .i32⟩
  | 119 => ⟨S16x16x16384, .i32⟩
  | 120 => ⟨S16x16x16384x1, .i32⟩
  | 121 => ⟨S1, .i32⟩
  | 122 => ⟨S_, .i32⟩
  | 123 => ⟨S16x16x16384x1, .i32⟩
  | 124 => ⟨S16x16x16384x1, .i1⟩
  | 125 => ⟨S1x1x1x1, .i32⟩
  | 126 => ⟨S16x16x16384x1, .i32⟩
  | 127 => ⟨S16x16x16384x1, .i1⟩
  | _ => ⟨S16x16x512x512, .f32⟩

abbrev hbmTy0_1 (i : Nat) : BufTy := match i % 128 with
  | 0 => ⟨S16x16x16384x1, .i1⟩
  | 1 => ⟨S_, .i1⟩
  | 2 => ⟨S16x16x16384, .i1⟩
  | 3 => ⟨S16x16x16384, .f32⟩
  | 4 => ⟨S_, .f32⟩
  | 5 => ⟨S16x16x16384, .f32⟩
  | 6 => ⟨S16x16x16384, .f32⟩
  | 7 => ⟨S_, .i32⟩
  | 8 => ⟨S16x16384, .i32⟩
  | 9 => ⟨S16x16384, .i32⟩
  | 10 => ⟨S16x16384, .i32⟩
  | 11 => ⟨S16x1x16384, .i32⟩
  | 12 => ⟨S16x16x16384, .i32⟩
  | 13 => ⟨S_, .i32⟩
  | 14 => ⟨S16x16x16384, .i32⟩
  | 15 => ⟨S16x16x16384, .i1⟩
  | 16 => ⟨S_, .i32⟩
  | 17 => ⟨S16x16x16384, .i32⟩
  | 18 => ⟨S16x16x16384, .i32⟩
  | 19 => ⟨S16x16x16384, .i32⟩
  | 20 => ⟨S16x16x16384x1, .i32⟩
  | 21 => ⟨S1, .i32⟩
  | 22 => ⟨S_, .i32⟩
  | 23 => ⟨S16x16x16384x1, .i32⟩
  | 24 => ⟨S16x16x16384x1, .i1⟩
  | 25 => ⟨S1x1x1x1, .i32⟩
  | 26 => ⟨S16x16x16384x1, .i32⟩
  | 27 => ⟨S16x16x16384x1, .i1⟩
  | 28 => ⟨S16x16x16384x1, .i1⟩
  | 29 => ⟨S_, .i1⟩
  | 30 => ⟨S16x16x16384, .i1⟩
  | 31 => ⟨S16x16x16384, .f32⟩
  | 32 => ⟨S_, .f32⟩
  | 33 => ⟨S16x16x16384, .f32⟩
  | 34 => ⟨S16x16x16384, .f32⟩
  | 35 => ⟨S_, .f32⟩
  | 36 => ⟨S16x1x16384, .f32⟩
  | 37 => ⟨S16x1x16384, .f32⟩
  | 38 => ⟨S16x16x16384, .f32⟩
  | 39 => ⟨S16x16x16384, .f32⟩
  | 40 => ⟨S_, .f32⟩
  | 41 => ⟨S16x1x16384, .f32⟩
  | 42 => ⟨S16x1x16384, .f32⟩
  | 43 => ⟨S16x16x16384, .f32⟩
  | 44 => ⟨S16x16x16384, .f32⟩
  | 45 => ⟨S16x16x16384, .f32⟩
  | 46 => ⟨S16x16x16384, .f32⟩
  | 47 => ⟨S_, .f32⟩
  | 48 => ⟨S16x1x16384, .f32⟩
  | 49 => ⟨S16x1x16384, .f32⟩
  | 50 => ⟨S16x16x16384, .f32⟩
  | 51 => ⟨S16x16x16384, .f32⟩
  | 52 => ⟨S16x16x16384, .f32⟩
  | 53 => ⟨S_, .f32⟩
  | 54 => ⟨S16x1x16384, .f32⟩
  | 55 => ⟨S16x1x16384, .f32⟩
  | 56 => ⟨S16x16x16384, .f32⟩
  | 57 => ⟨S16x16x16384, .f32⟩
  | 58 => ⟨S16x16x16384, .f32⟩
  | 59 => ⟨S16x16x16384, .f32⟩
  | 60 => ⟨S16x16x16384, .f32⟩
  | 61 => ⟨S16x16x16384, .f32⟩
  | 62 => ⟨S16x16x16384, .f32⟩
  | 63 => ⟨S16x16x16384, .f32⟩
  | 64 => ⟨S16x16x16384, .f32⟩
  | 65 => ⟨S16x16x16384, .f32⟩
  | _ => ⟨S16x16x512x512, .f32⟩

abbrev hbmTy (i : Nat) : BufTy := match i / 128 with
  | 0 => hbmTy0_0 i
  | 1 => hbmTy0_1 i
  | _ => ⟨S16x16x512x512, .f32⟩

abbrev bufTy : (tb : Table) → Fin (tcTables nBuf tb) → BufTy
  | .hbm, ⟨i, _⟩ => hbmTy i
  | _, _ => ⟨S16x16x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_c_3 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c_4 : Ref sig .tc := ⟨.hbm, 32, rfl⟩
abbrev main_v14 : Ref sig .tc := ⟨.hbm, 33, rfl⟩
abbrev main_v15 : Ref sig .tc := ⟨.hbm, 34, rfl⟩
abbrev main_c_5 : Ref sig .tc := ⟨.hbm, 35, rfl⟩
abbrev main_v16 : Ref sig .tc := ⟨.hbm, 36, rfl⟩
abbrev main_v17 : Ref sig .tc := ⟨.hbm, 37, rfl⟩
abbrev main_c_6 : Ref sig .tc := ⟨.hbm, 38, rfl⟩
abbrev main_v18 : Ref sig .tc := ⟨.hbm, 39, rfl⟩
abbrev main_v19 : Ref sig .tc := ⟨.hbm, 40, rfl⟩
abbrev main_c_7 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_c_8 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_call2_c : Ref sig .tc := ⟨.hbm, 57, rfl⟩
abbrev main_call2_v0 : Ref sig .tc := ⟨.hbm, 58, rfl⟩
abbrev main_call2_v1 : Ref sig .tc := ⟨.hbm, 59, rfl⟩
abbrev main_call2_c_0 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_call2_v5 : Ref sig .tc := ⟨.hbm, 64, rfl⟩
abbrev main_call2_c_1 : Ref sig .tc := ⟨.hbm, 65, rfl⟩
abbrev main_call2_c_2 : Ref sig .tc := ⟨.hbm, 66, rfl⟩
abbrev main_call2_v6 : Ref sig .tc := ⟨.hbm, 67, rfl⟩
abbrev main_call2_v7 : Ref sig .tc := ⟨.hbm, 68, rfl⟩
abbrev main_call2_v8 : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_call2_c_3 : Ref sig .tc := ⟨.hbm, 73, rfl⟩
abbrev main_call2_v12 : Ref sig .tc := ⟨.hbm, 74, rfl⟩
abbrev main_call2_v13 : Ref sig .tc := ⟨.hbm, 75, rfl⟩
abbrev main_call2_cst : Ref sig .tc := ⟨.hbm, 76, rfl⟩
abbrev main_call2_v14 : Ref sig .tc := ⟨.hbm, 77, rfl⟩
abbrev main_v34 : Ref sig .tc := ⟨.hbm, 78, rfl⟩
abbrev main_c_9 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_call3_c : Ref sig .tc := ⟨.hbm, 85, rfl⟩
abbrev main_call3_v0 : Ref sig .tc := ⟨.hbm, 86, rfl⟩
abbrev main_call3_v1 : Ref sig .tc := ⟨.hbm, 87, rfl⟩
abbrev main_call3_c_0 : Ref sig .tc := ⟨.hbm, 88, rfl⟩
abbrev main_call3_v2 : Ref sig .tc := ⟨.hbm, 89, rfl⟩
abbrev main_call3_v3 : Ref sig .tc := ⟨.hbm, 90, rfl⟩
abbrev main_call3_v4 : Ref sig .tc := ⟨.hbm, 91, rfl⟩
abbrev main_call3_v5 : Ref sig .tc := ⟨.hbm, 92, rfl⟩
abbrev main_call3_c_1 : Ref sig .tc := ⟨.hbm, 93, rfl⟩
abbrev main_call3_c_2 : Ref sig .tc := ⟨.hbm, 94, rfl⟩
abbrev main_call3_v6 : Ref sig .tc := ⟨.hbm, 95, rfl⟩
abbrev main_call3_v7 : Ref sig .tc := ⟨.hbm, 96, rfl⟩
abbrev main_call3_v8 : Ref sig .tc := ⟨.hbm, 97, rfl⟩
abbrev main_call3_v9 : Ref sig .tc := ⟨.hbm, 98, rfl⟩
abbrev main_call3_v10 : Ref sig .tc := ⟨.hbm, 99, rfl⟩
abbrev main_call3_v11 : Ref sig .tc := ⟨.hbm, 100, rfl⟩
abbrev main_call3_c_3 : Ref sig .tc := ⟨.hbm, 101, rfl⟩
abbrev main_call3_v12 : Ref sig .tc := ⟨.hbm, 102, rfl⟩
abbrev main_call3_v13 : Ref sig .tc := ⟨.hbm, 103, rfl⟩
abbrev main_call3_cst : Ref sig .tc := ⟨.hbm, 104, rfl⟩
abbrev main_call3_v14 : Ref sig .tc := ⟨.hbm, 105, rfl⟩
abbrev main_v40 : Ref sig .tc := ⟨.hbm, 106, rfl⟩
abbrev main_c_10 : Ref sig .tc := ⟨.hbm, 107, rfl⟩
abbrev main_v41 : Ref sig .tc := ⟨.hbm, 108, rfl⟩
abbrev main_v42 : Ref sig .tc := ⟨.hbm, 109, rfl⟩
abbrev main_v43 : Ref sig .tc := ⟨.hbm, 110, rfl⟩
abbrev main_v44 : Ref sig .tc := ⟨.hbm, 111, rfl⟩
abbrev main_v45 : Ref sig .tc := ⟨.hbm, 112, rfl⟩
abbrev main_call4_c : Ref sig .tc := ⟨.hbm, 113, rfl⟩
abbrev main_call4_v0 : Ref sig .tc := ⟨.hbm, 114, rfl⟩
abbrev main_call4_v1 : Ref sig .tc := ⟨.hbm, 115, rfl⟩
abbrev main_call4_c_0 : Ref sig .tc := ⟨.hbm, 116, rfl⟩
abbrev main_call4_v2 : Ref sig .tc := ⟨.hbm, 117, rfl⟩
abbrev main_call4_v3 : Ref sig .tc := ⟨.hbm, 118, rfl⟩
abbrev main_call4_v4 : Ref sig .tc := ⟨.hbm, 119, rfl⟩
abbrev main_call4_v5 : Ref sig .tc := ⟨.hbm, 120, rfl⟩
abbrev main_call4_c_1 : Ref sig .tc := ⟨.hbm, 121, rfl⟩
abbrev main_call4_c_2 : Ref sig .tc := ⟨.hbm, 122, rfl⟩
abbrev main_call4_v6 : Ref sig .tc := ⟨.hbm, 123, rfl⟩
abbrev main_call4_v7 : Ref sig .tc := ⟨.hbm, 124, rfl⟩
abbrev main_call4_v8 : Ref sig .tc := ⟨.hbm, 125, rfl⟩
abbrev main_call4_v9 : Ref sig .tc := ⟨.hbm, 126, rfl⟩
abbrev main_call4_v10 : Ref sig .tc := ⟨.hbm, 127, rfl⟩
abbrev main_call4_v11 : Ref sig .tc := ⟨.hbm, 128, rfl⟩
abbrev main_call4_c_3 : Ref sig .tc := ⟨.hbm, 129, rfl⟩
abbrev main_call4_v12 : Ref sig .tc := ⟨.hbm, 130, rfl⟩
abbrev main_call4_v13 : Ref sig .tc := ⟨.hbm, 131, rfl⟩
abbrev main_call4_cst : Ref sig .tc := ⟨.hbm, 132, rfl⟩
abbrev main_call4_v14 : Ref sig .tc := ⟨.hbm, 133, rfl⟩
abbrev main_v46 : Ref sig .tc := ⟨.hbm, 134, rfl⟩
abbrev main_c_11 : Ref sig .tc := ⟨.hbm, 135, rfl⟩
abbrev main_v47 : Ref sig .tc := ⟨.hbm, 136, rfl⟩
abbrev main_v48 : Ref sig .tc := ⟨.hbm, 137, rfl⟩
abbrev main_v49 : Ref sig .tc := ⟨.hbm, 138, rfl⟩
abbrev main_v50 : Ref sig .tc := ⟨.hbm, 139, rfl⟩
abbrev main_v51 : Ref sig .tc := ⟨.hbm, 140, rfl⟩
abbrev main_call5_c : Ref sig .tc := ⟨.hbm, 141, rfl⟩
abbrev main_call5_v0 : Ref sig .tc := ⟨.hbm, 142, rfl⟩
abbrev main_call5_v1 : Ref sig .tc := ⟨.hbm, 143, rfl⟩
abbrev main_call5_c_0 : Ref sig .tc := ⟨.hbm, 144, rfl⟩
abbrev main_call5_v2 : Ref sig .tc := ⟨.hbm, 145, rfl⟩
abbrev main_call5_v3 : Ref sig .tc := ⟨.hbm, 146, rfl⟩
abbrev main_call5_v4 : Ref sig .tc := ⟨.hbm, 147, rfl⟩
abbrev main_call5_v5 : Ref sig .tc := ⟨.hbm, 148, rfl⟩
abbrev main_call5_c_1 : Ref sig .tc := ⟨.hbm, 149, rfl⟩
abbrev main_call5_c_2 : Ref sig .tc := ⟨.hbm, 150, rfl⟩
abbrev main_call5_v6 : Ref sig .tc := ⟨.hbm, 151, rfl⟩
abbrev main_call5_v7 : Ref sig .tc := ⟨.hbm, 152, rfl⟩
abbrev main_call5_v8 : Ref sig .tc := ⟨.hbm, 153, rfl⟩
abbrev main_call5_v9 : Ref sig .tc := ⟨.hbm, 154, rfl⟩
abbrev main_call5_v10 : Ref sig .tc := ⟨.hbm, 155, rfl⟩
abbrev main_call5_v11 : Ref sig .tc := ⟨.hbm, 156, rfl⟩
abbrev main_call5_c_3 : Ref sig .tc := ⟨.hbm, 157, rfl⟩
abbrev main_call5_v12 : Ref sig .tc := ⟨.hbm, 158, rfl⟩
abbrev main_call5_v13 : Ref sig .tc := ⟨.hbm, 159, rfl⟩
abbrev main_call5_cst : Ref sig .tc := ⟨.hbm, 160, rfl⟩
abbrev main_call5_v14 : Ref sig .tc := ⟨.hbm, 161, rfl⟩
abbrev main_v52 : Ref sig .tc := ⟨.hbm, 162, rfl⟩
abbrev main_cst_12 : Ref sig .tc := ⟨.hbm, 163, rfl⟩
abbrev main_v53 : Ref sig .tc := ⟨.hbm, 164, rfl⟩
abbrev main_v54 : Ref sig .tc := ⟨.hbm, 165, rfl⟩
abbrev main_v55 : Ref sig .tc := ⟨.hbm, 166, rfl⟩
abbrev main_v56 : Ref sig .tc := ⟨.hbm, 167, rfl⟩
abbrev main_cst_13 : Ref sig .tc := ⟨.hbm, 168, rfl⟩
abbrev main_v57 : Ref sig .tc := ⟨.hbm, 169, rfl⟩
abbrev main_v58 : Ref sig .tc := ⟨.hbm, 170, rfl⟩
abbrev main_v59 : Ref sig .tc := ⟨.hbm, 171, rfl⟩
abbrev main_v60 : Ref sig .tc := ⟨.hbm, 172, rfl⟩
abbrev main_v61 : Ref sig .tc := ⟨.hbm, 173, rfl⟩
abbrev main_v62 : Ref sig .tc := ⟨.hbm, 174, rfl⟩
abbrev main_cst_14 : Ref sig .tc := ⟨.hbm, 175, rfl⟩
abbrev main_v63 : Ref sig .tc := ⟨.hbm, 176, rfl⟩
abbrev main_v64 : Ref sig .tc := ⟨.hbm, 177, rfl⟩
abbrev main_v65 : Ref sig .tc := ⟨.hbm, 178, rfl⟩
abbrev main_v66 : Ref sig .tc := ⟨.hbm, 179, rfl⟩
abbrev main_v67 : Ref sig .tc := ⟨.hbm, 180, rfl⟩
abbrev main_cst_15 : Ref sig .tc := ⟨.hbm, 181, rfl⟩
abbrev main_v68 : Ref sig .tc := ⟨.hbm, 182, rfl⟩
abbrev main_v69 : Ref sig .tc := ⟨.hbm, 183, rfl⟩
abbrev main_v70 : Ref sig .tc := ⟨.hbm, 184, rfl⟩
abbrev main_v71 : Ref sig .tc := ⟨.hbm, 185, rfl⟩
abbrev main_v72 : Ref sig .tc := ⟨.hbm, 186, rfl⟩
abbrev main_v73 : Ref sig .tc := ⟨.hbm, 187, rfl⟩
abbrev main_v74 : Ref sig .tc := ⟨.hbm, 188, rfl⟩
abbrev main_v75 : Ref sig .tc := ⟨.hbm, 189, rfl⟩
abbrev main_v76 : Ref sig .tc := ⟨.hbm, 190, rfl⟩
abbrev main_v77 : Ref sig .tc := ⟨.hbm, 191, rfl⟩
abbrev main_v78 : Ref sig .tc := ⟨.hbm, 192, rfl⟩
abbrev main_v79 : Ref sig .tc := ⟨.hbm, 193, rfl⟩

abbrev nD : Nat := 1
abbrev τ : Topo := Topo.v7x

variable {F : FTy → Type} [FloatOps F]

class Facts₀ : Prop where
  slices_S16x2x16384_S16x1x16384_0_0_0 : S16x2x16384.Slices ![0, 0, 0] S16x1x16384
  shapeCasts_S16x1x16384_S16x16384 : S16x1x16384.ShapeCasts S16x16384
  bcast_S_S16x16384 : S_.BroadcastsInDim S16x16384 (![] : Fin 0 → Fin S16x16384.rank)
  slices_S16x2x16384_S16x1x16384_0_1_0 : S16x2x16384.Slices ![0, 1, 0] S16x1x16384
  bcast_S16x16384_S16x1x16384_0_2 : S16x16384.BroadcastsInDim S16x1x16384 (![0, 2] : Fin 2 → Fin S16x1x16384.rank)
  shapeCasts_S16x16x512x512_S16x16x262144 : S16x16x512x512.ShapeCasts S16x16x262144
  bcast_S16x1x16384_S16x16x16384_0_1_2 : S16x1x16384.BroadcastsInDim S16x16x16384 (![0, 1, 2] : Fin 3 → Fin S16x16x16384.rank)
  bcast_S_S16x16x16384 : S_.BroadcastsInDim S16x16x16384 (![] : Fin 0 → Fin S16x16x16384.rank)
  shapeCasts_S16x16x16384_S16x16x16384x1 : S16x16x16384.ShapeCasts S16x16x16384x1
  bcast_S_S16x16x16384x1 : S_.BroadcastsInDim S16x16x16384x1 (![] : Fin 0 → Fin S16x16x16384x1.rank)
  bcast_S1_S1x1x1x1_3 : S1.BroadcastsInDim S1x1x1x1 (![3] : Fin 1 → Fin S1x1x1x1.rank)
  bcast_S1x1x1x1_S16x16x16384x1_0_1_2_3 : S1x1x1x1.BroadcastsInDim S16x16x16384x1 (![0, 1, 2, 3] : Fin 4 → Fin S16x16x16384x1.rank)
  reducesTo_S16x16x16384x1_S16x16x16384_d3 : S16x16x16384x1.ReducesTo [3] S16x16x16384
  h_S_ : 0 < S_.numel
  bcast_S_S16x1x16384 : S_.BroadcastsInDim S16x1x16384 (![] : Fin 0 → Fin S16x1x16384.rank)
  gather_S16x16x262144_S16x16x16384x1_S16x16x16384_n_2_01_01_2_3_111_wf : GatherDims.WF S16x16x262144 S16x16x16384x1 S16x16x16384 [] [2] [0, 1] [2] [0, 1] 3 ![1, 1, 1]

variable [Facts₀]

def gather_S16x16x262144_S16x16x16384x1_S16x16x16384_n_2_01_01_2_3_111 : GatherDims S16x16x262144 S16x16x16384x1 S16x16x16384 where
  offsetDims := []
  collapsedSliceDims := [2]
  operandBatchingDims := [0, 1]
  startIndicesBatchingDims := [0, 1]
  startIndexMap := [2]
  indexVectorDim := 3
  sliceSizes := ![1, 1, 1]
  wf := gather_S16x16x262144_S16x16x16384x1_S16x16x16384_n_2_01_01_2_3_111_wf

class Facts : Prop extends Facts₀ where

variable [Facts]
-- ==== Proof.Spec.lean ====
/-
  The specification of bilinear interpolation at sparse points, on the extended reals.

  A field R[b, c, h, w] (16 x 16 x 512 x 512) is sampled at points P[b, k, n] (16 x 2 x 16384), k = 0 the
  horizontal and k = 1 the vertical normalized coordinate. A coordinate a is scaled to a * 511 and clipped to
  [0, 511] (pos); its cell is the integer part (cell, as a 32-bit word), the next cell is cell + 1 capped at 511
  (cellUp), and the weight of the next cell is the fractional part (frac). The result at (b, c, n) is the
  bilinear blend of the four corners R[b, c, y, x], y in {cell, cellUp} of the vertical coordinate and
  x in {cell, cellUp} of the horizontal one.

  Two forms of that value are stated here: G, the blend of the four corners read directly, and K, the
  contraction of R[b, c, ., .] with a weighted one-hot row selector and a weighted one-hot column selector
  (sel). K_eq says they agree when the field's entries are real numbers; the law is distributivity, which
  is why the entries must be finite.
-/
import Idealize.ShloMosaic.PureOps.Ideal
import Idealize.ShloMosaic.PureOps.Ideal.Laws
import Idealize.ShloMosaic.Lib.ValueIdx

noncomputable section

namespace Cert.Interp

open Idealize.ShloMosaic Idealize.ShloMosaic.ValueIdx

/-! ## The float constants the two programs spell -/

/-- The pattern of 511.0 denotes the real 511. -/
theorem ofBits_511 : Ideal.ofBits .f32 0x43FF8000#32 = ((511 : ℝ) : EReal) := by
  simp [Ideal.ofBits, Ideal.ieee, -EReal.coe_mul]; norm_num

/-- The pattern of 1.0 denotes 1. -/
theorem ofBits_one : Ideal.ofBits .f32 0x3F800000#32 = (1 : EReal) := by
  simp [Ideal.ofBits, Ideal.ieee, -EReal.coe_mul]; norm_num

/-! ## One coordinate: position, cell, next cell, weight -/

/-- The pixel position of a normalized coordinate: scaled by 511 and clipped to [0, 511]. -/
def pos (a : EReal) : EReal := min ((511 : ℝ) : EReal) (max 0 (a * ((511 : ℝ) : EReal)))

/-- The cell of a coordinate: the floor of its position, converted to a signed 32-bit word. -/
def cell (a : EReal) : BitVec 32 := Ideal.fptosi 32 (Ideal.liftRound Int.floor (pos a))

/-- The next cell, capped at the last one. -/
def cellUp (a : EReal) : BitVec 32 := IntOp.minsi (IntOp.addi (cell a) 1#32) 511#32

/-- The weight of the next cell: the position minus its cell. -/
def frac (a : EReal) : EReal := pos a - (((cell a).toInt : ℝ) : EReal)

/-- Whatever the coordinate (an infinity included), its position is a real number in [0, 511]. -/
theorem pos_real (a : EReal) : ∃ r : ℝ, pos a = (r : EReal) ∧ 0 ≤ r ∧ r ≤ 511 := by
  induction a using EReal.rec with
  | bot =>
    -- ⊥ * 511 = ⊥, clipped below to 0
    refine ⟨0, ?_, le_refl _, by norm_num⟩
    unfold pos
    rw [EReal.bot_mul_coe_of_pos (by norm_num)]
    simp
  | coe r =>
    -- a real coordinate: the product, the max and the min are those of the reals
    refine ⟨min 511 (max 0 (r * 511)), ?_, ?_, ?_⟩
    · unfold pos
      have h0 : (0 : EReal) = ((0 : ℝ) : EReal) := rfl
      rw [← EReal.coe_mul, h0, ← Monotone.map_max EReal.coe_strictMono.monotone,
        ← Monotone.map_min EReal.coe_strictMono.monotone]
    · exact le_min (by norm_num) (le_max_left _ _)
    · exact min_le_left _ _
  | top =>
    -- ⊤ * 511 = ⊤, clipped above to 511
    refine ⟨511, ?_, by norm_num, le_refl _⟩
    unfold pos
    rw [EReal.top_mul_coe_of_pos (by norm_num)]
    simp

/-- The cell is the word of floor(position): a natural number below 512. -/
theorem cell_spec (a : EReal) : ∃ r : ℝ, pos a = (r : EReal) ∧ (cell a).toNat = ⌊r⌋.toNat ∧ (cell a).toInt = ⌊r⌋ ∧ 0 ≤ ⌊r⌋ ∧ ⌊r⌋ ≤ 511 := by
  obtain ⟨r, hr, h0, h1⟩ := pos_real a
  have hf0 : 0 ≤ ⌊r⌋ := Int.floor_nonneg.mpr h0
  have hf1 : ⌊r⌋ ≤ 511 := by
    have : (⌊r⌋ : ℝ) ≤ 511 := le_trans (Int.floor_le r) h1
    exact_mod_cast this
  -- the conversion of the real ⌊r⌋ truncates to ⌊r⌋ itself, and the clamp to the 32-bit range is idle
  have hc : cell a = BitVec.ofInt 32 ⌊r⌋ := by
    unfold cell Ideal.fptosi
    rw [hr, Ideal.liftRound_coe, Ideal.toIntClamped_coe]
    have : (0:ℝ) ≤ ((⌊r⌋ : ℤ) : ℝ) := by exact_mod_cast hf0
    rw [if_pos this, Int.floor_intCast]
    congr 1
    have e : (2 ^ (32 - 1) : ℕ) = 2147483648 := by norm_num
    rw [e]
    omega
  refine ⟨r, hr, ?_, ?_, hf0, hf1⟩
  · rw [hc, BitVec.toNat_ofInt]; omega
  · rw [hc]
    exact BitVec.toInt_ofInt_eq_self (by norm_num) (le_trans (by norm_num) hf0)
      (lt_of_le_of_lt hf1 (by norm_num))

theorem cell_lt (a : EReal) : (cell a).toNat < 512 := by
  obtain ⟨r, _, h, _, h0, h1⟩ := cell_spec a
  omega

theorem cellUp_lt (a : EReal) : (cellUp a).toNat < 512 := by
  have h := cell_lt a
  unfold cellUp IntOp.minsi IntOp.addi
  -- cell + 1 ≤ 512 does not wrap
  have h1 : (cell a + 1#32).toNat = (cell a).toNat + 1 := by
    rw [BitVec.toNat_add]; simp; omega
  split
  · rename_i hs
    rw [BitVec.slt, decide_eq_true_iff, BitVec.toInt_eq_toNat_of_lt (by omega), h1] at hs
    simp at hs
    omega
  · simp

/-- The weight is a real number. -/
theorem frac_real (a : EReal) : ∃ r : ℝ, frac a = (r : EReal) := by
  obtain ⟨r, hr, _⟩ := pos_real a
  exact ⟨r - ((cell a).toInt : ℝ), by unfold frac; rw [hr, EReal.coe_sub]⟩

/-- The cell and the next cell as coordinates of an axis of 512. -/
def lo (a : EReal) : Fin 512 := ⟨(cell a).toNat, cell_lt a⟩
def up (a : EReal) : Fin 512 := ⟨(cellUp a).toNat, cellUp_lt a⟩

/-! ## Words: the flat index of a cell, and a lane counter met with a cell -/

/-- Row u, column v of a 512 x 512 grid as the flat index u * 512 + v, computed in 32-bit words: no wrap. -/
theorem flat_toInt (u v : BitVec 32) (hu : u.toNat < 512) (hv : v.toNat < 512) :
    (IntOp.addi (IntOp.muli u 512#32) v).toInt = ((u.toNat * 512 + v.toNat : ℕ) : ℤ) := by
  unfold IntOp.addi IntOp.muli
  -- u * 512 + v < 2^18: neither the product nor the sum wraps, and the sign bit is clear
  rw [BitVec.toInt_eq_toNat_of_lt]
  · rw [BitVec.toNat_add, BitVec.toNat_mul]
    simp
    omega
  · rw [BitVec.toNat_add, BitVec.toNat_mul]
    simp
    omega

/-- A counter k < 512 written as a word equals a word below 512 exactly when k is its value. -/
theorem ofNat_eq_iff (k : Fin 512) (w : BitVec 32) (hw : w.toNat < 512) :
    BitVec.ofNat 32 k.val = w ↔ k.val = w.toNat := by
  constructor
  · intro h
    rw [← h, BitVec.toNat_ofNat]
    have := k.isLt
    omega
  · intro h
    apply BitVec.eq_of_toNat_eq
    rw [BitVec.toNat_ofNat]
    omega

/-! ## The result, as the blend of four corners -/

abbrev SField : Shape := ⟨4, ![16, 16, 512, 512]⟩
abbrev SPts : Shape := ⟨3, ![16, 2, 16384]⟩
abbrev SOut : Shape := ⟨3, ![16, 16, 16384]⟩

/-- The blend of the four corners, given the field's slice r[h, w] and the two coordinates. -/
def blend (r : Fin 512 → Fin 512 → EReal) (ay ax : EReal) : EReal :=
  r (lo ay) (lo ax) * (1 - frac ax) * (1 - frac ay)
    + r (lo ay) (up ax) * frac ax * (1 - frac ay)
    + r (up ay) (lo ax) * (1 - frac ax) * frac ay
    + r (up ay) (up ax) * frac ax * frac ay

/-- The interpolated field: entry (b, c, n) blends R[b, c, ., .] at the point (P[b, 0, n], P[b, 1, n]). -/
def G (R : SField.Idx → EReal) (P : SPts.Idx → EReal) : SOut.Idx → EReal := fun i =>
  blend (fun h w => R (ix4 (i 0) (i 1) h w)) (P (ix3 (i 0) (1 : Fin 2) (i 2))) (P (ix3 (i 0) (0 : Fin 2) (i 2)))

/-! ## The same value as a contraction with weighted one-hot selectors -/

/-- The weighted one-hot selector over an axis of 512: weight 1 - t where the counter meets the word w0,
    plus weight t where it meets w1 (both, added, where the two words coincide). -/
def sel (k : Fin 512) (w0 w1 : BitVec 32) (t : EReal) : EReal :=
  (if BitVec.ofNat 32 k.val = w0 then 1 - t else 0) + (if BitVec.ofNat 32 k.val = w1 then t else 0)

/-- Rows selected and weighted, then columns selected, weighted and summed. -/
def K (r : Fin 512 → Fin 512 → EReal) (y0 y1 x0 x1 : BitVec 32) (wy wx : EReal) : EReal :=
  ∑ w : Fin 512, (∑ h : Fin 512, sel h y0 y1 wy * r h w) * sel w x0 x1 wx

/-! ## The real-number identity behind K_eq, and its lift to the extended reals -/

/-- A finite sum of reals, coerced, is the sum of the coerced terms. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- In the reals: contracting q with the two weighted one-hot selectors leaves the four corners, weighted.
    Nothing is assumed about y0 ≠ y1 or x0 ≠ x1. -/
theorem real_contract (q : Fin 512 → Fin 512 → ℝ) (y0 y1 x0 x1 : Fin 512) (ty tx : ℝ) :
    ∑ w : Fin 512, (∑ h : Fin 512, ((if h = y0 then 1 - ty else 0) + (if h = y1 then ty else 0)) * q h w)
        * ((if w = x0 then 1 - tx else 0) + (if w = x1 then tx else 0))
      = q y0 x0 * (1 - tx) * (1 - ty) + q y0 x1 * tx * (1 - ty)
        + q y1 x0 * (1 - tx) * ty + q y1 x1 * tx * ty := by
  have inner : ∀ w : Fin 512,
      ∑ h : Fin 512, ((if h = y0 then 1 - ty else 0) + (if h = y1 then ty else 0)) * q h w
        = (1 - ty) * q y0 w + ty * q y1 w := by
    intro w
    simp only [add_mul, Finset.sum_add_distrib, ite_mul, zero_mul, Finset.sum_ite_eq', Finset.mem_univ,
      if_true]
  simp only [inner, mul_add, Finset.sum_add_distrib, mul_ite, mul_zero, Finset.sum_ite_eq', Finset.mem_univ,
    if_true]
  ring

/-- The selector at real weight t, over words below 512, is a coerced real: one-hot at the words' values. -/
theorem sel_real (k : Fin 512) (w0 w1 : BitVec 32) (h0 : w0.toNat < 512) (h1 : w1.toNat < 512) (t : ℝ) :
    sel k w0 w1 (t : EReal)
      = (((if k = ⟨w0.toNat, h0⟩ then 1 - t else 0) + (if k = ⟨w1.toNat, h1⟩ then t else 0) : ℝ) : EReal) := by
  unfold sel
  rw [EReal.coe_add]
  have e0 : (k = ⟨w0.toNat, h0⟩) ↔ BitVec.ofNat 32 k.val = w0 := by
    rw [ofNat_eq_iff k w0 h0, Fin.ext_iff]
  have e1 : (k = ⟨w1.toNat, h1⟩) ↔ BitVec.ofNat 32 k.val = w1 := by
    rw [ofNat_eq_iff k w1 h1, Fin.ext_iff]
  congr 1
  · by_cases c : BitVec.ofNat 32 k.val = w0
    · rw [if_pos c, if_pos (e0.mpr c), EReal.coe_sub, EReal.coe_one]
    · rw [if_neg c, if_neg (fun hh => c (e0.mp hh)), EReal.coe_zero]
  · by_cases c : BitVec.ofNat 32 k.val = w1
    · rw [if_pos c, if_pos (e1.mpr c)]
    · rw [if_neg c, if_neg (fun hh => c (e1.mp hh)), EReal.coe_zero]

/-- On a real-valued slice the contraction with the selectors of a point's cells IS the blend of the four
    corners: each sum keeps the one or two terms its selector meets, and the products distribute. -/
theorem K_eq (r : Fin 512 → Fin 512 → EReal) (hr : ∀ h w, ∃ q : ℝ, r h w = (q : EReal)) (ay ax : EReal) :
    K r (cell ay) (cellUp ay) (cell ax) (cellUp ax) (frac ay) (frac ax) = blend r ay ax := by
  choose q hq using hr
  obtain ⟨ty, hty⟩ := frac_real ay
  obtain ⟨tx, htx⟩ := frac_real ax
  have hK : K r (cell ay) (cellUp ay) (cell ax) (cellUp ax) (frac ay) (frac ax)
      = ((∑ w : Fin 512, (∑ h : Fin 512,
            ((if h = lo ay then 1 - ty else 0) + (if h = up ay then ty else 0)) * q h w)
          * ((if w = lo ax then 1 - tx else 0) + (if w = up ax then tx else 0)) : ℝ) : EReal) := by
    unfold K
    rw [hty, htx, coe_finset_sum]
    refine Finset.sum_congr rfl (fun w _ => ?_)
    rw [EReal.coe_mul, coe_finset_sum, sel_real w _ _ (cell_lt ax) (cellUp_lt ax)]
    congr 1
    refine Finset.sum_congr rfl (fun h _ => ?_)
    rw [EReal.coe_mul, sel_real h _ _ (cell_lt ay) (cellUp_lt ay), hq]
    rfl
  have hB : blend r ay ax
      = ((q (lo ay) (lo ax) * (1 - tx) * (1 - ty) + q (lo ay) (up ax) * tx * (1 - ty)
        + q (up ay) (lo ax) * (1 - tx) * ty + q (up ay) (up ax) * tx * ty : ℝ) : EReal) := by
    unfold blend
    rw [hty, htx, hq, hq, hq, hq]
    simp only [EReal.coe_add, EReal.coe_mul, EReal.coe_sub, EReal.coe_one]
  rw [hK, hB, real_contract]

end Cert.Interp

end
-- ==== Proof.Finite.lean ====
/-
  Finiteness of the field, read out of the precondition.

  The precondition says that every entry of both arguments has absolute value below +infinity: a
  conjunction of two reductions by `and` over all entries. Its first half gives, entry by entry of the
  field, |x| < +infinity on the extended reals, which leaves only the real numbers.
-/
import proofs.«176174_j11175504904483_1_alg».proof.Pre_finite_inputs
import proofs.«176174_j11175504904483_1_alg».proof.Proof.Gen.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.Interp.Finite

open Idealize.ShloMosaic Cert.Pre_finite_inputs

instance : Subsingleton S_.Idx := ⟨fun a b => funext fun d => d.elim0⟩

/-- An extended real whose absolute value is below +infinity is a real number. -/
theorem real_of_abs_lt_top (x : EReal) (h : max x (-x) < ⊤) : ∃ q : ℝ, x = (q : EReal) := by
  induction x using EReal.rec with
  | bot => simp at h
  | top => simp at h
  | coe r => exact ⟨r, rfl⟩

/-- Under the precondition every entry of the field is a real number. -/
theorem field_real (R : FVec Ideal S16x16x512x512 .f32) (P : FVec Ideal S16x2x16384 .f32)
    (h : fn (F := Ideal) R P = fun _ => 1#1) (i : S16x16x512x512.Idx) : ∃ q : ℝ, R i = (q : EReal) := by
  have h0 := congrFun h ValueIdx.ix0
  dsimp only [fn] at h0
  have h1 := (IntOp.andi_eq_one.1 h0).1
  have h2 := Host.reduce_andi_all _ _ _ _ _ h1 i
  have h3 : Ideal.cmp .olt (max (R i) (-(R i))) (Ideal.ofBits .f32 0x7F800000#32) = 1#1 := h2
  have hinf : Ideal.ofBits .f32 0x7F800000#32 = (⊤ : EReal) := by simp [Ideal.ofBits, Ideal.ieee]
  rw [hinf] at h3
  have hlt : max (R i) (-(R i)) < ⊤ := by
    by_contra hc
    simp [Ideal.cmp, hc] at h3
  exact real_of_abs_lt_top _ hlt

end Cert.Interp.Finite

end
-- ==== Proof.LibDot2.lean ====
/-
  A rank-2 matrix product read at an index, at the ideal instance (floats are the extended reals).

  The product of an `[M, K]` array by a `[K, N]` array is written either as the accelerator's
  multiply-accumulate into an accumulator that is zero everywhere, or as the host's general dot
  product; at the ideal instance both are, at `(p, q)`, the sum over the contraction index of the
  products of the operands' entries, with no rounding and no order of summation left in it. The
  contraction index set of a product with ONE contracted axis is a rank-1 index set; re-indexed by
  its coordinate the sum runs over `Fin K`:
      (l · r)[p, q] = ∑ k : Fin K, l[p, k] * r[k, q].
  The second family is the product with the left operand read transposed, `[K, M]` by `[K, N]`,
  contracting axis 0 of both:
      (lᵀ · r)[p, q] = ∑ k : Fin K, l[k, p] * r[k, q].
  For any dimension numbers the two spellings of one product (accumulating into zero, and the
  host's) are one and the same array.
-/
import Idealize.ShloMosaic.PureOps.Ideal
import Idealize.ShloMosaic.PureOps.Ideal.Laws
import Idealize.ShloMosaic.Lib.ValueIdx

noncomputable section

open scoped BigOperators

namespace Idealize.ShloMosaic.Dot2

open Idealize.ShloMosaic Idealize.ShloMosaic.ValueIdx

/-! ## `[M, K] × [K, N] → [M, N]` -/

/-- [M,K] x [K,N] -> [M,N], contracting lhs axis 1 with rhs axis 0: the dimension numbers of the
    plain matrix product, no batch axis; the result's axis 0 is the left operand's axis 0 and its
    axis 1 the right operand's axis 1. -/
abbrev mmDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section MM
variable {M K N : Nat}
  (wf : DotDims.WF ⟨2, ![M, K]⟩ ⟨2, ![K, N]⟩ ⟨2, ![M, N]⟩ [1] [0] [0] [1] [] [])

/-- The left operand's axis 0 is its free axis: its coordinate is the result's row, whatever the
    contraction index. -/
private theorem mm_lhs0 (j : (⟨2, ![M, N]⟩ : Shape).Idx) (k : (mmDims M K N wf).contr.Idx) :
    ((mmDims M K N wf).lhsIdx j k 0).val = (j 0).val := by
  unfold DotDims.lhsIdx
  rw [dif_neg (show (0 : Fin 2) ∉ ([] : List (Fin 2)) by decide),
    dif_pos (show (0 : Fin 2) ∈ [(0 : Fin 2)] by decide)]
  rfl

/-- The left operand's axis 1 is the contracted one: at the contraction index with coordinate `c`
    its coordinate is `c`. -/
private theorem mm_lhs1 (j : (⟨2, ![M, N]⟩ : Shape).Idx) (c : Fin K) :
    ((mmDims M K N wf).lhsIdx j ((contrEquiv1 (mmDims M K N wf) K rfl rfl).symm c) 1).val = c.val := by
  rw [(mmDims M K N wf).lhsIdx_val_of_single rfl]
  exact contrEquiv1_symm_val (mmDims M K N wf) K rfl rfl c

/-- The right operand's axis 0 is the contracted one: at the contraction index with coordinate `c`
    its coordinate is `c`. -/
private theorem mm_rhs0 (j : (⟨2, ![M, N]⟩ : Shape).Idx) (c : Fin K) :
    ((mmDims M K N wf).rhsIdx j ((contrEquiv1 (mmDims M K N wf) K rfl rfl).symm c) 0).val = c.val := by
  rw [(mmDims M K N wf).rhsIdx_val_of_single rfl]
  exact contrEquiv1_symm_val (mmDims M K N wf) K rfl rfl c

/-- The right operand's axis 1 is its free axis: its coordinate is the result's column, whatever
    the contraction index. -/
private theorem mm_rhs1 (j : (⟨2, ![M, N]⟩ : Shape).Idx) (k : (mmDims M K N wf).contr.Idx) :
    ((mmDims M K N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The contraction's sum at `(p, q)`, over the contraction index set and through the operand
    index maps, is the sum over the contracted coordinate `k : Fin K` of `l[p, k] * r[k, q]`. -/
theorem mm_sum (l : (⟨2, ![M, K]⟩ : Shape).Idx → EReal) (r : (⟨2, ![K, N]⟩ : Shape).Idx → EReal)
    (p : Fin M) (q : Fin N) :
    ∑ k : (mmDims M K N wf).contr.Idx,
        l ((mmDims M K N wf).lhsIdx (ix2 p q) k) * r ((mmDims M K N wf).rhsIdx (ix2 p q) k)
      = ∑ k : Fin K, l (ix2 p k) * r (ix2 k q) := by
  rw [← Equiv.sum_comp (contrEquiv1 (mmDims M K N wf) K rfl rfl).symm]
  refine Finset.sum_congr rfl fun c _ => ?_
  have hl : (mmDims M K N wf).lhsIdx (ix2 p q) ((contrEquiv1 (mmDims M K N wf) K rfl rfl).symm c)
      = ix2 p c := by
    funext a; apply Fin.ext
    match a with
    | ⟨0, _⟩ => exact mm_lhs0 wf (ix2 p q) _
    | ⟨1, _⟩ => exact mm_lhs1 wf (ix2 p q) c
  have hr : (mmDims M K N wf).rhsIdx (ix2 p q) ((contrEquiv1 (mmDims M K N wf) K rfl rfl).symm c)
      = ix2 c q := by
    funext a; apply Fin.ext
    match a with
    | ⟨0, _⟩ => exact mm_rhs0 wf (ix2 p q) c
    | ⟨1, _⟩ => exact mm_rhs1 wf (ix2 p q) _
  rw [hl, hr]

end MM

/-- The accelerator's product of `[M, K]` by `[K, N]` accumulated into the all-zero array, at
    `(p, q)`: `∑ k, l[p, k] * r[k, q]` in the extended reals. -/
theorem matmul_zero_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (mmDims M K N wf) prec l r (constant ⟨2, ![M, N]⟩ .f32 0x00000000#32) (ix2 p q)
      = ∑ k : Fin K, l (ix2 p k) * r (ix2 k q) := by
  rw [Ideal.matmul_constant_zero_apply]
  exact mm_sum wf l r p q

/-- The host's general dot product of `[M, K]` by `[K, N]`, at `(p, q)`, whatever its schedule:
    `∑ k, l[p, k] * r[k, q]` in the extended reals. -/
theorem dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule)
    (l : FVec Ideal ⟨2, ![M, K]⟩ φ₁) (r : FVec Ideal ⟨2, ![K, N]⟩ φ₂) (p : Fin M) (q : Fin N) :
    FloatOps.dotGeneral (mmDims M K N wf) prec sched l r (ix2 p q)
      = ∑ k : Fin K, l (ix2 p k) * r (ix2 k q) := by
  rw [Ideal.dotGeneral_apply]
  exact mm_sum wf l r p q

/-- The same for the host's product as a one-device program states it (the single-device
    schedule): at `(p, q)` it is `∑ k, l[p, k] * r[k, q]`. -/
theorem host_dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision)
    (l : FVec Ideal ⟨2, ![M, K]⟩ φ₁) (r : FVec Ideal ⟨2, ![K, N]⟩ φ₂) (p : Fin M) (q : Fin N) :
    Host.dotGeneral (mmDims M K N wf) prec l r (ix2 p q)
      = ∑ k : Fin K, l (ix2 p k) * r (ix2 k q) :=
  dotGeneral_mm_apply wf prec .single l r p q

/-! ## The two spellings of one product -/

/-- the two spellings of one product are one array: for any dimension numbers, the accelerator's
    product accumulated into the all-zero array is the host's product (which has no accumulator),
    whatever the host's schedule; both are the contraction's sum at every index. -/
theorem matmul_zero_eq_dotGeneral {sl sr so : Shape} {φ₁ φ₂ : FTy} (d : DotDims sl sr so)
    (prec : Option ContractPrecision) (sched : HostSchedule) (l : FVec Ideal sl φ₁) (r : FVec Ideal sr φ₂) :
    FloatOps.matmul d prec l r (constant so .f32 0x00000000#32) = FloatOps.dotGeneral d prec sched l r := by
  funext j
  rw [Ideal.matmul_constant_zero_apply, Ideal.dotGeneral_apply]

/-- The same against the host's product as a one-device program states it (the single-device
    schedule). -/
theorem matmul_zero_eq_host_dotGeneral {sl sr so : Shape} {φ₁ φ₂ : FTy} (d : DotDims sl sr so)
    (prec : Option ContractPrecision) (l : FVec Ideal sl φ₁) (r : FVec Ideal sr φ₂) :
    FloatOps.matmul d prec l r (constant so .f32 0x00000000#32) = Host.dotGeneral d prec l r :=
  matmul_zero_eq_dotGeneral d prec .single l r

/-! ## `[K, M] × [K, N] → [M, N]`, the left operand read transposed -/

/-- [K,M] x [K,N] -> [M,N], contracting axis 0 of both (the left operand read transposed): the
    result's axis 0 is the left operand's axis 1 and its axis 1 the right operand's axis 1. -/
abbrev tmDims (K M N : Nat)
    (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

section TM
variable {K M N : Nat}
  (wf : DotDims.WF ⟨2, ![K, M]⟩ ⟨2, ![K, N]⟩ ⟨2, ![M, N]⟩ [0] [0] [1] [1] [] [])

/-- The left operand's axis 0 is the contracted one: at the contraction index with coordinate `c`
    its coordinate is `c`. -/
private theorem tm_lhs0 (j : (⟨2, ![M, N]⟩ : Shape).Idx) (c : Fin K) :
    ((tmDims K M N wf).lhsIdx j ((contrEquiv1 (tmDims K M N wf) K rfl rfl).symm c) 0).val = c.val := by
  rw [(tmDims K M N wf).lhsIdx_val_of_single rfl]
  exact contrEquiv1_symm_val (tmDims K M N wf) K rfl rfl c

/-- The left operand's axis 1 is its free axis: its coordinate is the result's row, whatever the
    contraction index. -/
private theorem tm_lhs1 (j : (⟨2, ![M, N]⟩ : Shape).Idx) (k : (tmDims K M N wf).contr.Idx) :
    ((tmDims K M N wf).lhsIdx j k 1).val = (j 0).val := by
  unfold DotDims.lhsIdx
  rw [dif_neg (show (1 : Fin 2) ∉ ([] : List (Fin 2)) by decide),
    dif_pos (show (1 : Fin 2) ∈ [(1 : Fin 2)] by decide)]
  rfl

/-- The right operand's axis 0 is the contracted one: at the contraction index with coordinate `c`
    its coordinate is `c`. -/
private theorem tm_rhs0 (j : (⟨2, ![M, N]⟩ : Shape).Idx) (c : Fin K) :
    ((tmDims K M N wf).rhsIdx j ((contrEquiv1 (tmDims K M N wf) K rfl rfl).symm c) 0).val = c.val := by
  rw [(tmDims K M N wf).rhsIdx_val_of_single rfl]
  exact contrEquiv1_symm_val (tmDims K M N wf) K rfl rfl c

/-- The right operand's axis 1 is its free axis: its coordinate is the result's column, whatever
    the contraction index. -/
private theorem tm_rhs1 (j : (⟨2, ![M, N]⟩ : Shape).Idx) (k : (tmDims K M N wf).contr.Idx) :
    ((tmDims K M N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The transposed-left contraction's sum at `(p, q)`, over the contraction index set and through
    the operand index maps, is the sum over the contracted coordinate `k : Fin K` of
    `l[k, p] * r[k, q]`. -/
theorem tm_sum (l : (⟨2, ![K, M]⟩ : Shape).Idx → EReal) (r : (⟨2, ![K, N]⟩ : Shape).Idx → EReal)
    (p : Fin M) (q : Fin N) :
    ∑ k : (tmDims K M N wf).contr.Idx,
        l ((tmDims K M N wf).lhsIdx (ix2 p q) k) * r ((tmDims K M N wf).rhsIdx (ix2 p q) k)
      = ∑ k : Fin K, l (ix2 k p) * r (ix2 k q) := by
  rw [← Equiv.sum_comp (contrEquiv1 (tmDims K M N wf) K rfl rfl).symm]
  refine Finset.sum_congr rfl fun c _ => ?_
  have hl : (tmDims K M N wf).lhsIdx (ix2 p q) ((contrEquiv1 (tmDims K M N wf) K rfl rfl).symm c)
      = ix2 c p := by
    funext a; apply Fin.ext
    match a with
    | ⟨0, _⟩ => exact tm_lhs0 wf (ix2 p q) c
    | ⟨1, _⟩ => exact tm_lhs1 wf (ix2 p q) _
  have hr : (tmDims K M N wf).rhsIdx (ix2 p q) ((contrEquiv1 (tmDims K M N wf) K rfl rfl).symm c)
      = ix2 c q := by
    funext a; apply Fin.ext
    match a with
    | ⟨0, _⟩ => exact tm_rhs0 wf (ix2 p q) c
    | ⟨1, _⟩ => exact tm_rhs1 wf (ix2 p q) _
  rw [hl, hr]

end TM

/-- The accelerator's product of `[K, M]` (read transposed) by `[K, N]` accumulated into the
    all-zero array, at `(p, q)`: `∑ k, l[k, p] * r[k, q]` in the extended reals. -/
theorem matmul_zero_tm_apply {K M N : Nat} {φ₁ φ₂ : FTy}
    (wf : DotDims.WF ⟨2, ![K, M]⟩ ⟨2, ![K, N]⟩ ⟨2, ![M, N]⟩ [0] [0] [1] [1] [] [])
    (prec : Option ContractPrecision) (l : FVec Ideal ⟨2, ![K, M]⟩ φ₁) (r : FVec Ideal ⟨2, ![K, N]⟩ φ₂)
    (p : Fin M) (q : Fin N) :
    FloatOps.matmul (tmDims K M N wf) prec l r (constant ⟨2, ![M, N]⟩ .f32 0x00000000#32) (ix2 p q)
      = ∑ k : Fin K, l (ix2 k p) * r (ix2 k q) := by
  rw [Ideal.matmul_constant_zero_apply]
  exact tm_sum wf l r p q

end Idealize.ShloMosaic.Dot2

end
-- ==== Proof.Payload.lean ====
/-
  The kernel body's stored block, read at an index.

  At a grid point the body loads the point tile's four cell words (x0, y0, x1, y1), its two weights (wx, wy) and
  the batch's whole field slab, builds the weighted one-hot row selector over the 512 rows and the weighted
  one-hot column selector over the 512 columns, and for each of the 16 channels contracts the channel's
  512 x 512 slice with the row selector (a matrix product into a zero accumulator), multiplies by the column
  selector and sums over the columns. The 16 channel rows are stacked and stored as one block. Read at
  (0, c, n) the block is therefore the contraction K of channel c's slice with the selectors of point n.
-/
import proofs.«176174_j11175504904483_1_alg».proof.Proof.Gen.KernelIdeal.Frame
import proofs.«176174_j11175504904483_1_alg».proof.Proof.Spec
import proofs.«176174_j11175504904483_1_alg».proof.Proof.LibDot2
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.TcCoe Idealize.ShloMosaic.ValueIdx Cert.Interp

/-! ## Layout operations of the selectors, read at an index -/

section Layout
variable {α : Type}

/-- A `[1, 1, a]` array cast to `[a]` reads, at `n`, the operand at `(0, 0, n)`. -/
theorem cast_11a_a_apply {a : ℕ} (x : (⟨3, ![1, 1, a]⟩ : Shape).Idx → α)
    (h : (⟨3, ![1, 1, a]⟩ : Shape).ShapeCasts ⟨1, ![a]⟩) (n : Fin a) :
    shapeCast ⟨1, ![a]⟩ x h (ix1 n) = x (ix3 (0 : Fin 1) (0 : Fin 1) n) :=
  shapeCast_apply x h _ _ (by
    rw [Shape.rowMajor_val_three, Shape.rowMajor_val_one]
    show (0 * 1 + 0) * a + n.val = n.val
    omega)

/-- An `[a]` array cast to the column `[a, 1]` reads, at `(p, u)`, the operand at `p`. -/
theorem cast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column `[a, 1]` broadcast to `[a, b]` reads, at `(p, q)`, the column's entry of row `p`. -/
theorem bcast_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A point tile's word or weight `[1, 1, a]`, made a column and broadcast along the rows of `[a, b]`:
    at `(n, q)` it is the tile's entry of point `n`. -/
theorem bcol_apply {a b : ℕ} (x : (⟨3, ![1, 1, a]⟩ : Shape).Idx → α)
    (h1 : (⟨3, ![1, 1, a]⟩ : Shape).ShapeCasts ⟨1, ![a]⟩) (h2 : (⟨1, ![a]⟩ : Shape).ShapeCasts ⟨2, ![a, 1]⟩)
    (h3 : (⟨2, ![a, 1]⟩ : Shape).Broadcasts ⟨2, ![a, b]⟩) (n : Fin a) (q : Fin b) :
    broadcastTo ⟨2, ![a, b]⟩ (shapeCast ⟨2, ![a, 1]⟩ (shapeCast ⟨1, ![a]⟩ x h1) h2) h3 (ix2 n q)
      = x (ix3 (0 : Fin 1) (0 : Fin 1) n) :=
  (bcast_a1_ab_apply _ h3 n q).trans ((cast_a_a1_apply _ h2 n 0).trans (cast_11a_a_apply x h1 n))

end Layout

/-! ## The compare-and-select of one selector term -/

/-- Selecting on the equality test of two words is the `if` on their equality. -/
theorem select_cmpi_eq {α : Type} (a b : BitVec 32) (u v : α) :
    Scalar.select (IntOp.cmpi .eq a b) u v = if a = b then u else v := by
  show (if BitVec.ofBool (a == b) = 1 then u else v) = _
  by_cases h : a = b
  · subst h; simp
  · have hb : (a == b) = false := by simpa using h
    rw [if_neg h, hb]; rfl

/-- The lane counter along axis 1 of `[2048, 512]` reads, at `(n, q)`, the word of `q`. -/
theorem iota_apply (h : S2048x512.Iotas .tc 32 [1]) (n : Fin 2048) (q : Fin 512) :
    iota .tc S2048x512 32 [1] h (ix2 n q) = BitVec.ofNat 32 q.val :=
  iota_single_apply .tc S2048x512 32 1 h (ix2 n q)

/-- A compare of two word arrays reads pointwise. -/
theorem cmpi_apply {s : Shape} {w : ℕ} (p : CmpIPredicate) (a b : IVec s w) (i : s.Idx) :
    cmpi p a b i = IntOp.cmpi p (a i) (b i) := rfl

/-! ## The two selectors -/

/-- The row selector: at `(n, h)` the weighted one-hot of row `h` against point `n`'s two row words. -/
theorem rowSel_apply (y0 y1 : Vec Ideal S1x1x2048 .i32) (wy : Vec Ideal S1x1x2048 .f32) (n : Fin 2048) (h : Fin 512) :
    k0_pay6 (F := Ideal) y0 y1 wy (ix2 n h)
      = sel h (y0 (ix3 (0 : Fin 1) (0 : Fin 1) n)) (y1 (ix3 (0 : Fin 1) (0 : Fin 1) n)) (wy (ix3 (0 : Fin 1) (0 : Fin 1) n)) := by
  unfold k0_pay6 sel
  simp only [truncf_apply, addf_apply, select_apply, cmpi_apply, iota_single_apply, select_cmpi_eq, shapeCast_self,
    bcol_apply, bcast_a1_ab_apply, subf_apply, broadcast_apply, cast_a_a1_apply, cast_11a_a_apply,
    Ideal.ofBits_def, ofBits_one, Ideal.ofBits_zero_f32]
  rw [iota_apply iota_S2048x512_d1_w32 n h]

/-- The column selector: at `(n, w)` the weighted one-hot of column `w` against point `n`'s two column words. -/
theorem colSel_apply (x0 x1 : Vec Ideal S1x1x2048 .i32) (wx : Vec Ideal S1x1x2048 .f32) (n : Fin 2048) (w : Fin 512) :
    k0_pay8 (F := Ideal) (k0_pay4 x1) (k0_pay5 wx) (iota .tc S2048x512 32 [1] iota_S2048x512_d1_w32) (k0_pay7 x0) (ix2 n w)
      = sel w (x0 (ix3 (0 : Fin 1) (0 : Fin 1) n)) (x1 (ix3 (0 : Fin 1) (0 : Fin 1) n)) (wx (ix3 (0 : Fin 1) (0 : Fin 1) n)) := by
  unfold k0_pay8 k0_pay4 k0_pay5 k0_pay7 sel
  simp only [addf_apply, select_apply, cmpi_apply, select_cmpi_eq, shapeCast_self,
    bcol_apply, bcast_a1_ab_apply, subf_apply, broadcast_apply, cast_a_a1_apply, cast_11a_a_apply,
    Ideal.ofBits_def, ofBits_one, Ideal.ofBits_zero_f32]
  rw [iota_apply iota_S2048x512_d1_w32 n w]

/-! ## One channel -/

/-- One channel's row of the block: the channel's `512 x 512` slice multiplied on the left by the row selector
    (a matrix product into the zero array), multiplied entry by entry by the column selector, summed over
    the columns. -/
def chan (oy : FVec Ideal S2048x512 .bf16) (ox : FVec Ideal S2048x512 .f32) (v : FVec Ideal S1x1x512x512 .bf16) :
    FVec Ideal S2048 .f32 :=
  multiReduction .add [1] S2048
    (mulf (matmul dot_S2048x512_S512x512_S2048x512_1_0_0_1_n_n none oy
      (shapeCast S512x512 v shapeCasts_S1x1x512x512_S512x512) (constant S2048x512 .f32 0x00000000#32)) ox)
    0x00000000#32 reduces_S2048x512_S2048 (.inl rfl) rfl

/-- A `[1, 1, a, b]` array cast to `[a, b]` reads, at `(i, j)`, the operand at `(0, 0, i, j)`. -/
theorem cast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add, Nat.add_zero])

/-- The lane sum over axis 1 of a `[2048, 512]` array, at row `n`. -/
theorem rowSum_apply (src : FVec Ideal S2048x512 .f32) (h : S2048x512.Reduces [1] S2048) (hφ : FKind.Formats .f32)
    (hacc : (0x00000000#32 : BitVec 32) = 0x00000000#32) (n : Fin 2048) :
    multiReduction .add [1] S2048 src 0x00000000#32 h hφ hacc (ix1 n) = ∑ w : Fin 512, src (ix2 n w) := by
  refine (Ideal.multiReduction_add_single src 0x00000000#32 h hφ hacc (ix1 n)).trans ?_
  refine Finset.sum_congr rfl fun w _ => congrArg src ?_
  funext a
  apply Fin.ext
  match a with
  | ⟨0, _⟩ => rfl
  | ⟨1, _⟩ => rfl

/-- The kernel's dimension numbers are those of the plain product `[2048, 512] x [512, 512]`. -/
theorem dot_eq : dot_S2048x512_S512x512_S2048x512_1_0_0_1_n_n
    = Dot2.mmDims 2048 512 512 Facts₀.dot_S2048x512_S512x512_S2048x512_1_0_0_1_n_n_wf := rfl

/-- One channel's row at point `n`. -/
theorem chan_apply (oy : FVec Ideal S2048x512 .bf16) (ox : FVec Ideal S2048x512 .f32) (v : FVec Ideal S1x1x512x512 .bf16)
    (n : Fin 2048) :
    chan oy ox v (ix1 n)
      = ∑ w : Fin 512, (∑ h : Fin 512, oy (ix2 n h) * v (ix4 (0 : Fin 1) (0 : Fin 1) h w)) * ox (ix2 n w) := by
  unfold chan
  refine (rowSum_apply _ _ _ _ n).trans ?_
  refine Finset.sum_congr rfl fun w _ => ?_
  rw [mulf_apply]
  congr 1
  show FloatOps.matmul dot_S2048x512_S512x512_S2048x512_1_0_0_1_n_n none oy _ _ (ix2 n w) = _
  rw [dot_eq]
  refine (Dot2.matmul_zero_mm_apply _ none oy _ n w).trans ?_
  refine Finset.sum_congr rfl fun h _ => ?_
  rw [cast_11ab_ab_apply]

/-! ## The slab's slices and the whole-block accesses -/

/-- A load of a whole `[1, 1, 2048]` tile through the unit rectangle at zero offsets reads the tile. -/
theorem ld_tile {e : EltTy} (x : Vec Ideal S1x1x2048 e) : View.ld x r0_0 = x :=
  View.ld_unit_zero (funext fun a => match a with | ⟨0, _⟩ => rfl | ⟨1, _⟩ => rfl | ⟨2, _⟩ => rfl) _ x

/-- The slab's slice through the unit rectangle at `(0, c, 0, 0)` of sizes `[1, 1, 512, 512]` reads, at
    `(0, 0, h, w)`, the slab at `(0, c, h, w)`. -/
theorem ld_slice_apply (x6 : Vec Ideal S1x16x512x512 .bf16) (c : ℕ) (hc : c < 16)
    (inb : ∀ a, (![0, c, 0, 0] : Fin 4 → Nat) a + S1x1x512x512.size a ≤ S1x16x512x512.size a) (h w : Fin 512) :
    View.ld x6 (Rect.unit (s := S1x16x512x512) ![0, c, 0, 0] S1x1x512x512.size inb) (ix4 (0 : Fin 1) (0 : Fin 1) h w)
      = x6 (ix4 (0 : Fin 1) (⟨c, hc⟩ : Fin 16) h w) := by
  show x6 _ = x6 _
  congr 1
  funext a
  apply Fin.ext
  match a with
  | ⟨0, _⟩ => rfl
  | ⟨1, _⟩ => show c + 1 * 0 = c; omega
  | ⟨2, _⟩ => show 0 + 1 * h.val = h.val; omega
  | ⟨3, _⟩ => show 0 + 1 * w.val = w.val; omega

/-- Channel `c`'s row at point `n` is the contraction `K` of the channel's slice with point `n`'s selectors. -/
theorem chan_K (x0 x1 x2 x3 : Vec Ideal S1x1x2048 .i32) (x4 x5 : Vec Ideal S1x1x2048 .f32)
    (x6 : Vec Ideal S1x16x512x512 .bf16) (c : ℕ) (hc : c < 16)
    (inb : ∀ a, (![0, c, 0, 0] : Fin 4 → Nat) a + S1x1x512x512.size a ≤ S1x16x512x512.size a) (n : Fin 2048) :
    chan (k0_pay6 (View.ld x1 r0_0) (View.ld x3 r0_0) (View.ld x5 r0_0))
        (k0_pay8 (k0_pay4 (View.ld x2 r0_0)) (k0_pay5 (View.ld x4 r0_0))
          (iota .tc S2048x512 32 [1] iota_S2048x512_d1_w32) (k0_pay7 (View.ld x0 r0_0)))
        (View.ld x6 (Rect.unit (s := S1x16x512x512) ![0, c, 0, 0] S1x1x512x512.size inb)) (ix1 n)
      = K (fun h w => x6 (ix4 (0 : Fin 1) (⟨c, hc⟩ : Fin 16) h w))
          (x1 (ix3 (0 : Fin 1) (0 : Fin 1) n)) (x3 (ix3 (0 : Fin 1) (0 : Fin 1) n))
          (x0 (ix3 (0 : Fin 1) (0 : Fin 1) n)) (x2 (ix3 (0 : Fin 1) (0 : Fin 1) n))
          (x5 (ix3 (0 : Fin 1) (0 : Fin 1) n)) (x4 (ix3 (0 : Fin 1) (0 : Fin 1) n)) := by
  rw [chan_apply, ld_tile x0, ld_tile x1, ld_tile x2, ld_tile x3, ld_tile x4, ld_tile x5]
  unfold K
  refine Finset.sum_congr rfl fun w _ => ?_
  rw [colSel_apply]
  congr 1
  refine Finset.sum_congr rfl fun h _ => ?_
  rw [rowSel_apply, ld_slice_apply x6 c hc inb h w]

/-! ## The stack of the 16 rows -/

/-- Sixteen rows `[2048]`, each made a `[1, 2048]` piece, concatenated along axis 0 and given a leading unit axis:
    at `(0, c, n)` the stack reads row `c` at `n`. -/
theorem stack_apply (v0 v1 v2 v3 v4 v5 v6 v7 v8 v9 v10 v11 v12 v13 v14 v15 : FVec Ideal S2048 .f32)
    (h1 : S2048.ShapeCasts S1x2048)
    (hc : Shape.Concatenates [S1x2048, S1x2048, S1x2048, S1x2048, S1x2048, S1x2048, S1x2048, S1x2048, S1x2048, S1x2048, S1x2048, S1x2048, S1x2048, S1x2048, S1x2048, S1x2048] S16x2048 0)
    (h2 : S16x2048.ShapeCasts S1x16x2048) (c : Fin 16) (n : Fin 2048) :
    shapeCast S1x16x2048 (concatenate S16x2048 0 [⟨S1x2048, shapeCast S1x2048 v0 h1⟩, ⟨S1x2048, shapeCast S1x2048 v1 h1⟩, ⟨S1x2048, shapeCast S1x2048 v2 h1⟩, ⟨S1x2048, shapeCast S1x2048 v3 h1⟩, ⟨S1x2048, shapeCast S1x2048 v4 h1⟩, ⟨S1x2048, shapeCast S1x2048 v5 h1⟩, ⟨S1x2048, shapeCast S1x2048 v6 h1⟩, ⟨S1x2048, shapeCast S1x2048 v7 h1⟩, ⟨S1x2048, shapeCast S1x2048 v8 h1⟩, ⟨S1x2048, shapeCast S1x2048 v9 h1⟩, ⟨S1x2048, shapeCast S1x2048 v10 h1⟩, ⟨S1x2048, shapeCast S1x2048 v11 h1⟩, ⟨S1x2048, shapeCast S1x2048 v12 h1⟩, ⟨S1x2048, shapeCast S1x2048 v13 h1⟩, ⟨S1x2048, shapeCast S1x2048 v14 h1⟩, ⟨S1x2048, shapeCast S1x2048 v15 h1⟩] hc) h2 (ix3 (0 : Fin 1) c n)
      = (![v0, v1, v2, v3, v4, v5, v6, v7, v8, v9, v10, v11, v12, v13, v14, v15] : Fin 16 → FVec Ideal S2048 .f32) c (ix1 n) := by
  refine (shapeCast_ab_1ab_apply _ h2 0 c n).trans ?_
  refine (concatenate_ofFn_unit_apply (t := S16x2048) (s₁ := S1x2048) 0
    (fun k : Fin 16 => shapeCast S1x2048 ((![v0, v1, v2, v3, v4, v5, v6, v7, v8, v9, v10, v11, v12, v13, v14, v15] : Fin 16 → FVec Ideal S2048 .f32) k) h1)
    hc rfl rfl (ix2 c n) c rfl (ix2 (0 : Fin 1) n) ?_).trans ?_
  · intro b hb
    match b with
    | ⟨0, _⟩ => exact absurd rfl hb
    | ⟨1, _⟩ => rfl
  · exact shapeCast_a_1a_apply _ h1 0 n

/-! ## The stored block -/

/-- The stored block at (0, c, n): channel c's slice contracted with point n's row and column selectors. -/
theorem out_apply (x0 x1 x2 x3 : Vec Ideal S1x1x2048 .i32) (x4 x5 : Vec Ideal S1x1x2048 .f32)
    (x6 : Vec Ideal S1x16x512x512 .bf16) (c : Fin 16) (n : Fin 2048) :
    out0_7 (F := Ideal) x0 x1 x2 x3 x4 x5 x6 (ix3 (0 : Fin 1) c n)
      = K (fun h w => x6 (ix4 (0 : Fin 1) c h w))
          (x1 (ix3 (0 : Fin 1) (0 : Fin 1) n)) (x3 (ix3 (0 : Fin 1) (0 : Fin 1) n))
          (x0 (ix3 (0 : Fin 1) (0 : Fin 1) n)) (x2 (ix3 (0 : Fin 1) (0 : Fin 1) n))
          (x5 (ix3 (0 : Fin 1) (0 : Fin 1) n)) (x4 (ix3 (0 : Fin 1) (0 : Fin 1) n)) := by
  unfold out0_7
  refine (congrFun (View.canon_unit_zero
    (funext fun a => match a with | ⟨0, _⟩ => rfl | ⟨1, _⟩ => rfl | ⟨2, _⟩ => rfl) _ _) _).trans ?_
  unfold k0_pay3
  refine (stack_apply _ _ _ _ _ _ _ _ _ _ _ _ _ _ _ _ _ _ _ c n).trans ?_
  match c with
  | ⟨0, _⟩ => exact chan_K x0 x1 x2 x3 x4 x5 x6 0 (by decide) _ n
  | ⟨1, _⟩ => exact chan_K x0 x1 x2 x3 x4 x5 x6 1 (by decide) _ n
  | ⟨2, _⟩ => exact chan_K x0 x1 x2 x3 x4 x5 x6 2 (by decide) _ n
  | ⟨3, _⟩ => exact chan_K x0 x1 x2 x3 x4 x5 x6 3 (by decide) _ n
  | ⟨4, _⟩ => exact chan_K x0 x1 x2 x3 x4 x5 x6 4 (by decide) _ n
  | ⟨5, _⟩ => exact chan_K x0 x1 x2 x3 x4 x5 x6 5 (by decide) _ n
  | ⟨6, _⟩ => exact chan_K x0 x1 x2 x3 x4 x5 x6 6 (by decide) _ n
  | ⟨7, _⟩ => exact chan_K x0 x1 x2 x3 x4 x5 x6 7 (by decide) _ n
  | ⟨8, _⟩ => exact chan_K x0 x1 x2 x3 x4 x5 x6 8 (by decide) _ n
  | ⟨9, _⟩ => exact chan_K x0 x1 x2 x3 x4 x5 x6 9 (by decide) _ n
  | ⟨10, _⟩ => exact chan_K x0 x1 x2 x3 x4 x5 x6 10 (by decide) _ n
  | ⟨11, _⟩ => exact chan_K x0 x1 x2 x3 x4 x5 x6 11 (by decide) _ n
  | ⟨12, _⟩ => exact chan_K x0 x1 x2 x3 x4 x5 x6 12 (by decide) _ n
  | ⟨13, _⟩ => exact chan_K x0 x1 x2 x3 x4 x5 x6 13 (by decide) _ n
  | ⟨14, _⟩ => exact chan_K x0 x1 x2 x3 x4 x5 x6 14 (by decide) _ n
  | ⟨15, _⟩ => exact chan_K x0 x1 x2 x3 x4 x5 x6 15 (by decide) _ n
  | ⟨k + 16, hk⟩ => exact absurd hk (by omega)

end Cert.KernelIdeal.Payload

end
-- ==== Proof.Windows.lean ====
/-
  The arrays the kernel's windows stage, as functions of the two arguments.

  Before the region, the host part of the program computes from the points P[b, k, n] the cell words, the
  next-cell words and the weights of both coordinates, each reshaped to [16, 1, 16384], and hands the field
  over in a narrower float format, which on the extended reals is the field itself. Read at an index, each
  of the seven arrays is the specification's scalar function of one entry of an argument.
-/
import proofs.«176174_j11175504904483_1_alg».proof.Proof.Gen.KernelIdeal.Frame
import proofs.«176174_j11175504904483_1_alg».proof.Proof.Spec
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Windows

open Cert.KernelIdeal Cert.KernelIdeal.Gen Idealize.ShloMosaic Idealize.ShloMosaic.TcCoe Idealize.SL.Sem Idealize.ShloMosaic.ValueIdx Cert.Interp

/-! ## The host's arrays, as functions of the points -/

/-- The scaled and clipped coordinate array the host computes from a slice of the points: the slice, flattened to
    [16, 16384], times the splat 511, clipped below by the splat 0 and above by the splat 511. -/
def posArr (off : Fin 3 → Nat) (h : S16x2x16384.Slices off S16x1x16384) (P : S16x2x16384.Idx → EReal) : S16x16384.Idx → EReal :=
  minimumf (F := Ideal) (φ := .f32) (broadcastInDim S16x16384 ![] bcast_S_S16x16384 (constant (F := Ideal) S_ .f32 0x43FF8000#32))
    (maximumf (F := Ideal) (φ := .f32) (broadcastInDim S16x16384 ![] bcast_S_S16x16384 (constant (F := Ideal) S_ .f32 0x00000000#32))
      (mulf (F := Ideal) (φ := .f32) (fun i => shapeCast S16x16384 (extractStridedSlice S16x1x16384 off P h) shapeCasts_S16x1x16384_S16x16384 i)
        (broadcastInDim S16x16384 ![] bcast_S_S16x16384 (constant (F := Ideal) S_ .f32 0x43FF8000#32))))

/-- The cell array: the floor of the position array, converted to signed words. -/
def cellArr (off : Fin 3 → Nat) (h : S16x2x16384.Slices off S16x1x16384) (P : S16x2x16384.Idx → EReal) : S16x16384.Idx → BitVec 32 :=
  fptosi (F := Ideal) (φ := .f32) 32 (Host.floor (F := Ideal) (φ := .f32) (posArr off h P))

/-- The next-cell array: the cell plus the splat 1, capped by the splat 511. -/
def upArr (off : Fin 3 → Nat) (h : S16x2x16384.Slices off S16x1x16384) (P : S16x2x16384.Idx → EReal) : S16x16384.Idx → BitVec 32 :=
  minsi (addi (cellArr off h P) (broadcastInDim S16x16384 ![] bcast_S_S16x16384 (constantI S_ 32 1#32)))
    (broadcastInDim S16x16384 ![] bcast_S_S16x16384 (constantI S_ 32 511#32))

/-- The weight array: the position minus its cell as a float. -/
def fracArr (off : Fin 3 → Nat) (h : S16x2x16384.Slices off S16x1x16384) (P : S16x2x16384.Idx → EReal) : S16x16384.Idx → EReal :=
  subf (F := Ideal) (φ := .f32) (posArr off h P) (sitofp (F := Ideal) .f32 (cellArr off h P))

/-- A [16, 16384] array seen as [16, 1, 16384]. -/
def lift3 {α : Type} (x : S16x16384.Idx → α) : S16x1x16384.Idx → α :=
  fun i => shapeCast S16x1x16384 x shapeCasts_S16x16384_S16x1x16384 i

/-! ## The arrays read at an index -/

/-- Entry (b, 0, n) of the [16, 1, 16384] view is entry (b, n): the two have the same row-major position. -/
theorem lift3_apply {α : Type} (x : S16x16384.Idx → α) (b : Fin 16) (n : Fin 16384) :
    lift3 x (ix3 b (0 : Fin 1) n) = x (ix2 b n) := by
  unfold lift3
  refine shapeCast_apply x shapeCasts_S16x16384_S16x1x16384 (ix3 b (0 : Fin 1) n) (ix2 b n) ?_
  rewrite [Shape.rowMajor_val_three, Shape.rowMajor_val_two]
  show b.val * 16384 + n.val = (b.val * 1 + 0) * 16384 + n.val
  omega

/-- A float splat read anywhere is the constant. -/
theorem splat_apply (w : BitVec 32) (i : S16x16384.Idx) :
    broadcastInDim S16x16384 ![] bcast_S_S16x16384 (constant (F := Ideal) S_ .f32 w) i = Ideal.ofBits .f32 w :=
  broadcastInDim_apply _ bcast_S_S16x16384 _ i (fun a => a.elim0) (fun a => a.elim0)

/-- A word splat read anywhere is the word. -/
theorem splatI_apply (w : BitVec 32) (i : S16x16384.Idx) :
    broadcastInDim S16x16384 ![] bcast_S_S16x16384 (constantI S_ 32 w) i = w :=
  broadcastInDim_apply _ bcast_S_S16x16384 _ i (fun a => a.elim0) (fun a => a.elim0)

/-- The position array at (b, n) is the position of the one entry of the points that the slice puts there: the
    flattening keeps the row-major position, the slice shifts by its offsets, and the three splats are 511, 0, 511. -/
theorem posArr_apply (off : Fin 3 → Nat) (h : S16x2x16384.Slices off S16x1x16384) (P : S16x2x16384.Idx → EReal)
    (b : Fin 16) (n : Fin 16384) (k : S16x2x16384.Idx)
    (hk : ∀ a : Fin 3, (k a).val = off a + ((ix3 b (0 : Fin 1) n : S16x1x16384.Idx) a).val) :
    posArr off h P (ix2 b n) = pos (P k) := by
  unfold posArr
  rw [minimumf_apply, maximumf_apply, mulf_apply, splat_apply, splat_apply, ofBits_511, Ideal.ofBits_zero_f32]
  unfold pos
  congr 3
  refine (shapeCast_apply _ shapeCasts_S16x1x16384_S16x16384 (ix2 b n) (ix3 b (0 : Fin 1) n) ?_).trans ?_
  · rewrite [Shape.rowMajor_val_three, Shape.rowMajor_val_two]
    show (b.val * 1 + 0) * 16384 + n.val = b.val * 16384 + n.val
    omega
  · exact extractStridedSlice_apply off P h _ k hk

/-- The cell array at (b, n) is the cell of that entry. -/
theorem cellArr_apply (off : Fin 3 → Nat) (h : S16x2x16384.Slices off S16x1x16384) (P : S16x2x16384.Idx → EReal)
    (b : Fin 16) (n : Fin 16384) (k : S16x2x16384.Idx)
    (hk : ∀ a : Fin 3, (k a).val = off a + ((ix3 b (0 : Fin 1) n : S16x1x16384.Idx) a).val) :
    cellArr off h P (ix2 b n) = cell (P k) := by
  show Ideal.fptosi 32 (Ideal.liftRound Int.floor (posArr off h P (ix2 b n))) = _
  rw [posArr_apply off h P b n k hk]
  rfl

/-- The next-cell array at (b, n) is the next cell of that entry. -/
theorem upArr_apply (off : Fin 3 → Nat) (h : S16x2x16384.Slices off S16x1x16384) (P : S16x2x16384.Idx → EReal)
    (b : Fin 16) (n : Fin 16384) (k : S16x2x16384.Idx)
    (hk : ∀ a : Fin 3, (k a).val = off a + ((ix3 b (0 : Fin 1) n : S16x1x16384.Idx) a).val) :
    upArr off h P (ix2 b n) = cellUp (P k) := by
  show IntOp.minsi (IntOp.addi (cellArr off h P (ix2 b n)) (broadcastInDim S16x16384 ![] bcast_S_S16x16384 (constantI S_ 32 1#32) (ix2 b n)))
      (broadcastInDim S16x16384 ![] bcast_S_S16x16384 (constantI S_ 32 511#32) (ix2 b n)) = _
  rw [splatI_apply, splatI_apply, cellArr_apply off h P b n k hk]
  rfl

/-- The weight array at (b, n) is the weight of that entry. -/
theorem fracArr_apply (off : Fin 3 → Nat) (h : S16x2x16384.Slices off S16x1x16384) (P : S16x2x16384.Idx → EReal)
    (b : Fin 16) (n : Fin 16384) (k : S16x2x16384.Idx)
    (hk : ∀ a : Fin 3, (k a).val = off a + ((ix3 b (0 : Fin 1) n : S16x1x16384.Idx) a).val) :
    fracArr off h P (ix2 b n) = frac (P k) := by
  show posArr off h P (ix2 b n) - (((cellArr off h P (ix2 b n)).toInt : ℝ) : EReal) = _
  rw [posArr_apply off h P b n k hk, cellArr_apply off h P b n k hk]
  rfl

/-- The slice of coordinate 0 puts P[b, 0, n] at (b, 0, n). -/
theorem slice_x (b : Fin 16) (n : Fin 16384) (a : Fin 3) :
    ((ix3 b (0 : Fin 2) n : S16x2x16384.Idx) a).val = (![0, 0, 0] : Fin 3 → Nat) a + ((ix3 b (0 : Fin 1) n : S16x1x16384.Idx) a).val :=
  match a with
  | ⟨0, _⟩ => by show b.val = 0 + b.val; omega
  | ⟨1, _⟩ => by show 0 = 0 + 0; omega
  | ⟨2, _⟩ => by show n.val = 0 + n.val; omega

/-- The slice of coordinate 1 puts P[b, 1, n] at (b, 0, n). -/
theorem slice_y (b : Fin 16) (n : Fin 16384) (a : Fin 3) :
    ((ix3 b (1 : Fin 2) n : S16x2x16384.Idx) a).val = (![0, 1, 0] : Fin 3 → Nat) a + ((ix3 b (0 : Fin 1) n : S16x1x16384.Idx) a).val :=
  match a with
  | ⟨0, _⟩ => by show b.val = 0 + b.val; omega
  | ⟨1, _⟩ => by show 1 = 1 + 0; omega
  | ⟨2, _⟩ => by show n.val = 0 + n.val; omega

/-! ## What the region finds in its windows' arrays -/

variable (m : (ℓ : Loc nD τ sig) → Buf (Elt Ideal) ℓ)

/-- The field argument and the points argument as launched. -/
abbrev field (c : Dev nD) : SField.Idx → EReal := m ((c : Thread nD τ).loc main_arg0)
abbrev pts (c : Dev nD) : SPts.Idx → EReal := m ((c : Thread nD τ).loc main_arg1)

/-- The host operations' composed term for one buffer: the fold over the operation list read at the buffer, each
    operation's result at its own buffer its function of the operands' contents. -/
local macro "host_term" : tactic =>
  `(tactic| (dsimp only [V]
             simp only [hostOps0, hostOps0_1, hostOps0_2, hostOps0_3, hostOps0_4, List.flatten_cons, List.flatten_nil, List.append_nil,
               List.cons_append, List.nil_append]
             after_results_simp))

theorem arr_x0 (c : Dev nD) :
    (V m c main_v26 : S16x1x16384.Idx → BitVec 32) = lift3 (cellArr ![0, 0, 0] slices_S16x2x16384_S16x1x16384_0_0_0 (pts m c)) := by
  host_term
  rfl

theorem arr_y0 (c : Dev nD) :
    (V m c main_v27 : S16x1x16384.Idx → BitVec 32) = lift3 (cellArr ![0, 1, 0] slices_S16x2x16384_S16x1x16384_0_1_0 (pts m c)) := by
  host_term
  rfl

theorem arr_x1 (c : Dev nD) :
    (V m c main_v28 : S16x1x16384.Idx → BitVec 32) = lift3 (upArr ![0, 0, 0] slices_S16x2x16384_S16x1x16384_0_0_0 (pts m c)) := by
  host_term
  rfl

theorem arr_y1 (c : Dev nD) :
    (V m c main_v29 : S16x1x16384.Idx → BitVec 32) = lift3 (upArr ![0, 1, 0] slices_S16x2x16384_S16x1x16384_0_1_0 (pts m c)) := by
  host_term
  rfl

theorem arr_wx (c : Dev nD) :
    (V m c main_v30 : S16x1x16384.Idx → EReal) = lift3 (fracArr ![0, 0, 0] slices_S16x2x16384_S16x1x16384_0_0_0 (pts m c)) := by
  host_term
  rfl

theorem arr_wy (c : Dev nD) :
    (V m c main_v31 : S16x1x16384.Idx → EReal) = lift3 (fracArr ![0, 1, 0] slices_S16x2x16384_S16x1x16384_0_1_0 (pts m c)) := by
  host_term
  rfl

theorem arr_field (c : Dev nD) :
    (V m c main_v32 : S16x16x512x512.Idx → EReal) = truncf (F := Ideal) (φ := .f32) .bf16 (field m c) bitsLt_bf16_f32 := by
  host_term

theorem V_x0 (c : Dev nD) (b : Fin 16) (n : Fin 16384) :
    (V m c main_v26 : S16x1x16384.Idx → BitVec 32) (ix3 b (0 : Fin 1) n) = cell (pts m c (ix3 b (0 : Fin 2) n)) :=
  (congrFun (arr_x0 m c) _).trans ((lift3_apply _ b n).trans (cellArr_apply _ _ _ b n _ (slice_x b n)))

theorem V_y0 (c : Dev nD) (b : Fin 16) (n : Fin 16384) :
    (V m c main_v27 : S16x1x16384.Idx → BitVec 32) (ix3 b (0 : Fin 1) n) = cell (pts m c (ix3 b (1 : Fin 2) n)) :=
  (congrFun (arr_y0 m c) _).trans ((lift3_apply _ b n).trans (cellArr_apply _ _ _ b n _ (slice_y b n)))

theorem V_x1 (c : Dev nD) (b : Fin 16) (n : Fin 16384) :
    (V m c main_v28 : S16x1x16384.Idx → BitVec 32) (ix3 b (0 : Fin 1) n) = cellUp (pts m c (ix3 b (0 : Fin 2) n)) :=
  (congrFun (arr_x1 m c) _).trans ((lift3_apply _ b n).trans (upArr_apply _ _ _ b n _ (slice_x b n)))

theorem V_y1 (c : Dev nD) (b : Fin 16) (n : Fin 16384) :
    (V m c main_v29 : S16x1x16384.Idx → BitVec 32) (ix3 b (0 : Fin 1) n) = cellUp (pts m c (ix3 b (1 : Fin 2) n)) :=
  (congrFun (arr_y1 m c) _).trans ((lift3_apply _ b n).trans (upArr_apply _ _ _ b n _ (slice_y b n)))

theorem V_wx (c : Dev nD) (b : Fin 16) (n : Fin 16384) :
    (V m c main_v30 : S16x1x16384.Idx → EReal) (ix3 b (0 : Fin 1) n) = frac (pts m c (ix3 b (0 : Fin 2) n)) :=
  (congrFun (arr_wx m c) _).trans ((lift3_apply _ b n).trans (fracArr_apply _ _ _ b n _ (slice_x b n)))

theorem V_wy (c : Dev nD) (b : Fin 16) (n : Fin 16384) :
    (V m c main_v31 : S16x1x16384.Idx → EReal) (ix3 b (0 : Fin 1) n) = frac (pts m c (ix3 b (1 : Fin 2) n)) :=
  (congrFun (arr_wy m c) _).trans ((lift3_apply _ b n).trans (fracArr_apply _ _ _ b n _ (slice_y b n)))

theorem V_field (c : Dev nD) (i : S16x16x512x512.Idx) :
    (V m c main_v32 : S16x16x512x512.Idx → EReal) i = field m c i :=
  congrFun (arr_field m c) i

end Cert.KernelIdeal.Windows

end
-- ==== Proof.Whole.lean ====
/-
  The kernel's output array as one function of the arguments.

  The grid has 16 x 8 points; point (b, s) stages, of each of the six point arrays [16, 1, 16384], the tile
  [b, 0, 2048 s .. 2048 s + 2047], of the field the whole slab of batch b, and writes back the block
  [b, 0 .. 15, 2048 s .. 2048 s + 2047] of the output [16, 16, 16384]. What it writes at (0, c, n) of that block
  is the contraction of channel c's slice of the slab with the selectors of point 2048 s + n of batch b, which
  on a real-valued field is the blend of the four corners: block (b, s) of the interpolated field G. The 128
  blocks tile the output, so after the run the output array is G of the two arguments.
-/
import proofs.«176174_j11175504904483_1_alg».proof.Proof.Gen.KernelIdeal.Value
import proofs.«176174_j11175504904483_1_alg».proof.Proof.Spec
import proofs.«176174_j11175504904483_1_alg».proof.Proof.Payload
import proofs.«176174_j11175504904483_1_alg».proof.Proof.Windows
import Idealize.ShloMosaic.Lib.Pipeline.Value
import Idealize.ShloMosaic.Lib.ValueIdx

noncomputable section

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx Cert.Interp Cert.KernelIdeal.Windows

variable (m : (ℓ : Loc nD τ sig) → Buf (Elt Ideal) ℓ) (ρ : Dev nD → PrngReg)

/-- The index maps, decided over the 128 grid points: every point array's tile and the field's slab move with
    the output's block (same batch, same tile of 2048 points), and the output's block indices stay in range. -/
theorem idx_facts : ∀ t : Fin cfg0.N,
    (win0_0.index t (0 : Fin 3) = win0_7.index t (0 : Fin 3) ∧ win0_0.index t (1 : Fin 3) = 0 ∧ win0_0.index t (2 : Fin 3) = win0_7.index t (2 : Fin 3))
    ∧ (win0_1.index t (0 : Fin 3) = win0_7.index t (0 : Fin 3) ∧ win0_1.index t (1 : Fin 3) = 0 ∧ win0_1.index t (2 : Fin 3) = win0_7.index t (2 : Fin 3))
    ∧ (win0_2.index t (0 : Fin 3) = win0_7.index t (0 : Fin 3) ∧ win0_2.index t (1 : Fin 3) = 0 ∧ win0_2.index t (2 : Fin 3) = win0_7.index t (2 : Fin 3))
    ∧ (win0_3.index t (0 : Fin 3) = win0_7.index t (0 : Fin 3) ∧ win0_3.index t (1 : Fin 3) = 0 ∧ win0_3.index t (2 : Fin 3) = win0_7.index t (2 : Fin 3))
    ∧ (win0_4.index t (0 : Fin 3) = win0_7.index t (0 : Fin 3) ∧ win0_4.index t (1 : Fin 3) = 0 ∧ win0_4.index t (2 : Fin 3) = win0_7.index t (2 : Fin 3))
    ∧ (win0_5.index t (0 : Fin 3) = win0_7.index t (0 : Fin 3) ∧ win0_5.index t (1 : Fin 3) = 0 ∧ win0_5.index t (2 : Fin 3) = win0_7.index t (2 : Fin 3))
    ∧ (win0_6.index t (0 : Fin 4) = win0_7.index t (0 : Fin 3) ∧ win0_6.index t (1 : Fin 4) = 0 ∧ win0_6.index t (2 : Fin 4) = 0 ∧ win0_6.index t (3 : Fin 4) = 0)
    ∧ win0_7.index t (0 : Fin 3) ≤ 15 ∧ win0_7.index t (1 : Fin 3) = 0 ∧ win0_7.index t (2 : Fin 3) ≤ 7 :=
  (by decide +kernel : ∀ t : Fin grid0.N, _)

/-- Every block of the output is some point's. -/
theorem idx_onto : ∀ (q0 : Fin 16) (q2 : Fin 8), ∃ t : Fin cfg0.N, win0_7.index t = ![q0.val, 0, q2.val] :=
  (by decide +kernel : ∀ (q0 : Fin 16) (q2 : Fin 8), ∃ t : Fin grid0.N, win0_7.index t = ![q0.val, 0, q2.val])

/-- The horizontal cells' tile at a point, read at (0, 0, n): the array at (b, 0, 2048 s + n). -/
theorem tile0 (c : Dev nD) (t : Fin cfg0.N) (n : Fin 2048) (b : Fin 16) (N : Fin 16384)
    (hb : b.val = win0_7.index t (0 : Fin 3)) (hN : N.val = win0_7.index t (2 : Fin 3) * 2048 + n.val) :
    iblk m c 0 t (ix3 (0 : Fin 1) (0 : Fin 1) n) = (V m c main_v26 : S16x1x16384.Idx → BitVec 32) (ix3 b (0 : Fin 1) N) := by
  obtain ⟨⟨e0, e1, e2⟩, -⟩ := idx_facts t
  show (V m c main_v26 : S16x1x16384.Idx → BitVec 32) (((cfg0.win 0).blk t).view.emb (ix3 (0 : Fin 1) (0 : Fin 1) n)) = _
  refine congrArg _ ?_
  funext a; apply Fin.ext
  match a with
  | ⟨0, _⟩ => show win0_0.index t (0 : Fin 3) * 1 + 1 * 0 = b.val; omega
  | ⟨1, _⟩ => show win0_0.index t (1 : Fin 3) * 1 + 1 * 0 = 0; omega
  | ⟨2, _⟩ => show win0_0.index t (2 : Fin 3) * 2048 + 1 * n.val = N.val; omega

/-- The vertical cells' tile, likewise. -/
theorem tile1 (c : Dev nD) (t : Fin cfg0.N) (n : Fin 2048) (b : Fin 16) (N : Fin 16384)
    (hb : b.val = win0_7.index t (0 : Fin 3)) (hN : N.val = win0_7.index t (2 : Fin 3) * 2048 + n.val) :
    iblk m c 1 t (ix3 (0 : Fin 1) (0 : Fin 1) n) = (V m c main_v27 : S16x1x16384.Idx → BitVec 32) (ix3 b (0 : Fin 1) N) := by
  obtain ⟨-, ⟨e0, e1, e2⟩, -⟩ := idx_facts t
  show (V m c main_v27 : S16x1x16384.Idx → BitVec 32) (((cfg0.win 1).blk t).view.emb (ix3 (0 : Fin 1) (0 : Fin 1) n)) = _
  refine congrArg _ ?_
  funext a; apply Fin.ext
  match a with
  | ⟨0, _⟩ => show win0_1.index t (0 : Fin 3) * 1 + 1 * 0 = b.val; omega
  | ⟨1, _⟩ => show win0_1.index t (1 : Fin 3) * 1 + 1 * 0 = 0; omega
  | ⟨2, _⟩ => show win0_1.index t (2 : Fin 3) * 2048 + 1 * n.val = N.val; omega

/-- The horizontal next cells' tile, likewise. -/
theorem tile2 (c : Dev nD) (t : Fin cfg0.N) (n : Fin 2048) (b : Fin 16) (N : Fin 16384)
    (hb : b.val = win0_7.index t (0 : Fin 3)) (hN : N.val = win0_7.index t (2 : Fin 3) * 2048 + n.val) :
    iblk m c 2 t (ix3 (0 : Fin 1) (0 : Fin 1) n) = (V m c main_v28 : S16x1x16384.Idx → BitVec 32) (ix3 b (0 : Fin 1) N) := by
  obtain ⟨-, -, ⟨e0, e1, e2⟩, -⟩ := idx_facts t
  show (V m c main_v28 : S16x1x16384.Idx → BitVec 32) (((cfg0.win 2).blk t).view.emb (ix3 (0 : Fin 1) (0 : Fin 1) n)) = _
  refine congrArg _ ?_
  funext a; apply Fin.ext
  match a with
  | ⟨0, _⟩ => show win0_2.index t (0 : Fin 3) * 1 + 1 * 0 = b.val; omega
  | ⟨1, _⟩ => show win0_2.index t (1 : Fin 3) * 1 + 1 * 0 = 0; omega
  | ⟨2, _⟩ => show win0_2.index t (2 : Fin 3) * 2048 + 1 * n.val = N.val; omega

/-- The vertical next cells' tile, likewise. -/
theorem tile3 (c : Dev nD) (t : Fin cfg0.N) (n : Fin 2048) (b : Fin 16) (N : Fin 16384)
    (hb : b.val = win0_7.index t (0 : Fin 3)) (hN : N.val = win0_7.index t (2 : Fin 3) * 2048 + n.val) :
    iblk m c 3 t (ix3 (0 : Fin 1) (0 : Fin 1) n) = (V m c main_v29 : S16x1x16384.Idx → BitVec 32) (ix3 b (0 : Fin 1) N) := by
  obtain ⟨-, -, -, ⟨e0, e1, e2⟩, -⟩ := idx_facts t
  show (V m c main_v29 : S16x1x16384.Idx → BitVec 32) (((cfg0.win 3).blk t).view.emb (ix3 (0 : Fin 1) (0 : Fin 1) n)) = _
  refine congrArg _ ?_
  funext a; apply Fin.ext
  match a with
  | ⟨0, _⟩ => show win0_3.index t (0 : Fin 3) * 1 + 1 * 0 = b.val; omega
  | ⟨1, _⟩ => show win0_3.index t (1 : Fin 3) * 1 + 1 * 0 = 0; omega
  | ⟨2, _⟩ => show win0_3.index t (2 : Fin 3) * 2048 + 1 * n.val = N.val; omega

/-- The horizontal weights' tile, likewise. -/
theorem tile4 (c : Dev nD) (t : Fin cfg0.N) (n : Fin 2048) (b : Fin 16) (N : Fin 16384)
    (hb : b.val = win0_7.index t (0 : Fin 3)) (hN : N.val = win0_7.index t (2 : Fin 3) * 2048 + n.val) :
    iblk m c 4 t (ix3 (0 : Fin 1) (0 : Fin 1) n) = (V m c main_v30 : S16x1x16384.Idx → EReal) (ix3 b (0 : Fin 1) N) := by
  obtain ⟨-, -, -, -, ⟨e0, e1, e2⟩, -⟩ := idx_facts t
  show (V m c main_v30 : S16x1x16384.Idx → EReal) (((cfg0.win 4).blk t).view.emb (ix3 (0 : Fin 1) (0 : Fin 1) n)) = _
  refine congrArg _ ?_
  funext a; apply Fin.ext
  match a with
  | ⟨0, _⟩ => show win0_4.index t (0 : Fin 3) * 1 + 1 * 0 = b.val; omega
  | ⟨1, _⟩ => show win0_4.index t (1 : Fin 3) * 1 + 1 * 0 = 0; omega
  | ⟨2, _⟩ => show win0_4.index t (2 : Fin 3) * 2048 + 1 * n.val = N.val; omega

/-- The vertical weights' tile, likewise. -/
theorem tile5 (c : Dev nD) (t : Fin cfg0.N) (n : Fin 2048) (b : Fin 16) (N : Fin 16384)
    (hb : b.val = win0_7.index t (0 : Fin 3)) (hN : N.val = win0_7.index t (2 : Fin 3) * 2048 + n.val) :
    iblk m c 5 t (ix3 (0 : Fin 1) (0 : Fin 1) n) = (V m c main_v31 : S16x1x16384.Idx → EReal) (ix3 b (0 : Fin 1) N) := by
  obtain ⟨-, -, -, -, -, ⟨e0, e1, e2⟩, -⟩ := idx_facts t
  show (V m c main_v31 : S16x1x16384.Idx → EReal) (((cfg0.win 5).blk t).view.emb (ix3 (0 : Fin 1) (0 : Fin 1) n)) = _
  refine congrArg _ ?_
  funext a; apply Fin.ext
  match a with
  | ⟨0, _⟩ => show win0_5.index t (0 : Fin 3) * 1 + 1 * 0 = b.val; omega
  | ⟨1, _⟩ => show win0_5.index t (1 : Fin 3) * 1 + 1 * 0 = 0; omega
  | ⟨2, _⟩ => show win0_5.index t (2 : Fin 3) * 2048 + 1 * n.val = N.val; omega

/-- The field's slab at a point, read at (0, c, h, w): the field array at (b, c, h, w). -/
theorem slab (c : Dev nD) (t : Fin cfg0.N) (cc : Fin 16) (h w : Fin 512) (b : Fin 16)
    (hb : b.val = win0_7.index t (0 : Fin 3)) :
    iblk m c 6 t (ix4 (0 : Fin 1) cc h w) = (V m c main_v32 : S16x16x512x512.Idx → EReal) (ix4 b cc h w) := by
  obtain ⟨-, -, -, -, -, -, ⟨e0, e1, e2, e3⟩, -⟩ := idx_facts t
  show (V m c main_v32 : S16x16x512x512.Idx → EReal) (((cfg0.win 6).blk t).view.emb (ix4 (0 : Fin 1) cc h w)) = _
  refine congrArg _ ?_
  funext a; apply Fin.ext
  match a with
  | ⟨0, _⟩ => show win0_6.index t (0 : Fin 4) * 1 + 1 * 0 = b.val; omega
  | ⟨1, _⟩ => show win0_6.index t (1 : Fin 4) * 16 + 1 * cc.val = cc.val; omega
  | ⟨2, _⟩ => show win0_6.index t (2 : Fin 4) * 512 + 1 * h.val = h.val; omega
  | ⟨3, _⟩ => show win0_6.index t (3 : Fin 4) * 512 + 1 * w.val = w.val; omega

/-- What point t writes back is block t of the interpolated field, when the field is real-valued. -/
theorem flushed_eq (hfin : ∀ c i, ∃ q : ℝ, field m c i = (q : EReal)) (c : Dev nD) (t : Fin cfg0.N) :
    (dats m 0 c).flushed 7 t = ((cfg0.win 7).blk t).view.read (Elt Ideal) (G (field m c) (pts m c)) := by
  rw [Cert.KernelIdeal.Value.flushed7]
  funext j
  obtain ⟨z, cc, n, rfl⟩ : ∃ (z : Fin 1) (cc : Fin 16) (n : Fin 2048), j = ix3 z cc n := ⟨j 0, j 1, j 2, eq_ix3 j⟩
  obtain rfl : z = 0 := Subsingleton.elim _ _
  show out0_7 (iblk m c 0 t) (iblk m c 1 t) (iblk m c 2 t) (iblk m c 3 t) (iblk m c 4 t) (iblk m c 5 t) (iblk m c 6 t) (ix3 (0 : Fin 1) cc n)
    = G (field m c) (pts m c) (((cfg0.win 7).blk t).view.emb (ix3 (0 : Fin 1) cc n))
  obtain ⟨-, -, -, -, -, -, -, h70, h71, h72⟩ := idx_facts t
  have hb : win0_7.index t (0 : Fin 3) < 16 := by omega
  have hN : win0_7.index t (2 : Fin 3) * 2048 + n.val < 16384 := by have := n.isLt; omega
  have hemb : ((cfg0.win 7).blk t).view.emb (ix3 (0 : Fin 1) cc n)
      = ix3 (⟨win0_7.index t (0 : Fin 3), hb⟩ : Fin 16) cc (⟨win0_7.index t (2 : Fin 3) * 2048 + n.val, hN⟩ : Fin 16384) := by
    funext a; apply Fin.ext
    match a with
    | ⟨0, _⟩ => show win0_7.index t (0 : Fin 3) * 1 + 1 * 0 = win0_7.index t (0 : Fin 3); omega
    | ⟨1, _⟩ => show win0_7.index t (1 : Fin 3) * 16 + 1 * cc.val = cc.val; omega
    | ⟨2, _⟩ => show win0_7.index t (2 : Fin 3) * 2048 + 1 * n.val = win0_7.index t (2 : Fin 3) * 2048 + n.val; omega
  rw [hemb]
  refine (Cert.KernelIdeal.Payload.out_apply (iblk m c 0 t) (iblk m c 1 t) (iblk m c 2 t) (iblk m c 3 t) (iblk m c 4 t)
    (iblk m c 5 t) (iblk m c 6 t) cc n).trans ?_
  rw [tile0 m c t n ⟨_, hb⟩ ⟨_, hN⟩ rfl rfl, tile1 m c t n ⟨_, hb⟩ ⟨_, hN⟩ rfl rfl, tile2 m c t n ⟨_, hb⟩ ⟨_, hN⟩ rfl rfl,
    tile3 m c t n ⟨_, hb⟩ ⟨_, hN⟩ rfl rfl, tile4 m c t n ⟨_, hb⟩ ⟨_, hN⟩ rfl rfl, tile5 m c t n ⟨_, hb⟩ ⟨_, hN⟩ rfl rfl,
    V_x0, V_y0, V_x1, V_y1, V_wx, V_wy]
  have hs : (fun h w => iblk m c 6 t (ix4 (0 : Fin 1) cc h w))
      = fun h w => field m c (ix4 (⟨win0_7.index t (0 : Fin 3), hb⟩ : Fin 16) cc h w) := by
    funext h w
    rw [slab m c t cc h w ⟨_, hb⟩ rfl]
    exact V_field m c _
  rw [hs, K_eq _ (fun h w => hfin c _)]
  rfl

/-- An index of the output is in point t's block iff each coordinate is in the block's range on its axis. -/
theorem mem_blk (t : Fin cfg0.N) (i : S16x16x16384.Idx) :
    i ∈ ((cfg0.win 7).blk t).view.set ↔ ∀ a : Fin 3, win0_7.index t a * S1x16x2048.size a ≤ (i a).val
      ∧ (i a).val < win0_7.index t a * S1x16x2048.size a + S1x16x2048.size a := by
  show i ∈ ((View.whole main_v33).slice (win0_7.rect t)).set ↔ _
  rw [View.set_slice_whole, Rect.mem_set_unit]
  exact Iff.rfl

/-- The 128 blocks tile the output: index (b, c, p) is in the block of the point with batch b and tile p / 2048. -/
theorem cover (i : S16x16x16384.Idx) :
    ∃ t : Fin cfg0.N, (cfg0.win 7).flush t = true ∧ i ∈ ((cfg0.win 7).blk t).view.set := by
  have hi0 : (i 0).val < 16 := (i 0).isLt
  have hi1 : (i 1).val < 16 := (i 1).isLt
  have hi2 : (i 2).val < 16384 := (i 2).isLt
  obtain ⟨t, ht⟩ := idx_onto ⟨(i 0).val, hi0⟩ ⟨(i 2).val / 2048, by omega⟩
  have q0 : win0_7.index t (0 : Fin 3) = (i 0).val := congrFun ht 0
  have q1 : win0_7.index t (1 : Fin 3) = 0 := congrFun ht 1
  have q2 : win0_7.index t (2 : Fin 3) = (i 2).val / 2048 := congrFun ht 2
  refine ⟨t, flush0_7 t, ?_⟩
  rw [mem_blk]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 16 ≤ (i 1).val ∧ (i 1).val < win0_7.index t (1 : Fin 3) * 16 + 16; omega
  | ⟨2, _⟩ => show win0_7.index t (2 : Fin 3) * 2048 ≤ (i 2).val ∧ (i 2).val < win0_7.index t (2 : Fin 3) * 2048 + 2048; omega

/-- The output array after the run is the interpolated field of the two arguments. -/
theorem final (hfin : ∀ c i, ∃ q : ℝ, field m c i = (q : EReal)) (c : Dev nD) :
    (dats m 0 c).arrAt 7 cfg0.N = G (field m c) (pts m c) :=
  (dats m 0 c).arrAt_eq_of_cover 7 (G (field m c) (pts m c)) (fun t _ => flushed_eq m hfin c t) cover

/-- The kernel's run: it ends with the output at the interpolated field and the arguments unchanged. -/
theorem run (hfin : ∀ c i, ∃ q : ℝ, field m c i = (q : EReal)) :
    θ_run defs (onTc (τ := τ) (main (F := Ideal))) ⟨m, fun _ => 0, ρ⟩ fun r => ∀ c : Dev nD,
      r.2.mem ((c : Thread nD τ).loc main_v33) = G (field m c) (pts m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m hfin c), (h c).2⟩)
    (Cert.KernelIdeal.Value.run_blocks m ρ)

end Cert.KernelIdeal.Whole

end
-- ==== Proof.RefOps.lean ====
/- The reference program's 192 host operations (the list `ops` of Proof/RefRunP.lean), cut into 18 consecutive
   stretches: ops0 = operations 0..48, ops1 = operations 49..54, ops2 = operations 55..62, ops3 = operations 63..72, ops4 = operations 73..76, ops5 = operations 77..82, ops6 = operations 83..90, ops7 = operations 91..100, ops8 = operations 101..104, ops9 = operations 105..110, ops10 = operations 111..118, ops11 = operations 119..128, ops12 = operations 129..132, ops13 = operations 133..138, ops14 = operations 139..146, ops15 = operations 147..156, ops16 = operations 157..160, ops17 = operations 161..191.
   A table of the program's own text; nothing is proved here. -/
import proofs.«176174_j11175504904483_1_alg».proof.Proof.RefRunP

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

/-- Operations 0..48. -/
abbrev ops0 : List (HloOp τ sig (Elt F)) :=
  [ unary main_arg1 main_v0 ((extractStridedSlice S16x1x16384 ![0, 0, 0] · slices_S16x2x16384_S16x1x16384_0_0_0) : (⟨S16x2x16384, .f32⟩ : BufTy).Contents (Elt F) → (⟨S16x1x16384, .f32⟩ : BufTy).Contents (Elt F)),
    reshape main_v0 main_v1 rfl shapeCasts_S16x1x16384_S16x16384,
    nullary main_cst (constant S_ .f32 0x43FF8000#32),
    unary main_cst main_v2 (broadcastInDim S16x16384 ![] bcast_S_S16x16384 : (⟨S_, .f32⟩ : BufTy).Contents (Elt F) → (⟨S16x16384, .f32⟩ : BufTy).Contents (Elt F)),
    binary main_v1 main_v2 main_v3 (mulf : (⟨S16x16384, .f32⟩ : BufTy).Contents (Elt F) → (⟨S16x16384, .f32⟩ : BufTy).Contents (Elt F) → (⟨S16x16384, .f32⟩ : BufTy).Contents (Elt F)),
    nullary main_cst_0 (constant S_ .f32 0x00000000#32),
    nullary main_c (constantI S_ 32 511#32),
    TRef.unary (TRef.of (T := ⟨S_, .f32⟩) main_cst_0) (TRef.of (T := ⟨S_, .f32⟩) main_call0_v0) id,
    TRef.unary (TRef.of (T := ⟨S_, .f32⟩) main_call0_v0) (TRef.of (T := ⟨S16x16384, .f32⟩) main_call0_v1) (broadcastInDim S16x16384 ![] bcast_S_S16x16384),
    TRef.binary (TRef.of (T := ⟨S16x16384, .f32⟩) main_call0_v1) (TRef.of (T := ⟨S16x16384, .f32⟩) main_v3) (TRef.of (T := ⟨S16x16384, .f32⟩) main_call0_v2) maximumf,
    TRef.unary (TRef.of (T := ⟨S_, .i32⟩) main_c) (TRef.of (T := ⟨S_, .f32⟩) main_call0_v3) (sitofp .f32),
    TRef.unary (TRef.of (T := ⟨S_, .f32⟩) main_call0_v3) (TRef.of (T := ⟨S16x16384, .f32⟩) main_call0_v4) (broadcastInDim S16x16384 ![] bcast_S_S16x16384),
    TRef.binary (TRef.of (T := ⟨S16x16384, .f32⟩) main_call0_v4) (TRef.of (T := ⟨S16x16384, .f32⟩) main_call0_v2) (TRef.of (T := ⟨S16x16384, .f32⟩) main_v4) minimumf,
    unary main_arg1 main_v5 ((extractStridedSlice S16x1x16384 ![0, 1, 0] · slices_S16x2x16384_S16x1x16384_0_1_0) : (⟨S16x2x16384, .f32⟩ : BufTy).Contents (Elt F) → (⟨S16x1x16384, .f32⟩ : BufTy).Contents (Elt F)),
    reshape main_v5 main_v6 rfl shapeCasts_S16x1x16384_S16x16384,
    nullary main_cst_1 (constant S_ .f32 0x43FF8000#32),
    unary main_cst_1 main_v7 (broadcastInDim S16x16384 ![] bcast_S_S16x16384 : (⟨S_, .f32⟩ : BufTy).Contents (Elt F) → (⟨S16x16384, .f32⟩ : BufTy).Contents (Elt F)),
    binary main_v6 main_v7 main_v8 (mulf : (⟨S16x16384, .f32⟩ : BufTy).Contents (Elt F) → (⟨S16x16384, .f32⟩ : BufTy).Contents (Elt F) → (⟨S16x16384, .f32⟩ : BufTy).Contents (Elt F)),
    nullary main_cst_2 (constant S_ .f32 0x00000000#32),
    nullary main_c_3 (constantI S_ 32 511#32),
    TRef.unary (TRef.of (T := ⟨S_, .f32⟩) main_cst_2) (TRef.of (T := ⟨S_, .f32⟩) main_call1_v0) id,
    TRef.unary (TRef.of (T := ⟨S_, .f32⟩) main_call1_v0) (TRef.of (T := ⟨S16x16384, .f32⟩) main_call1_v1) (broadcastInDim S16x16384 ![] bcast_S_S16x16384),
    TRef.binary (TRef.of (T := ⟨S16x16384, .f32⟩) main_call1_v1) (TRef.of (T := ⟨S16x16384, .f32⟩) main_v8) (TRef.of (T := ⟨S16x16384, .f32⟩) main_call1_v2) maximumf,
    TRef.unary (TRef.of (T := ⟨S_, .i32⟩) main_c_3) (TRef.of (T := ⟨S_, .f32⟩) main_call1_v3) (sitofp .f32),
    TRef.unary (TRef.of (T := ⟨S_, .f32⟩) main_call1_v3) (TRef.of (T := ⟨S16x16384, .f32⟩) main_call1_v4) (broadcastInDim S16x16384 ![] bcast_S_S16x16384),
    TRef.binary (TRef.of (T := ⟨S16x16384, .f32⟩) main_call1_v4) (TRef.of (T := ⟨S16x16384, .f32⟩) main_call1_v2) (TRef.of (T := ⟨S16x16384, .f32⟩) main_v9) minimumf,
    unary main_v4 main_v10 (Host.floor : (⟨S16x16384, .f32⟩ : BufTy).Contents (Elt F) → (⟨S16x16384, .f32⟩ : BufTy).Contents (Elt F)),
    unary main_v10 main_v11 (fptosi 32 : (⟨S16x16384, .f32⟩ : BufTy).Contents (Elt F) → (⟨S16x16384, .i32⟩ : BufTy).Contents (Elt F)),
    unary main_v9 main_v12 (Host.floor : (⟨S16x16384, .f32⟩ : BufTy).Contents (Elt F) → (⟨S16x16384, .f32⟩ : BufTy).Contents (Elt F)),
    unary main_v12 main_v13 (fptosi 32 : (⟨S16x16384, .f32⟩ : BufTy).Contents (Elt F) → (⟨S16x16384, .i32⟩ : BufTy).Contents (Elt F)),
    nullary main_c_4 (constantI S_ 32 1#32),
    unary main_c_4 main_v14 (broadcastInDim S16x16384 ![] bcast_S_S16x16384 : (⟨S_, .i32⟩ : BufTy).Contents (Elt F) → (⟨S16x16384, .i32⟩ : BufTy).Contents (Elt F)),
    binary main_v11 main_v14 main_v15 (addi : (⟨S16x16384, .i32⟩ : BufTy).Contents (Elt F) → (⟨S16x16384, .i32⟩ : BufTy).Contents (Elt F) → (⟨S16x16384, .i32⟩ : BufTy).Contents (Elt F)),
    nullary main_c_5 (constantI S_ 32 511#32),
    unary main_c_5 main_v16 (broadcastInDim S16x16384 ![] bcast_S_S16x16384 : (⟨S_, .i32⟩ : BufTy).Contents (Elt F) → (⟨S16x16384, .i32⟩ : BufTy).Contents (Elt F)),
    binary main_v15 main_v16 main_v17 (minsi : (⟨S16x16384, .i32⟩ : BufTy).Contents (Elt F) → (⟨S16x16384, .i32⟩ : BufTy).Contents (Elt F) → (⟨S16x16384, .i32⟩ : BufTy).Contents (Elt F)),
    nullary main_c_6 (constantI S_ 32 1#32),
    unary main_c_6 main_v18 (broadcastInDim S16x16384 ![] bcast_S_S16x16384 : (⟨S_, .i32⟩ : BufTy).Contents (Elt F) → (⟨S16x16384, .i32⟩ : BufTy).Contents (Elt F)),
    binary main_v13 main_v18 main_v19 (addi : (⟨S16x16384, .i32⟩ : BufTy).Contents (Elt F) → (⟨S16x16384, .i32⟩ : BufTy).Contents (Elt F) → (⟨S16x16384, .i32⟩ : BufTy).Contents (Elt F)),
    nullary main_c_7 (constantI S_ 32 511#32),
    unary main_c_7 main_v20 (broadcastInDim S16x16384 ![] bcast_S_S16x16384 : (⟨S_, .i32⟩ : BufTy).Contents (Elt F) → (⟨S16x16384, .i32⟩ : BufTy).Contents (Elt F)),
    binary main_v19 main_v20 main_v21 (minsi : (⟨S16x16384, .i32⟩ : BufTy).Contents (Elt F) → (⟨S16x16384, .i32⟩ : BufTy).Contents (Elt F) → (⟨S16x16384, .i32⟩ : BufTy).Contents (Elt F)),
    unary main_v11 main_v22 (sitofp .f32 : (⟨S16x16384, .i32⟩ : BufTy).Contents (Elt F) → (⟨S16x16384, .f32⟩ : BufTy).Contents (Elt F)),
    binary main_v4 main_v22 main_v23 (subf : (⟨S16x16384, .f32⟩ : BufTy).Contents (Elt F) → (⟨S16x16384, .f32⟩ : BufTy).Contents (Elt F) → (⟨S16x16384, .f32⟩ : BufTy).Contents (Elt F)),
    unary main_v23 main_v24 (broadcastInDim S16x1x16384 ![0, 2] bcast_S16x16384_S16x1x16384_0_2 : (⟨S16x16384, .f32⟩ : BufTy).Contents (Elt F) → (⟨S16x1x16384, .f32⟩ : BufTy).Contents (Elt F)),
    unary main_v13 main_v25 (sitofp .f32 : (⟨S16x16384, .i32⟩ : BufTy).Contents (Elt F) → (⟨S16x16384, .f32⟩ : BufTy).Contents (Elt F)),
    binary main_v9 main_v25 main_v26 (subf : (⟨S16x16384, .f32⟩ : BufTy).Contents (Elt F) → (⟨S16x16384, .f32⟩ : BufTy).Contents (Elt F) → (⟨S16x16384, .f32⟩ : BufTy).Contents (Elt F)),
    unary main_v26 main_v27 (broadcastInDim S16x1x16384 ![0, 2] bcast_S16x16384_S16x1x16384_0_2 : (⟨S16x16384, .f32⟩ : BufTy).Contents (Elt F) → (⟨S16x1x16384, .f32⟩ : BufTy).Contents (Elt F)),
    reshape main_arg0 main_v28 rfl shapeCasts_S16x16x512x512_S16x16x262144 ]

/-- Operations 49..54. -/
abbrev ops1 : List (HloOp τ sig (Elt F)) :=
  [ nullary main_c_8 (constantI S_ 32 512#32),
    unary main_c_8 main_v29 (broadcastInDim S16x16384 ![] bcast_S_S16x16384 : (⟨S_, .i32⟩ : BufTy).Contents (Elt F) → (⟨S16x16384, .i32⟩ : BufTy).Contents (Elt F)),
    binary main_v13 main_v29 main_v30 (muli : (⟨S16x16384, .i32⟩ : BufTy).Contents (Elt F) → (⟨S16x16384, .i32⟩ : BufTy).Contents (Elt F) → (⟨S16x16384, .i32⟩ : BufTy).Contents (Elt F)),
    binary main_v30 main_v11 main_v31 (addi : (⟨S16x16384, .i32⟩ : BufTy).Contents (Elt F) → (⟨S16x16384, .i32⟩ : BufTy).Contents (Elt F) → (⟨S16x16384, .i32⟩ : BufTy).Contents (Elt F)),
    unary main_v31 main_v32 (broadcastInDim S16x1x16384 ![0, 2] bcast_S16x16384_S16x1x16384_0_2 : (⟨S16x16384, .i32⟩ : BufTy).Contents (Elt F) → (⟨S16x1x16384, .i32⟩ : BufTy).Contents (Elt F)),
    unary main_v32 main_v33 (broadcastInDim S16x16x16384 ![0, 1, 2] bcast_S16x1x16384_S16x16x16384_0_1_2 : (⟨S16x1x16384, .i32⟩ : BufTy).Contents (Elt F) → (⟨S16x16x16384, .i32⟩ : BufTy).Contents (Elt F)) ]

/-- Operations 55..62. -/
abbrev ops2 : List (HloOp τ sig (Elt F)) :=
  [ TRef.nullary (TRef.of (T := ⟨S_, .i32⟩) main_call2_c) (constantI S_ 32 0#32),
    TRef.unary (TRef.of (T := ⟨S_, .i32⟩) main_call2_c) (TRef.of (T := ⟨S16x16x16384, .i32⟩) main_call2_v0) (broadcastInDim S16x16x16384 ![] bcast_S_S16x16x16384),
    TRef.binary (TRef.of (T := ⟨S16x16x16384, .i32⟩) main_v33) (TRef.of (T := ⟨S16x16x16384, .i32⟩) main_call2_v0) (TRef.of (T := ⟨S16x16x16384, .i1⟩) main_call2_v1) (cmpi .slt),
    TRef.nullary (TRef.of (T := ⟨S_, .i32⟩) main_call2_c_0) (constantI S_ 32 262144#32),
    TRef.unary (TRef.of (T := ⟨S_, .i32⟩) main_call2_c_0) (TRef.of (T := ⟨S16x16x16384, .i32⟩) main_call2_v2) (broadcastInDim S16x16x16384 ![] bcast_S_S16x16x16384),
    TRef.binary (TRef.of (T := ⟨S16x16x16384, .i32⟩) main_v33) (TRef.of (T := ⟨S16x16x16384, .i32⟩) main_call2_v2) (TRef.of (T := ⟨S16x16x16384, .i32⟩) main_call2_v3) addi,
    TRef.ternary (TRef.of (T := ⟨S16x16x16384, .i1⟩) main_call2_v1) (TRef.of (T := ⟨S16x16x16384, .i32⟩) main_call2_v3) (TRef.of (T := ⟨S16x16x16384, .i32⟩) main_v33) (TRef.of (T := ⟨S16x16x16384, .i32⟩) main_call2_v4) select,
    TRef.reshape (TRef.of (T := ⟨S16x16x16384, .i32⟩) main_call2_v4) (TRef.of (T := ⟨S16x16x16384x1, .i32⟩) main_call2_v5) rfl shapeCasts_S16x16x16384_S16x16x16384x1 ]

/-- Operations 63..72. -/
abbrev ops3 : List (HloOp τ sig (Elt F)) :=
  [ TRef.nullary (TRef.of (T := ⟨S1, .i32⟩) main_call2_c_1) (constantI S1 32 262143#32),
    TRef.nullary (TRef.of (T := ⟨S_, .i32⟩) main_call2_c_2) (constantI S_ 32 0#32),
    TRef.unary (TRef.of (T := ⟨S_, .i32⟩) main_call2_c_2) (TRef.of (T := ⟨S16x16x16384x1, .i32⟩) main_call2_v6) (broadcastInDim S16x16x16384x1 ![] bcast_S_S16x16x16384x1),
    TRef.binary (TRef.of (T := ⟨S16x16x16384x1, .i32⟩) main_call2_v5) (TRef.of (T := ⟨S16x16x16384x1, .i32⟩) main_call2_v6) (TRef.of (T := ⟨S16x16x16384x1, .i1⟩) main_call2_v7) (cmpi .sge),
    TRef.unary (TRef.of (T := ⟨S1, .i32⟩) main_call2_c_1) (TRef.of (T := ⟨S1x1x1x1, .i32⟩) main_call2_v8) (broadcastInDim S1x1x1x1 ![3] bcast_S1_S1x1x1x1_3),
    TRef.unary (TRef.of (T := ⟨S1x1x1x1, .i32⟩) main_call2_v8) (TRef.of (T := ⟨S16x16x16384x1, .i32⟩) main_call2_v9) (broadcastInDim S16x16x16384x1 ![0, 1, 2, 3] bcast_S1x1x1x1_S16x16x16384x1_0_1_2_3),
    TRef.binary (TRef.of (T := ⟨S16x16x16384x1, .i32⟩) main_call2_v5) (TRef.of (T := ⟨S16x16x16384x1, .i32⟩) main_call2_v9) (TRef.of (T := ⟨S16x16x16384x1, .i1⟩) main_call2_v10) (cmpi .sle),
    TRef.binary (TRef.of (T := ⟨S16x16x16384x1, .i1⟩) main_call2_v7) (TRef.of (T := ⟨S16x16x16384x1, .i1⟩) main_call2_v10) (TRef.of (T := ⟨S16x16x16384x1, .i1⟩) main_call2_v11) andi,
    TRef.nullary (TRef.of (T := ⟨S_, .i1⟩) main_call2_c_3) (constantI S_ 1 1#1),
    TRef.binary (TRef.of (T := ⟨S16x16x16384x1, .i1⟩) main_call2_v11) (TRef.of (T := ⟨S_, .i1⟩) main_call2_c_3) (TRef.of (T := ⟨S16x16x16384, .i1⟩) main_call2_v12) (fun x v => Host.reduce IntOp.andi x v reducesTo_S16x16x16384x1_S16x16x16384_d3 h_S_) ]

/-- Operations 73..76. -/
abbrev ops4 : List (HloOp τ sig (Elt F)) :=
  [ TRef.binary (TRef.of (T := ⟨S16x16x262144, .f32⟩) main_v28) (TRef.of (T := ⟨S16x16x16384x1, .i32⟩) main_call2_v5) (TRef.of (T := ⟨S16x16x16384, .f32⟩) main_call2_v13) (fun x i => Host.gather gather_S16x16x262144_S16x16x16384x1_S16x16x16384_n_2_01_01_2_3_111 x i),
    TRef.nullary (TRef.of (T := ⟨S_, .f32⟩) main_call2_cst) (constant S_ .f32 0x7FC00000#32),
    TRef.unary (TRef.of (T := ⟨S_, .f32⟩) main_call2_cst) (TRef.of (T := ⟨S16x16x16384, .f32⟩) main_call2_v14) (broadcastInDim S16x16x16384 ![] bcast_S_S16x16x16384),
    TRef.ternary (TRef.of (T := ⟨S16x16x16384, .i1⟩) main_call2_v12) (TRef.of (T := ⟨S16x16x16384, .f32⟩) main_call2_v13) (TRef.of (T := ⟨S16x16x16384, .f32⟩) main_call2_v14) (TRef.of (T := ⟨S16x16x16384, .f32⟩) main_v34) select ]

/-- Operations 77..82. -/
abbrev ops5 : List (HloOp τ sig (Elt F)) :=
  [ nullary main_c_9 (constantI S_ 32 512#32),
    unary main_c_9 main_v35 (broadcastInDim S16x16384 ![] bcast_S_S16x16384 : (⟨S_, .i32⟩ : BufTy).Contents (Elt F) → (⟨S16x16384, .i32⟩ : BufTy).Contents (Elt F)),
    binary main_v13 main_v35 main_v36 (muli : (⟨S16x16384, .i32⟩ : BufTy).Contents (Elt F) → (⟨S16x16384, .i32⟩ : BufTy).Contents (Elt F) → (⟨S16x16384, .i32⟩ : BufTy).Contents (Elt F)),
    binary main_v36 main_v17 main_v37 (addi : (⟨S16x16384, .i32⟩ : BufTy).Contents (Elt F) → (⟨S16x16384, .i32⟩ : BufTy).Contents (Elt F) → (⟨S16x16384, .i32⟩ : BufTy).Contents (Elt F)),
    unary main_v37 main_v38 (broadcastInDim S16x1x16384 ![0, 2] bcast_S16x16384_S16x1x16384_0_2 : (⟨S16x16384, .i32⟩ : BufTy).Contents (Elt F) → (⟨S16x1x16384, .i32⟩ : BufTy).Contents (Elt F)),
    unary main_v38 main_v39 (broadcastInDim S16x16x16384 ![0, 1, 2] bcast_S16x1x16384_S16x16x16384_0_1_2 : (⟨S16x1x16384, .i32⟩ : BufTy).Contents (Elt F) → (⟨S16x16x16384, .i32⟩ : BufTy).Contents (Elt F)) ]

/-- Operations 83..90. -/
abbrev ops6 : List (HloOp τ sig (Elt F)) :=
  [ TRef.nullary (TRef.of (T := ⟨S_, .i32⟩) main_call3_c) (constantI S_ 32 0#32),
    TRef.unary (TRef.of (T := ⟨S_, .i32⟩) main_call3_c) (TRef.of (T := ⟨S16x16x16384, .i32⟩) main_call3_v0) (broadcastInDim S16x16x16384 ![] bcast_S_S16x16x16384),
    TRef.binary (TRef.of (T := ⟨S16x16x16384, .i32⟩) main_v39) (TRef.of (T := ⟨S16x16x16384, .i32⟩) main_call3_v0) (TRef.of (T := ⟨S16x16x16384, .i1⟩) main_call3_v1) (cmpi .slt),
    TRef.nullary (TRef.of (T := ⟨S_, .i32⟩) main_call3_c_0) (constantI S_ 32 262144#32),
    TRef.unary (TRef.of (T := ⟨S_, .i32⟩) main_call3_c_0) (TRef.of (T := ⟨S16x16x16384, .i32⟩) main_call3_v2) (broadcastInDim S16x16x16384 ![] bcast_S_S16x16x16384),
    TRef.binary (TRef.of (T := ⟨S16x16x16384, .i32⟩) main_v39) (TRef.of (T := ⟨S16x16x16384, .i32⟩) main_call3_v2) (TRef.of (T := ⟨S16x16x16384, .i32⟩) main_call3_v3) addi,
    TRef.ternary (TRef.of (T := ⟨S16x16x16384, .i1⟩) main_call3_v1) (TRef.of (T := ⟨S16x16x16384, .i32⟩) main_call3_v3) (TRef.of (T := ⟨S16x16x16384, .i32⟩) main_v39) (TRef.of (T := ⟨S16x16x16384, .i32⟩) main_call3_v4) select,
    TRef.reshape (TRef.of (T := ⟨S16x16x16384, .i32⟩) main_call3_v4) (TRef.of (T := ⟨S16x16x16384x1, .i32⟩) main_call3_v5) rfl shapeCasts_S16x16x16384_S16x16x16384x1 ]

/-- Operations 91..100. -/
abbrev ops7 : List (HloOp τ sig (Elt F)) :=
  [ TRef.nullary (TRef.of (T := ⟨S1, .i32⟩) main_call3_c_1) (constantI S1 32 262143#32),
    TRef.nullary (TRef.of (T := ⟨S_, .i32⟩) main_call3_c_2) (constantI S_ 32 0#32),
    TRef.unary (TRef.of (T := ⟨S_, .i32⟩) main_call3_c_2) (TRef.of (T := ⟨S16x16x16384x1, .i32⟩) main_call3_v6) (broadcastInDim S16x16x16384x1 ![] bcast_S_S16x16x16384x1),
    TRef.binary (TRef.of (T := ⟨S16x16x16384x1, .i32⟩) main_call3_v5) (TRef.of (T := ⟨S16x16x16384x1, .i32⟩) main_call3_v6) (TRef.of (T := ⟨S16x16x16384x1, .i1⟩) main_call3_v7) (cmpi .sge),
    TRef.unary (TRef.of (T := ⟨S1, .i32⟩) main_call3_c_1) (TRef.of (T := ⟨S1x1x1x1, .i32⟩) main_call3_v8) (broadcastInDim S1x1x1x1 ![3] bcast_S1_S1x1x1x1_3),
    TRef.unary (TRef.of (T := ⟨S1x1x1x1, .i32⟩) main_call3_v8) (TRef.of (T := ⟨S16x16x16384x1, .i32⟩) main_call3_v9) (broadcastInDim S16x16x16384x1 ![0, 1, 2, 3] bcast_S1x1x1x1_S16x16x16384x1_0_1_2_3),
    TRef.binary (TRef.of (T := ⟨S16x16x16384x1, .i32⟩) main_call3_v5) (TRef.of (T := ⟨S16x16x16384x1, .i32⟩) main_call3_v9) (TRef.of (T := ⟨S16x16x16384x1, .i1⟩) main_call3_v10) (cmpi .sle),
    TRef.binary (TRef.of (T := ⟨S16x16x16384x1, .i1⟩) main_call3_v7) (TRef.of (T := ⟨S16x16x16384x1, .i1⟩) main_call3_v10) (TRef.of (T := ⟨S16x16x16384x1, .i1⟩) main_call3_v11) andi,
    TRef.nullary (TRef.of (T := ⟨S_, .i1⟩) main_call3_c_3) (constantI S_ 1 1#1),
    TRef.binary (TRef.of (T := ⟨S16x16x16384x1, .i1⟩) main_call3_v11) (TRef.of (T := ⟨S_, .i1⟩) main_call3_c_3) (TRef.of (T := ⟨S16x16x16384, .i1⟩) main_call3_v12) (fun x v => Host.reduce IntOp.andi x v reducesTo_S16x16x16384x1_S16x16x16384_d3 h_S_) ]

/-- Operations 101..104. -/
abbrev ops8 : List (HloOp τ sig (Elt F)) :=
  [ TRef.binary (TRef.of (T := ⟨S16x16x262144, .f32⟩) main_v28) (TRef.of (T := ⟨S16x16x16384x1, .i32⟩) main_call3_v5) (TRef.of (T := ⟨S16x16x16384, .f32⟩) main_call3_v13) (fun x i => Host.gather gather_S16x16x262144_S16x16x16384x1_S16x16x16384_n_2_01_01_2_3_111 x i),
    TRef.nullary (TRef.of (T := ⟨S_, .f32⟩) main_call3_cst) (constant S_ .f32 0x7FC00000#32),
    TRef.unary (TRef.of (T := ⟨S_, .f32⟩) main_call3_cst) (TRef.of (T := ⟨S16x16x16384, .f32⟩) main_call3_v14) (broadcastInDim S16x16x16384 ![] bcast_S_S16x16x16384),
    TRef.ternary (TRef.of (T := ⟨S16x16x16384, .i1⟩) main_call3_v12) (TRef.of (T := ⟨S16x16x16384, .f32⟩) main_call3_v13) (TRef.of (T := ⟨S16x16x16384, .f32⟩) main_call3_v14) (TRef.of (T := ⟨S16x16x16384, .f32⟩) main_v40) select ]

/-- Operations 105..110. -/
abbrev ops9 : List (HloOp τ sig (Elt F)) :=
  [ nullary main_c_10 (constantI S_ 32 512#32),
    unary main_c_10 main_v41 (broadcastInDim S16x16384 ![] bcast_S_S16x16384 : (⟨S_, .i32⟩ : BufTy).Contents (Elt F) → (⟨S16x16384, .i32⟩ : BufTy).Contents (Elt F)),
    binary main_v21 main_v41 main_v42 (muli : (⟨S16x16384, .i32⟩ : BufTy).Contents (Elt F) → (⟨S16x16384, .i32⟩ : BufTy).Contents (Elt F) → (⟨S16x16384, .i32⟩ : BufTy).Contents (Elt F)),
    binary main_v42 main_v11 main_v43 (addi : (⟨S16x16384, .i32⟩ : BufTy).Contents (Elt F) → (⟨S16x16384, .i32⟩ : BufTy).Contents (Elt F) → (⟨S16x16384, .i32⟩ : BufTy).Contents (Elt F)),
    unary main_v43 main_v44 (broadcastInDim S16x1x16384 ![0, 2] bcast_S16x16384_S16x1x16384_0_2 : (⟨S16x16384, .i32⟩ : BufTy).Contents (Elt F) → (⟨S16x1x16384, .i32⟩ : BufTy).Contents (Elt F)),
    unary main_v44 main_v45 (broadcastInDim S16x16x16384 ![0, 1, 2] bcast_S16x1x16384_S16x16x16384_0_1_2 : (⟨S16x1x16384, .i32⟩ : BufTy).Contents (Elt F) → (⟨S16x16x16384, .i32⟩ : BufTy).Contents (Elt F)) ]

/-- Operations 111..118. -/
abbrev ops10 : List (HloOp τ sig (Elt F)) :=
  [ TRef.nullary (TRef.of (T := ⟨S_, .i32⟩) main_call4_c) (constantI S_ 32 0#32),
    TRef.unary (TRef.of (T := ⟨S_, .i32⟩) main_call4_c) (TRef.of (T := ⟨S16x16x16384, .i32⟩) main_call4_v0) (broadcastInDim S16x16x16384 ![] bcast_S_S16x16x16384),
    TRef.binary (TRef.of (T := ⟨S16x16x16384, .i32⟩) main_v45) (TRef.of (T := ⟨S16x16x16384, .i32⟩) main_call4_v0) (TRef.of (T := ⟨S16x16x16384, .i1⟩) main_call4_v1) (cmpi .slt),
    TRef.nullary (TRef.of (T := ⟨S_, .i32⟩) main_call4_c_0) (constantI S_ 32 262144#32),
    TRef.unary (TRef.of (T := ⟨S_, .i32⟩) main_call4_c_0) (TRef.of (T := ⟨S16x16x16384, .i32⟩) main_call4_v2) (broadcastInDim S16x16x16384 ![] bcast_S_S16x16x16384),
    TRef.binary (TRef.of (T := ⟨S16x16x16384, .i32⟩) main_v45) (TRef.of (T := ⟨S16x16x16384, .i32⟩) main_call4_v2) (TRef.of (T := ⟨S16x16x16384, .i32⟩) main_call4_v3) addi,
    TRef.ternary (TRef.of (T := ⟨S16x16x16384, .i1⟩) main_call4_v1) (TRef.of (T := ⟨S16x16x16384, .i32⟩) main_call4_v3) (TRef.of (T := ⟨S16x16x16384, .i32⟩) main_v45) (TRef.of (T := ⟨S16x16x16384, .i32⟩) main_call4_v4) select,
    TRef.reshape (TRef.of (T := ⟨S16x16x16384, .i32⟩) main_call4_v4) (TRef.of (T := ⟨S16x16x16384x1, .i32⟩) main_call4_v5) rfl shapeCasts_S16x16x16384_S16x16x16384x1 ]

/-- Operations 119..128. -/
abbrev ops11 : List (HloOp τ sig (Elt F)) :=
  [ TRef.nullary (TRef.of (T := ⟨S1, .i32⟩) main_call4_c_1) (constantI S1 32 262143#32),
    TRef.nullary (TRef.of (T := ⟨S_, .i32⟩) main_call4_c_2) (constantI S_ 32 0#32),
    TRef.unary (TRef.of (T := ⟨S_, .i32⟩) main_call4_c_2) (TRef.of (T := ⟨S16x16x16384x1, .i32⟩) main_call4_v6) (broadcastInDim S16x16x16384x1 ![] bcast_S_S16x16x16384x1),
    TRef.binary (TRef.of (T := ⟨S16x16x16384x1, .i32⟩) main_call4_v5) (TRef.of (T := ⟨S16x16x16384x1, .i32⟩) main_call4_v6) (TRef.of (T := ⟨S16x16x16384x1, .i1⟩) main_call4_v7) (cmpi .sge),
    TRef.unary (TRef.of (T := ⟨S1, .i32⟩) main_call4_c_1) (TRef.of (T := ⟨S1x1x1x1, .i32⟩) main_call4_v8) (broadcastInDim S1x1x1x1 ![3] bcast_S1_S1x1x1x1_3),
    TRef.unary (TRef.of (T := ⟨S1x1x1x1, .i32⟩) main_call4_v8) (TRef.of (T := ⟨S16x16x16384x1, .i32⟩) main_call4_v9) (broadcastInDim S16x16x16384x1 ![0, 1, 2, 3] bcast_S1x1x1x1_S16x16x16384x1_0_1_2_3),
    TRef.binary (TRef.of (T := ⟨S16x16x16384x1, .i32⟩) main_call4_v5) (TRef.of (T := ⟨S16x16x16384x1, .i32⟩) main_call4_v9) (TRef.of (T := ⟨S16x16x16384x1, .i1⟩) main_call4_v10) (cmpi .sle),
    TRef.binary (TRef.of (T := ⟨S16x16x16384x1, .i1⟩) main_call4_v7) (TRef.of (T := ⟨S16x16x16384x1, .i1⟩) main_call4_v10) (TRef.of (T := ⟨S16x16x16384x1, .i1⟩) main_call4_v11) andi,
    TRef.nullary (TRef.of (T := ⟨S_, .i1⟩) main_call4_c_3) (constantI S_ 1 1#1),
    TRef.binary (TRef.of (T := ⟨S16x16x16384x1, .i1⟩) main_call4_v11) (TRef.of (T := ⟨S_, .i1⟩) main_call4_c_3) (TRef.of (T := ⟨S16x16x16384, .i1⟩) main_call4_v12) (fun x v => Host.reduce IntOp.andi x v reducesTo_S16x16x16384x1_S16x16x16384_d3 h_S_) ]

/-- Operations 129..132. -/
abbrev ops12 : List (HloOp τ sig (Elt F)) :=
  [ TRef.binary (TRef.of (T := ⟨S16x16x262144, .f32⟩) main_v28) (TRef.of (T := ⟨S16x16x16384x1, .i32⟩) main_call4_v5) (TRef.of (T := ⟨S16x16x16384, .f32⟩) main_call4_v13) (fun x i => Host.gather gather_S16x16x262144_S16x16x16384x1_S16x16x16384_n_2_01_01_2_3_111 x i),
    TRef.nullary (TRef.of (T := ⟨S_, .f32⟩) main_call4_cst) (constant S_ .f32 0x7FC00000#32),
    TRef.unary (TRef.of (T := ⟨S_, .f32⟩) main_call4_cst) (TRef.of (T := ⟨S16x16x16384, .f32⟩) main_call4_v14) (broadcastInDim S16x16x16384 ![] bcast_S_S16x16x16384),
    TRef.ternary (TRef.of (T := ⟨S16x16x16384, .i1⟩) main_call4_v12) (TRef.of (T := ⟨S16x16x16384, .f32⟩) main_call4_v13) (TRef.of (T := ⟨S16x16x16384, .f32⟩) main_call4_v14) (TRef.of (T := ⟨S16x16x16384, .f32⟩) main_v46) select ]

/-- Operations 133..138. -/
abbrev ops13 : List (HloOp τ sig (Elt F)) :=
  [ nullary main_c_11 (constantI S_ 32 512#32),
    unary main_c_11 main_v47 (broadcastInDim S16x16384 ![] bcast_S_S16x16384 : (⟨S_, .i32⟩ : BufTy).Contents (Elt F) → (⟨S16x16384, .i32⟩ : BufTy).Contents (Elt F)),
    binary main_v21 main_v47 main_v48 (muli : (⟨S16x16384, .i32⟩ : BufTy).Contents (Elt F) → (⟨S16x16384, .i32⟩ : BufTy).Contents (Elt F) → (⟨S16x16384, .i32⟩ : BufTy).Contents (Elt F)),
    binary main_v48 main_v17 main_v49 (addi : (⟨S16x16384, .i32⟩ : BufTy).Contents (Elt F) → (⟨S16x16384, .i32⟩ : BufTy).Contents (Elt F) → (⟨S16x16384, .i32⟩ : BufTy).Contents (Elt F)),
    unary main_v49 main_v50 (broadcastInDim S16x1x16384 ![0, 2] bcast_S16x16384_S16x1x16384_0_2 : (⟨S16x16384, .i32⟩ : BufTy).Contents (Elt F) → (⟨S16x1x16384, .i32⟩ : BufTy).Contents (Elt F)),
    unary main_v50 main_v51 (broadcastInDim S16x16x16384 ![0, 1, 2] bcast_S16x1x16384_S16x16x16384_0_1_2 : (⟨S16x1x16384, .i32⟩ : BufTy).Contents (Elt F) → (⟨S16x16x16384, .i32⟩ : BufTy).Contents (Elt F)) ]

/-- Operations 139..146. -/
abbrev ops14 : List (HloOp τ sig (Elt F)) :=
  [ TRef.nullary (TRef.of (T := ⟨S_, .i32⟩) main_call5_c) (constantI S_ 32 0#32),
    TRef.unary (TRef.of (T := ⟨S_, .i32⟩) main_call5_c) (TRef.of (T := ⟨S16x16x16384, .i32⟩) main_call5_v0) (broadcastInDim S16x16x16384 ![] bcast_S_S16x16x16384),
    TRef.binary (TRef.of (T := ⟨S16x16x16384, .i32⟩) main_v51) (TRef.of (T := ⟨S16x16x16384, .i32⟩) main_call5_v0) (TRef.of (T := ⟨S16x16x16384, .i1⟩) main_call5_v1) (cmpi .slt),
    TRef.nullary (TRef.of (T := ⟨S_, .i32⟩) main_call5_c_0) (constantI S_ 32 262144#32),
    TRef.unary (TRef.of (T := ⟨S_, .i32⟩) main_call5_c_0) (TRef.of (T := ⟨S16x16x16384, .i32⟩) main_call5_v2) (broadcastInDim S16x16x16384 ![] bcast_S_S16x16x16384),
    TRef.binary (TRef.of (T := ⟨S16x16x16384, .i32⟩) main_v51) (TRef.of (T := ⟨S16x16x16384, .i32⟩) main_call5_v2) (TRef.of (T := ⟨S16x16x16384, .i32⟩) main_call5_v3) addi,
    TRef.ternary (TRef.of (T := ⟨S16x16x16384, .i1⟩) main_call5_v1) (TRef.of (T := ⟨S16x16x16384, .i32⟩) main_call5_v3) (TRef.of (T := ⟨S16x16x16384, .i32⟩) main_v51) (TRef.of (T := ⟨S16x16x16384, .i32⟩) main_call5_v4) select,
    TRef.reshape (TRef.of (T := ⟨S16x16x16384, .i32⟩) main_call5_v4) (TRef.of (T := ⟨S16x16x16384x1, .i32⟩) main_call5_v5) rfl shapeCasts_S16x16x16384_S16x16x16384x1 ]

/-- Operations 147..156. -/
abbrev ops15 : List (HloOp τ sig (Elt F)) :=
  [ TRef.nullary (TRef.of (T := ⟨S1, .i32⟩) main_call5_c_1) (constantI S1 32 262143#32),
    TRef.nullary (TRef.of (T := ⟨S_, .i32⟩) main_call5_c_2) (constantI S_ 32 0#32),
    TRef.unary (TRef.of (T := ⟨S_, .i32⟩) main_call5_c_2) (TRef.of (T := ⟨S16x16x16384x1, .i32⟩) main_call5_v6) (broadcastInDim S16x16x16384x1 ![] bcast_S_S16x16x16384x1),
    TRef.binary (TRef.of (T := ⟨S16x16x16384x1, .i32⟩) main_call5_v5) (TRef.of (T := ⟨S16x16x16384x1, .i32⟩) main_call5_v6) (TRef.of (T := ⟨S16x16x16384x1, .i1⟩) main_call5_v7) (cmpi .sge),
    TRef.unary (TRef.of (T := ⟨S1, .i32⟩) main_call5_c_1) (TRef.of (T := ⟨S1x1x1x1, .i32⟩) main_call5_v8) (broadcastInDim S1x1x1x1 ![3] bcast_S1_S1x1x1x1_3),
    TRef.unary (TRef.of (T := ⟨S1x1x1x1, .i32⟩) main_call5_v8) (TRef.of (T := ⟨S16x16x16384x1, .i32⟩) main_call5_v9) (broadcastInDim S16x16x16384x1 ![0, 1, 2, 3] bcast_S1x1x1x1_S16x16x16384x1_0_1_2_3),
    TRef.binary (TRef.of (T := ⟨S16x16x16384x1, .i32⟩) main_call5_v5) (TRef.of (T := ⟨S16x16x16384x1, .i32⟩) main_call5_v9) (TRef.of (T := ⟨S16x16x16384x1, .i1⟩) main_call5_v10) (cmpi .sle),
    TRef.binary (TRef.of (T := ⟨S16x16x16384x1, .i1⟩) main_call5_v7) (TRef.of (T := ⟨S16x16x16384x1, .i1⟩) main_call5_v10) (TRef.of (T := ⟨S16x16x16384x1, .i1⟩) main_call5_v11) andi,
    TRef.nullary (TRef.of (T := ⟨S_, .i1⟩) main_call5_c_3) (constantI S_ 1 1#1),
    TRef.binary (TRef.of (T := ⟨S16x16x16384x1, .i1⟩) main_call5_v11) (TRef.of (T := ⟨S_, .i1⟩) main_call5_c_3) (TRef.of (T := ⟨S16x16x16384, .i1⟩) main_call5_v12) (fun x v => Host.reduce IntOp.andi x v reducesTo_S16x16x16384x1_S16x16x16384_d3 h_S_) ]

/-- Operations 157..160. -/
abbrev ops16 : List (HloOp τ sig (Elt F)) :=
  [ TRef.binary (TRef.of (T := ⟨S16x16x262144, .f32⟩) main_v28) (TRef.of (T := ⟨S16x16x16384x1, .i32⟩) main_call5_v5) (TRef.of (T := ⟨S16x16x16384, .f32⟩) main_call5_v13) (fun x i => Host.gather gather_S16x16x262144_S16x16x16384x1_S16x16x16384_n_2_01_01_2_3_111 x i),
    TRef.nullary (TRef.of (T := ⟨S_, .f32⟩) main_call5_cst) (constant S_ .f32 0x7FC00000#32),
    TRef.unary (TRef.of (T := ⟨S_, .f32⟩) main_call5_cst) (TRef.of (T := ⟨S16x16x16384, .f32⟩) main_call5_v14) (broadcastInDim S16x16x16384 ![] bcast_S_S16x16x16384),
    TRef.ternary (TRef.of (T := ⟨S16x16x16384, .i1⟩) main_call5_v12) (TRef.of (T := ⟨S16x16x16384, .f32⟩) main_call5_v13) (TRef.of (T := ⟨S16x16x16384, .f32⟩) main_call5_v14) (TRef.of (T := ⟨S16x16x16384, .f32⟩) main_v52) select ]

/-- Operations 161..191. -/
abbrev ops17 : List (HloOp τ sig (Elt F)) :=
  [ nullary main_cst_12 (constant S_ .f32 0x3F800000#32),
    unary main_cst_12 main_v53 (broadcastInDim S16x1x16384 ![] bcast_S_S16x1x16384 : (⟨S_, .f32⟩ : BufTy).Contents (Elt F) → (⟨S16x1x16384, .f32⟩ : BufTy).Contents (Elt F)),
    binary main_v53 main_v24 main_v54 (subf : (⟨S16x1x16384, .f32⟩ : BufTy).Contents (Elt F) → (⟨S16x1x16384, .f32⟩ : BufTy).Contents (Elt F) → (⟨S16x1x16384, .f32⟩ : BufTy).Contents (Elt F)),
    unary main_v54 main_v55 (broadcastInDim S16x16x16384 ![0, 1, 2] bcast_S16x1x16384_S16x16x16384_0_1_2 : (⟨S16x1x16384, .f32⟩ : BufTy).Contents (Elt F) → (⟨S16x16x16384, .f32⟩ : BufTy).Contents (Elt F)),
    binary main_v34 main_v55 main_v56 (mulf : (⟨S16x16x16384, .f32⟩ : BufTy).Contents (Elt F) → (⟨S16x16x16384, .f32⟩ : BufTy).Contents (Elt F) → (⟨S16x16x16384, .f32⟩ : BufTy).Contents (Elt F)),
    nullary main_cst_13 (constant S_ .f32 0x3F800000#32),
    unary main_cst_13 main_v57 (broadcastInDim S16x1x16384 ![] bcast_S_S16x1x16384 : (⟨S_, .f32⟩ : BufTy).Contents (Elt F) → (⟨S16x1x16384, .f32⟩ : BufTy).Contents (Elt F)),
    binary main_v57 main_v27 main_v58 (subf : (⟨S16x1x16384, .f32⟩ : BufTy).Contents (Elt F) → (⟨S16x1x16384, .f32⟩ : BufTy).Contents (Elt F) → (⟨S16x1x16384, .f32⟩ : BufTy).Contents (Elt F)),
    unary main_v58 main_v59 (broadcastInDim S16x16x16384 ![0, 1, 2] bcast_S16x1x16384_S16x16x16384_0_1_2 : (⟨S16x1x16384, .f32⟩ : BufTy).Contents (Elt F) → (⟨S16x16x16384, .f32⟩ : BufTy).Contents (Elt F)),
    binary main_v56 main_v59 main_v60 (mulf : (⟨S16x16x16384, .f32⟩ : BufTy).Contents (Elt F) → (⟨S16x16x16384, .f32⟩ : BufTy).Contents (Elt F) → (⟨S16x16x16384, .f32⟩ : BufTy).Contents (Elt F)),
    unary main_v24 main_v61 (broadcastInDim S16x16x16384 ![0, 1, 2] bcast_S16x1x16384_S16x16x16384_0_1_2 : (⟨S16x1x16384, .f32⟩ : BufTy).Contents (Elt F) → (⟨S16x16x16384, .f32⟩ : BufTy).Contents (Elt F)),
    binary main_v40 main_v61 main_v62 (mulf : (⟨S16x16x16384, .f32⟩ : BufTy).Contents (Elt F) → (⟨S16x16x16384, .f32⟩ : BufTy).Contents (Elt F) → (⟨S16x16x16384, .f32⟩ : BufTy).Contents (Elt F)),
    nullary main_cst_14 (constant S_ .f32 0x3F800000#32),
    unary main_cst_14 main_v63 (broadcastInDim S16x1x16384 ![] bcast_S_S16x1x16384 : (⟨S_, .f32⟩ : BufTy).Contents (Elt F) → (⟨S16x1x16384, .f32⟩ : BufTy).Contents (Elt F)),
    binary main_v63 main_v27 main_v64 (subf : (⟨S16x1x16384, .f32⟩ : BufTy).Contents (Elt F) → (⟨S16x1x16384, .f32⟩ : BufTy).Contents (Elt F) → (⟨S16x1x16384, .f32⟩ : BufTy).Contents (Elt F)),
    unary main_v64 main_v65 (broadcastInDim S16x16x16384 ![0, 1, 2] bcast_S16x1x16384_S16x16x16384_0_1_2 : (⟨S16x1x16384, .f32⟩ : BufTy).Contents (Elt F) → (⟨S16x16x16384, .f32⟩ : BufTy).Contents (Elt F)),
    binary main_v62 main_v65 main_v66 (mulf : (⟨S16x16x16384, .f32⟩ : BufTy).Contents (Elt F) → (⟨S16x16x16384, .f32⟩ : BufTy).Contents (Elt F) → (⟨S16x16x16384, .f32⟩ : BufTy).Contents (Elt F)),
    binary main_v60 main_v66 main_v67 (addf : (⟨S16x16x16384, .f32⟩ : BufTy).Contents (Elt F) → (⟨S16x16x16384, .f32⟩ : BufTy).Contents (Elt F) → (⟨S16x16x16384, .f32⟩ : BufTy).Contents (Elt F)),
    nullary main_cst_15 (constant S_ .f32 0x3F800000#32),
    unary main_cst_15 main_v68 (broadcastInDim S16x1x16384 ![] bcast_S_S16x1x16384 : (⟨S_, .f32⟩ : BufTy).Contents (Elt F) → (⟨S16x1x16384, .f32⟩ : BufTy).Contents (Elt F)),
    binary main_v68 main_v24 main_v69 (subf : (⟨S16x1x16384, .f32⟩ : BufTy).Contents (Elt F) → (⟨S16x1x16384, .f32⟩ : BufTy).Contents (Elt F) → (⟨S16x1x16384, .f32⟩ : BufTy).Contents (Elt F)),
    unary main_v69 main_v70 (broadcastInDim S16x16x16384 ![0, 1, 2] bcast_S16x1x16384_S16x16x16384_0_1_2 : (⟨S16x1x16384, .f32⟩ : BufTy).Contents (Elt F) → (⟨S16x16x16384, .f32⟩ : BufTy).Contents (Elt F)),
    binary main_v46 main_v70 main_v71 (mulf : (⟨S16x16x16384, .f32⟩ : BufTy).Contents (Elt F) → (⟨S16x16x16384, .f32⟩ : BufTy).Contents (Elt F) → (⟨S16x16x16384, .f32⟩ : BufTy).Contents (Elt F)),
    unary main_v27 main_v72 (broadcastInDim S16x16x16384 ![0, 1, 2] bcast_S16x1x16384_S16x16x16384_0_1_2 : (⟨S16x1x16384, .f32⟩ : BufTy).Contents (Elt F) → (⟨S16x16x16384, .f32⟩ : BufTy).Contents (Elt F)),
    binary main_v71 main_v72 main_v73 (mulf : (⟨S16x16x16384, .f32⟩ : BufTy).Contents (Elt F) → (⟨S16x16x16384, .f32⟩ : BufTy).Contents (Elt F) → (⟨S16x16x16384, .f32⟩ : BufTy).Contents (Elt F)),
    binary main_v67 main_v73 main_v74 (addf : (⟨S16x16x16384, .f32⟩ : BufTy).Contents (Elt F) → (⟨S16x16x16384, .f32⟩ : BufTy).Contents (Elt F) → (⟨S16x16x16384, .f32⟩ : BufTy).Contents (Elt F)),
    unary main_v24 main_v75 (broadcastInDim S16x16x16384 ![0, 1, 2] bcast_S16x1x16384_S16x16x16384_0_1_2 : (⟨S16x1x16384, .f32⟩ : BufTy).Contents (Elt F) → (⟨S16x16x16384, .f32⟩ : BufTy).Contents (Elt F)),
    binary main_v52 main_v75 main_v76 (mulf : (⟨S16x16x16384, .f32⟩ : BufTy).Contents (Elt F) → (⟨S16x16x16384, .f32⟩ : BufTy).Contents (Elt F) → (⟨S16x16x16384, .f32⟩ : BufTy).Contents (Elt F)),
    unary main_v27 main_v77 (broadcastInDim S16x16x16384 ![0, 1, 2] bcast_S16x1x16384_S16x16x16384_0_1_2 : (⟨S16x1x16384, .f32⟩ : BufTy).Contents (Elt F) → (⟨S16x16x16384, .f32⟩ : BufTy).Contents (Elt F)),
    binary main_v76 main_v77 main_v78 (mulf : (⟨S16x16x16384, .f32⟩ : BufTy).Contents (Elt F) → (⟨S16x16x16384, .f32⟩ : BufTy).Contents (Elt F) → (⟨S16x16x16384, .f32⟩ : BufTy).Contents (Elt F)),
    binary main_v74 main_v78 main_v79 (addf : (⟨S16x16x16384, .f32⟩ : BufTy).Contents (Elt F) → (⟨S16x16x16384, .f32⟩ : BufTy).Contents (Elt F) → (⟨S16x16x16384, .f32⟩ : BufTy).Contents (Elt F)) ]

end Cert.ReferenceIdeal.RefOps

end
-- ==== Proof.RefCorners.lean ====
/- The four corners of the reference's run, laid out from ONE hand-written text (scratch/corner.tmpl.lean) by
   substituting names: for corner N the call's number, its four stretches of operations, its buffers and the
   list of buffers that come through unchanged. Each corner: from contents holding the flattened field and the
   two cell words the corner pairs, its four stretches leave the corner's buffer at its stage of the arguments,
   and leave the listed buffers as they were. -/
import proofs.«176174_j11175504904483_1_alg».proof.Proof.RefOps
import proofs.«176174_j11175504904483_1_alg».proof.Proof.RefReadP
import Idealize.ShloMosaic.Lib.Pipeline.Frame

noncomputable section

namespace Cert.ReferenceIdeal.RefCorners

open Cert.ReferenceIdeal Cert.ReferenceIdeal.Gen Cert.ReferenceIdeal.ValueP Cert.ReferenceIdeal.RefOps Cert.ReferenceIdeal.ReadP
open Idealize.ShloMosaic Idealize.ShloMosaic.TcCoe Idealize.SL.Sem Idealize.ShloMosaic.StableHlo

variable {F : FTy → Type} [FloatOps F]
variable (x0 : (⟨S16x16x512x512, .f32⟩ : BufTy).Contents (Elt F)) (x1 : (⟨S16x2x16384, .f32⟩ : BufTy).Contents (Elt F))

/-! ## Corner 1: its flat index, the index column with negative entries shifted, the range test, the gather -/

/-- The flat index words of the corner, broadcast over the channels, from the two cell words it pairs. -/
theorem idx2 (W : Valuation τ sig (Elt F)) (hy : W (Proc.devRef .tc main_v13) = val_main_v13 (F := F) x1)
    (hx : W (Proc.devRef .tc main_v11) = val_main_v11 (F := F) x1) :
    after ops1 W (Proc.devRef .tc main_v33) = val_main_v33 (F := F) x1 := by
  unfold ops1; after_results_simp; rw [hy, hx]; rfl

/-- The index column: negative entries shifted up by the axis length. -/
theorem shift2 (W : Valuation τ sig (Elt F)) (hi : W (Proc.devRef .tc main_v33) = val_main_v33 (F := F) x1) :
    after ops2 W (Proc.devRef .tc main_call2_v5) = val_main_call2_v5 (F := F) x1 := by
  unfold ops2; after_results_simp; simp only [cast_cast, cast_eq]; rw [hi]; rfl

/-- The range test of the column, reduced over its unit axis. -/
theorem test2 (W : Valuation τ sig (Elt F)) (h5 : W (Proc.devRef .tc main_call2_v5) = val_main_call2_v5 (F := F) x1) :
    after ops3 W (Proc.devRef .tc main_call2_v12) = val_main_call2_v12 (F := F) x1 := by
  unfold ops3; after_results_simp; simp only [cast_cast, cast_eq]; rw [h5]; rfl

/-- The gather of the flattened field at the column, the filler where the test fails. -/
theorem gather2 (W : Valuation τ sig (Elt F)) (h28 : W (Proc.devRef .tc main_v28) = val_main_v28 (F := F) x0)
    (h5 : W (Proc.devRef .tc main_call2_v5) = val_main_call2_v5 (F := F) x1)
    (h12 : W (Proc.devRef .tc main_call2_v12) = val_main_call2_v12 (F := F) x1) :
    after ops4 W (Proc.devRef .tc main_v34) = val_main_v34 (F := F) x0 x1 := by
  unfold ops4; after_results_simp; simp only [cast_cast, cast_eq]; rw [h28, h5, h12]; rfl

/-- What the four stretches do not write they leave as it was. -/
theorem keepA2 (W : Valuation τ sig (Elt F)) : ∀ r ∈ ([main_v11, main_v13, main_v17, main_v21, main_v24, main_v27, main_v28] : List (Ref sig .tc)),
    after ops1 W (Proc.devRef .tc r) = W (Proc.devRef .tc r) := by
  intro r hr
  simp only [List.mem_cons, List.not_mem_nil, or_false] at hr
  rcases hr with rfl | rfl | rfl | rfl | rfl | rfl | rfl <;> (unfold ops1; after_results_simp)
theorem keepB2 (W : Valuation τ sig (Elt F)) : ∀ r ∈ ([main_v11, main_v13, main_v17, main_v21, main_v24, main_v27, main_v28] : List (Ref sig .tc)),
    after ops2 W (Proc.devRef .tc r) = W (Proc.devRef .tc r) := by
  intro r hr
  simp only [List.mem_cons, List.not_mem_nil, or_false] at hr
  rcases hr with rfl | rfl | rfl | rfl | rfl | rfl | rfl <;> (unfold ops2; after_results_simp)
theorem keepC2 (W : Valuation τ sig (Elt F)) : ∀ r ∈ (main_call2_v5 :: [main_v11, main_v13, main_v17, main_v21, main_v24, main_v27, main_v28] : List (Ref sig .tc)),
    after ops3 W (Proc.devRef .tc r) = W (Proc.devRef .tc r) := by
  intro r hr
  simp only [List.mem_cons, List.not_mem_nil, or_false] at hr
  rcases hr with rfl | rfl | rfl | rfl | rfl | rfl | rfl | rfl <;> (unfold ops3; after_results_simp)
theorem keepD2 (W : Valuation τ sig (Elt F)) : ∀ r ∈ ([main_v11, main_v13, main_v17, main_v21, main_v24, main_v27, main_v28] : List (Ref sig .tc)),
    after ops4 W (Proc.devRef .tc r) = W (Proc.devRef .tc r) := by
  intro r hr
  simp only [List.mem_cons, List.not_mem_nil, or_false] at hr
  rcases hr with rfl | rfl | rfl | rfl | rfl | rfl | rfl <;> (unfold ops4; after_results_simp)

/-- The corner as a whole: from contents holding the flattened field and the two cell words, the four
    stretches in a row leave the corner's buffer at its stage. -/
theorem corner2 (W : Valuation τ sig (Elt F)) (h28 : W (Proc.devRef .tc main_v28) = val_main_v28 (F := F) x0)
    (hy : W (Proc.devRef .tc main_v13) = val_main_v13 (F := F) x1) (hx : W (Proc.devRef .tc main_v11) = val_main_v11 (F := F) x1) :
    after ops4 (after ops3 (after ops2 (after ops1 W))) (Proc.devRef .tc main_v34) = val_main_v34 (F := F) x0 x1 := by
  have e1 := idx2 x1 W hy hx
  have k1 := (keepA2 W main_v28 (by decide)).trans h28
  generalize after ops1 W = V1 at *
  have e2 := shift2 x1 V1 e1
  have k2 := (keepB2 V1 main_v28 (by decide)).trans k1
  generalize after ops2 V1 = V2 at *
  have e3 := test2 x1 V2 e2
  have k5 := (keepC2 V2 main_call2_v5 (by decide)).trans e2
  have k3 := (keepC2 V2 main_v28 (by decide)).trans k2
  generalize after ops3 V2 = V3 at *
  exact gather2 x0 x1 V3 k3 k5 e3

/-- And they leave every buffer of the list as it was. -/
theorem corner2_keeps (W : Valuation τ sig (Elt F)) : ∀ r ∈ ([main_v11, main_v13, main_v17, main_v21, main_v24, main_v27, main_v28] : List (Ref sig .tc)),
    after ops4 (after ops3 (after ops2 (after ops1 W))) (Proc.devRef .tc r) = W (Proc.devRef .tc r) := by
  intro r hr
  rw [keepD2 _ r hr, keepC2 _ r (List.mem_cons_of_mem _ hr), keepB2 _ r hr, keepA2 _ r hr]

/-! ## Corner 2: its flat index, the index column with negative entries shifted, the range test, the gather -/

/-- The flat index words of the corner, broadcast over the channels, from the two cell words it pairs. -/
theorem idx3 (W : Valuation τ sig (Elt F)) (hy : W (Proc.devRef .tc main_v13) = val_main_v13 (F := F) x1)
    (hx : W (Proc.devRef .tc main_v17) = val_main_v17 (F := F) x1) :
    after ops5 W (Proc.devRef .tc main_v39) = val_main_v39 (F := F) x1 := by
  unfold ops5; after_results_simp; rw [hy, hx]; rfl

/-- The index column: negative entries shifted up by the axis length. -/
theorem shift3 (W : Valuation τ sig (Elt F)) (hi : W (Proc.devRef .tc main_v39) = val_main_v39 (F := F) x1) :
    after ops6 W (Proc.devRef .tc main_call3_v5) = val_main_call3_v5 (F := F) x1 := by
  unfold ops6; after_results_simp; simp only [cast_cast, cast_eq]; rw [hi]; rfl

/-- The range test of the column, reduced over its unit axis. -/
theorem test3 (W : Valuation τ sig (Elt F)) (h5 : W (Proc.devRef .tc main_call3_v5) = val_main_call3_v5 (F := F) x1) :
    after ops7 W (Proc.devRef .tc main_call3_v12) = val_main_call3_v12 (F := F) x1 := by
  unfold ops7; after_results_simp; simp only [cast_cast, cast_eq]; rw [h5]; rfl

/-- The gather of the flattened field at the column, the filler where the test fails. -/
theorem gather3 (W : Valuation τ sig (Elt F)) (h28 : W (Proc.devRef .tc main_v28) = val_main_v28 (F := F) x0)
    (h5 : W (Proc.devRef .tc main_call3_v5) = val_main_call3_v5 (F := F) x1)
    (h12 : W (Proc.devRef .tc main_call3_v12) = val_main_call3_v12 (F := F) x1) :
    after ops8 W (Proc.devRef .tc main_v40) = val_main_v40 (F := F) x0 x1 := by
  unfold ops8; after_results_simp; simp only [cast_cast, cast_eq]; rw [h28, h5, h12]; rfl

/-- What the four stretches do not write they leave as it was. -/
theorem keepA3 (W : Valuation τ sig (Elt F)) : ∀ r ∈ ([main_v11, main_v17, main_v21, main_v24, main_v27, main_v28, main_v34] : List (Ref sig .tc)),
    after ops5 W (Proc.devRef .tc r) = W (Proc.devRef .tc r) := by
  intro r hr
  simp only [List.mem_cons, List.not_mem_nil, or_false] at hr
  rcases hr with rfl | rfl | rfl | rfl | rfl | rfl | rfl <;> (unfold ops5; after_results_simp)
theorem keepB3 (W : Valuation τ sig (Elt F)) : ∀ r ∈ ([main_v11, main_v17, main_v21, main_v24, main_v27, main_v28, main_v34] : List (Ref sig .tc)),
    after ops6 W (Proc.devRef .tc r) = W (Proc.devRef .tc r) := by
  intro r hr
  simp only [List.mem_cons, List.not_mem_nil, or_false] at hr
  rcases hr with rfl | rfl | rfl | rfl | rfl | rfl | rfl <;> (unfold ops6; after_results_simp)
theorem keepC3 (W : Valuation τ sig (Elt F)) : ∀ r ∈ (main_call3_v5 :: [main_v11, main_v17, main_v21, main_v24, main_v27, main_v28, main_v34] : List (Ref sig .tc)),
    after ops7 W (Proc.devRef .tc r) = W (Proc.devRef .tc r) := by
  intro r hr
  simp only [List.mem_cons, List.not_mem_nil, or_false] at hr
  rcases hr with rfl | rfl | rfl | rfl | rfl | rfl | rfl | rfl <;> (unfold ops7; after_results_simp)
theorem keepD3 (W : Valuation τ sig (Elt F)) : ∀ r ∈ ([main_v11, main_v17, main_v21, main_v24, main_v27, main_v28, main_v34] : List (Ref sig .tc)),
    after ops8 W (Proc.devRef .tc r) = W (Proc.devRef .tc r) := by
  intro r hr
  simp only [List.mem_cons, List.not_mem_nil, or_false] at hr
  rcases hr with rfl | rfl | rfl | rfl | rfl | rfl | rfl <;> (unfold ops8; after_results_simp)

/-- The corner as a whole: from contents holding the flattened field and the two cell words, the four
    stretches in a row leave the corner's buffer at its stage. -/
theorem corner3 (W : Valuation τ sig (Elt F)) (h28 : W (Proc.devRef .tc main_v28) = val_main_v28 (F := F) x0)
    (hy : W (Proc.devRef .tc main_v13) = val_main_v13 (F := F) x1) (hx : W (Proc.devRef .tc main_v17) = val_main_v17 (F := F) x1) :
    after ops8 (after ops7 (after ops6 (after ops5 W))) (Proc.devRef .tc main_v40) = val_main_v40 (F := F) x0 x1 := by
  have e1 := idx3 x1 W hy hx
  have k1 := (keepA3 W main_v28 (by decide)).trans h28
  generalize after ops5 W = V1 at *
  have e2 := shift3 x1 V1 e1
  have k2 := (keepB3 V1 main_v28 (by decide)).trans k1
  generalize after ops6 V1 = V2 at *
  have e3 := test3 x1 V2 e2
  have k5 := (keepC3 V2 main_call3_v5 (by decide)).trans e2
  have k3 := (keepC3 V2 main_v28 (by decide)).trans k2
  generalize after ops7 V2 = V3 at *
  exact gather3 x0 x1 V3 k3 k5 e3

/-- And they leave every buffer of the list as it was. -/
theorem corner3_keeps (W : Valuation τ sig (Elt F)) : ∀ r ∈ ([main_v11, main_v17, main_v21, main_v24, main_v27, main_v28, main_v34] : List (Ref sig .tc)),
    after ops8 (after ops7 (after ops6 (after ops5 W))) (Proc.devRef .tc r) = W (Proc.devRef .tc r) := by
  intro r hr
  rw [keepD3 _ r hr, keepC3 _ r (List.mem_cons_of_mem _ hr), keepB3 _ r hr, keepA3 _ r hr]

/-! ## Corner 3: its flat index, the index column with negative entries shifted, the range test, the gather -/

/-- The flat index words of the corner, broadcast over the channels, from the two cell words it pairs. -/
theorem idx4 (W : Valuation τ sig (Elt F)) (hy : W (Proc.devRef .tc main_v21) = val_main_v21 (F := F) x1)
    (hx : W (Proc.devRef .tc main_v11) = val_main_v11 (F := F) x1) :
    after ops9 W (Proc.devRef .tc main_v45) = val_main_v45 (F := F) x1 := by
  unfold ops9; after_results_simp; rw [hy, hx]; rfl

/-- The index column: negative entries shifted up by the axis length. -/
theorem shift4 (W : Valuation τ sig (Elt F)) (hi : W (Proc.devRef .tc main_v45) = val_main_v45 (F := F) x1) :
    after ops10 W (Proc.devRef .tc main_call4_v5) = val_main_call4_v5 (F := F) x1 := by
  unfold ops10; after_results_simp; simp only [cast_cast, cast_eq]; rw [hi]; rfl

/-- The range test of the column, reduced over its unit axis. -/
theorem test4 (W : Valuation τ sig (Elt F)) (h5 : W (Proc.devRef .tc main_call4_v5) = val_main_call4_v5 (F := F) x1) :
    after ops11 W (Proc.devRef .tc main_call4_v12) = val_main_call4_v12 (F := F) x1 := by
  unfold ops11; after_results_simp; simp only [cast_cast, cast_eq]; rw [h5]; rfl

/-- The gather of the flattened field at the column, the filler where the test fails. -/
theorem gather4 (W : Valuation τ sig (Elt F)) (h28 : W (Proc.devRef .tc main_v28) = val_main_v28 (F := F) x0)
    (h5 : W (Proc.devRef .tc main_call4_v5) = val_main_call4_v5 (F := F) x1)
    (h12 : W (Proc.devRef .tc main_call4_v12) = val_main_call4_v12 (F := F) x1) :
    after ops12 W (Proc.devRef .tc main_v46) = val_main_v46 (F := F) x0 x1 := by
  unfold ops12; after_results_simp; simp only [cast_cast, cast_eq]; rw [h28, h5, h12]; rfl

/-- What the four stretches do not write they leave as it was. -/
theorem keepA4 (W : Valuation τ sig (Elt F)) : ∀ r ∈ ([main_v17, main_v21, main_v24, main_v27, main_v28, main_v34, main_v40] : List (Ref sig .tc)),
    after ops9 W (Proc.devRef .tc r) = W (Proc.devRef .tc r) := by
  intro r hr
  simp only [List.mem_cons, List.not_mem_nil, or_false] at hr
  rcases hr with rfl | rfl | rfl | rfl | rfl | rfl | rfl <;> (unfold ops9; after_results_simp)
theorem keepB4 (W : Valuation τ sig (Elt F)) : ∀ r ∈ ([main_v17, main_v21, main_v24, main_v27, main_v28, main_v34, main_v40] : List (Ref sig .tc)),
    after ops10 W (Proc.devRef .tc r) = W (Proc.devRef .tc r) := by
  intro r hr
  simp only [List.mem_cons, List.not_mem_nil, or_false] at hr
  rcases hr with rfl | rfl | rfl | rfl | rfl | rfl | rfl <;> (unfold ops10; after_results_simp)
theorem keepC4 (W : Valuation τ sig (Elt F)) : ∀ r ∈ (main_call4_v5 :: [main_v17, main_v21, main_v24, main_v27, main_v28, main_v34, main_v40] : List (Ref sig .tc)),
    after ops11 W (Proc.devRef .tc r) = W (Proc.devRef .tc r) := by
  intro r hr
  simp only [List.mem_cons, List.not_mem_nil, or_false] at hr
  rcases hr with rfl | rfl | rfl | rfl | rfl | rfl | rfl | rfl <;> (unfold ops11; after_results_simp)
theorem keepD4 (W : Valuation τ sig (Elt F)) : ∀ r ∈ ([main_v17, main_v21, main_v24, main_v27, main_v28, main_v34, main_v40] : List (Ref sig .tc)),
    after ops12 W (Proc.devRef .tc r) = W (Proc.devRef .tc r) := by
  intro r hr
  simp only [List.mem_cons, List.not_mem_nil, or_false] at hr
  rcases hr with rfl | rfl | rfl | rfl | rfl | rfl | rfl <;> (unfold ops12; after_results_simp)

/-- The corner as a whole: from contents holding the flattened field and the two cell words, the four
    stretches in a row leave the corner's buffer at its stage. -/
theorem corner4 (W : Valuation τ sig (Elt F)) (h28 : W (Proc.devRef .tc main_v28) = val_main_v28 (F := F) x0)
    (hy : W (Proc.devRef .tc main_v21) = val_main_v21 (F := F) x1) (hx : W (Proc.devRef .tc main_v11) = val_main_v11 (F := F) x1) :
    after ops12 (after ops11 (after ops10 (after ops9 W))) (Proc.devRef .tc main_v46) = val_main_v46 (F := F) x0 x1 := by
  have e1 := idx4 x1 W hy hx
  have k1 := (keepA4 W main_v28 (by decide)).trans h28
  generalize after ops9 W = V1 at *
  have e2 := shift4 x1 V1 e1
  have k2 := (keepB4 V1 main_v28 (by decide)).trans k1
  generalize after ops10 V1 = V2 at *
  have e3 := test4 x1 V2 e2
  have k5 := (keepC4 V2 main_call4_v5 (by decide)).trans e2
  have k3 := (keepC4 V2 main_v28 (by decide)).trans k2
  generalize after ops11 V2 = V3 at *
  exact gather4 x0 x1 V3 k3 k5 e3

/-- And they leave every buffer of the list as it was. -/
theorem corner4_keeps (W : Valuation τ sig (Elt F)) : ∀ r ∈ ([main_v17, main_v21, main_v24, main_v27, main_v28, main_v34, main_v40] : List (Ref sig .tc)),
    after ops12 (after ops11 (after ops10 (after ops9 W))) (Proc.devRef .tc r) = W (Proc.devRef .tc r) := by
  intro r hr
  rw [keepD4 _ r hr, keepC4 _ r (List.mem_cons_of_mem _ hr), keepB4 _ r hr, keepA4 _ r hr]

/-! ## Corner 4: its flat index, the index column with negative entries shifted, the range test, the gather -/

/-- The flat index words of the corner, broadcast over the channels, from the two cell words it pairs. -/
theorem idx5 (W : Valuation τ sig (Elt F)) (hy : W (Proc.devRef .tc main_v21) = val_main_v21 (F := F) x1)
    (hx : W (Proc.devRef .tc main_v17) = val_main_v17 (F := F) x1) :
    after ops13 W (Proc.devRef .tc main_v51) = val_main_v51 (F := F) x1 := by
  unfold ops13; after_results_simp; rw [hy, hx]; rfl

/-- The index column: negative entries shifted up by the axis length. -/
theorem shift5 (W : Valuation τ sig (Elt F)) (hi : W (Proc.devRef .tc main_v51) = val_main_v51 (F := F) x1) :
    after ops14 W (Proc.devRef .tc main_call5_v5) = val_main_call5_v5 (F := F) x1 := by
  unfold ops14; after_results_simp; simp only [cast_cast, cast_eq]; rw [hi]; rfl

/-- The range test of the column, reduced over its unit axis. -/
theorem test5 (W : Valuation τ sig (Elt F)) (h5 : W (Proc.devRef .tc main_call5_v5) = val_main_call5_v5 (F := F) x1) :
    after ops15 W (Proc.devRef .tc main_call5_v12) = val_main_call5_v12 (F := F) x1 := by
  unfold ops15; after_results_simp; simp only [cast_cast, cast_eq]; rw [h5]; rfl

/-- The gather of the flattened field at the column, the filler where the test fails. -/
theorem gather5 (W : Valuation τ sig (Elt F)) (h28 : W (Proc.devRef .tc main_v28) = val_main_v28 (F := F) x0)
    (h5 : W (Proc.devRef .tc main_call5_v5) = val_main_call5_v5 (F := F) x1)
    (h12 : W (Proc.devRef .tc main_call5_v12) = val_main_call5_v12 (F := F) x1) :
    after ops16 W (Proc.devRef .tc main_v52) = val_main_v52 (F := F) x0 x1 := by
  unfold ops16; after_results_simp; simp only [cast_cast, cast_eq]; rw [h28, h5, h12]; rfl

/-- What the four stretches do not write they leave as it was. -/
theorem keepA5 (W : Valuation τ sig (Elt F)) : ∀ r ∈ ([main_v24, main_v27, main_v28, main_v34, main_v40, main_v46] : List (Ref sig .tc)),
    after ops13 W (Proc.devRef .tc r) = W (Proc.devRef .tc r) := by
  intro r hr
  simp only [List.mem_cons, List.not_mem_nil, or_false] at hr
  rcases hr with rfl | rfl | rfl | rfl | rfl | rfl <;> (unfold ops13; after_results_simp)
theorem keepB5 (W : Valuation τ sig (Elt F)) : ∀ r ∈ ([main_v24, main_v27, main_v28, main_v34, main_v40, main_v46] : List (Ref sig .tc)),
    after ops14 W (Proc.devRef .tc r) = W (Proc.devRef .tc r) := by
  intro r hr
  simp only [List.mem_cons, List.not_mem_nil, or_false] at hr
  rcases hr with rfl | rfl | rfl | rfl | rfl | rfl <;> (unfold ops14; after_results_simp)
theorem keepC5 (W : Valuation τ sig (Elt F)) : ∀ r ∈ (main_call5_v5 :: [main_v24, main_v27, main_v28, main_v34, main_v40, main_v46] : List (Ref sig .tc)),
    after ops15 W (Proc.devRef .tc r) = W (Proc.devRef .tc r) := by
  intro r hr
  simp only [List.mem_cons, List.not_mem_nil, or_false] at hr
  rcases hr with rfl | rfl | rfl | rfl | rfl | rfl | rfl <;> (unfold ops15; after_results_simp)
theorem keepD5 (W : Valuation τ sig (Elt F)) : ∀ r ∈ ([main_v24, main_v27, main_v28, main_v34, main_v40, main_v46] : List (Ref sig .tc)),
    after ops16 W (Proc.devRef .tc r) = W (Proc.devRef .tc r) := by
  intro r hr
  simp only [List.mem_cons, List.not_mem_nil, or_false] at hr
  rcases hr with rfl | rfl | rfl | rfl | rfl | rfl <;> (unfold ops16; after_results_simp)

/-- The corner as a whole: from contents holding the flattened field and the two cell words, the four
    stretches in a row leave the corner's buffer at its stage. -/
theorem corner5 (W : Valuation τ sig (Elt F)) (h28 : W (Proc.devRef .tc main_v28) = val_main_v28 (F := F) x0)
    (hy : W (Proc.devRef .tc main_v21) = val_main_v21 (F := F) x1) (hx : W (Proc.devRef .tc main_v17) = val_main_v17 (F := F) x1) :
    after ops16 (after ops15 (after ops14 (after ops13 W))) (Proc.devRef .tc main_v52) = val_main_v52 (F := F) x0 x1 := by
  have e1 := idx5 x1 W hy hx
  have k1 := (keepA5 W main_v28 (by decide)).trans h28
  generalize after ops13 W = V1 at *
  have e2 := shift5 x1 V1 e1
  have k2 := (keepB5 V1 main_v28 (by decide)).trans k1
  generalize after ops14 V1 = V2 at *
  have e3 := test5 x1 V2 e2
  have k5 := (keepC5 V2 main_call5_v5 (by decide)).trans e2
  have k3 := (keepC5 V2 main_v28 (by decide)).trans k2
  generalize after ops15 V2 = V3 at *
  exact gather5 x0 x1 V3 k3 k5 e3

/-- And they leave every buffer of the list as it was. -/
theorem corner5_keeps (W : Valuation τ sig (Elt F)) : ∀ r ∈ ([main_v24, main_v27, main_v28, main_v34, main_v40, main_v46] : List (Ref sig .tc)),
    after ops16 (after ops15 (after ops14 (after ops13 W))) (Proc.devRef .tc r) = W (Proc.devRef .tc r) := by
  intro r hr
  rw [keepD5 _ r hr, keepC5 _ r (List.mem_cons_of_mem _ hr), keepB5 _ r hr, keepA5 _ r hr]

end Cert.ReferenceIdeal.RefCorners

end
-- ==== Proof.RefRun.lean ====
/-
  The reference program's run, read back in stretches.

  The reference is a straight line of 192 host operations. Every weakly fair execution of a straight line
  ends with each buffer at the fold of the operations' results over the launch contents. The fold is read
  here in stretches: the cells, next cells, weights and the flattened field (operations 0..48); the four
  corners, each in four short stretches (Proof/RefCorners.lean); the blend (161..191). For each stretch,
  from ANY contents, the buffer it computes is stated as the program's stage of the two arguments, given
  that the buffers it reads hold their stages, and the buffers it does not write are unchanged. Chained, the
  result buffer ends at the result stage of the launch contents of the two arguments, which the run leaves
  as they were. A value written by an operation of a called function is moved to its buffer's type and back
  when it is read; the two moves cancel.
-/
import proofs.«176174_j11175504904483_1_alg».proof.Proof.RefOps
import proofs.«176174_j11175504904483_1_alg».proof.Proof.RefReadP
import proofs.«176174_j11175504904483_1_alg».proof.Proof.RefCorners
import Idealize.ShloMosaic.Lib.Pipeline.Frame

noncomputable section

namespace Cert.ReferenceIdeal.RefRun

open Cert.ReferenceIdeal Cert.ReferenceIdeal.Gen Cert.ReferenceIdeal.ValueP Cert.ReferenceIdeal.RefOps Cert.ReferenceIdeal.ReadP
open Cert.ReferenceIdeal.RefCorners
open Idealize.ShloMosaic Idealize.ShloMosaic.TcCoe Idealize.SL.Sem Idealize.ShloMosaic.StableHlo

variable {F : FTy → Type} [FloatOps F]

set_option maxHeartbeats 4000000 in
/-- The program's list of operations is the stretches in a row. -/
theorem ops_cut : (ops : List (HloOp τ sig (Elt F))) = ops0 ++ (ops1 ++ (ops2 ++ (ops3 ++ (ops4 ++ (ops5 ++ (ops6 ++ (ops7 ++ (ops8
    ++ (ops9 ++ (ops10 ++ (ops11 ++ (ops12 ++ (ops13 ++ (ops14 ++ (ops15 ++ (ops16 ++ ops17)))))))))))))))) := rfl

variable (x0 : (⟨S16x16x512x512, .f32⟩ : BufTy).Contents (Elt F)) (x1 : (⟨S16x2x16384, .f32⟩ : BufTy).Contents (Elt F))

/-! ## The first stretch: cells, next cells, weights, the flattened field -/

theorem s0_v11 (W : Valuation τ sig (Elt F)) (h1 : W (Proc.devRef .tc main_arg1) = x1) :
    after ops0 W (Proc.devRef .tc main_v11) = val_main_v11 (F := F) x1 := by
  unfold ops0; after_results_simp; simp only [cast_cast, cast_eq]; rw [h1]; rfl

theorem s0_v13 (W : Valuation τ sig (Elt F)) (h1 : W (Proc.devRef .tc main_arg1) = x1) :
    after ops0 W (Proc.devRef .tc main_v13) = val_main_v13 (F := F) x1 := by
  unfold ops0; after_results_simp; simp only [cast_cast, cast_eq]; rw [h1]; rfl

theorem s0_v17 (W : Valuation τ sig (Elt F)) (h1 : W (Proc.devRef .tc main_arg1) = x1) :
    after ops0 W (Proc.devRef .tc main_v17) = val_main_v17 (F := F) x1 := by
  unfold ops0; after_results_simp; simp only [cast_cast, cast_eq]; rw [h1]; rfl

theorem s0_v21 (W : Valuation τ sig (Elt F)) (h1 : W (Proc.devRef .tc main_arg1) = x1) :
    after ops0 W (Proc.devRef .tc main_v21) = val_main_v21 (F := F) x1 := by
  unfold ops0; after_results_simp; simp only [cast_cast, cast_eq]; rw [h1]; rfl

theorem s0_v24 (W : Valuation τ sig (Elt F)) (h1 : W (Proc.devRef .tc main_arg1) = x1) :
    after ops0 W (Proc.devRef .tc main_v24) = val_main_v24 (F := F) x1 := by
  unfold ops0; after_results_simp; simp only [cast_cast, cast_eq]; rw [h1]; rfl

theorem s0_v27 (W : Valuation τ sig (Elt F)) (h1 : W (Proc.devRef .tc main_arg1) = x1) :
    after ops0 W (Proc.devRef .tc main_v27) = val_main_v27 (F := F) x1 := by
  unfold ops0; after_results_simp; simp only [cast_cast, cast_eq]; rw [h1]; rfl

theorem s0_v28 (W : Valuation τ sig (Elt F)) (h0 : W (Proc.devRef .tc main_arg0) = x0) :
    after ops0 W (Proc.devRef .tc main_v28) = val_main_v28 (F := F) x0 := by
  unfold ops0; after_results_simp; rw [h0]; rfl

/-! ## The last stretch: the blend of the four corners with the weights -/

theorem blend (W : Valuation τ sig (Elt F)) (h34 : W (Proc.devRef .tc main_v34) = val_main_v34 (F := F) x0 x1)
    (h40 : W (Proc.devRef .tc main_v40) = val_main_v40 (F := F) x0 x1) (h46 : W (Proc.devRef .tc main_v46) = val_main_v46 (F := F) x0 x1)
    (h52 : W (Proc.devRef .tc main_v52) = val_main_v52 (F := F) x0 x1) (h24 : W (Proc.devRef .tc main_v24) = val_main_v24 (F := F) x1)
    (h27 : W (Proc.devRef .tc main_v27) = val_main_v27 (F := F) x1) :
    after ops17 W (Proc.devRef .tc main_v79) = val_main_v79 (F := F) x0 x1 := by
  unfold ops17; after_results_simp; rw [h34, h40, h46, h52, h24, h27]; rfl

/-! ## The whole line -/

/-- From contents holding the two arguments, the result buffer ends at the result stage of the arguments:
    the first stretch, then the four corners one after the other, each leaving the earlier values in place,
    then the blend. -/
theorem value (W : Valuation τ sig (Elt F)) (h0 : W (Proc.devRef .tc main_arg0) = x0) (h1 : W (Proc.devRef .tc main_arg1) = x1) :
    after ops W (Proc.devRef .tc main_v79) = val_main_v79 (F := F) x0 x1 := by
  rw [ops_cut]
  simp only [StableHlo.after_append]
  have e11 := s0_v11 x1 W h1
  have e13 := s0_v13 x1 W h1
  have e17 := s0_v17 x1 W h1
  have e21 := s0_v21 x1 W h1
  have e24 := s0_v24 x1 W h1
  have e27 := s0_v27 x1 W h1
  have e28 := s0_v28 x0 W h0
  generalize after ops0 W = V0 at *
  -- the first corner pairs the vertical cell with the horizontal cell
  have e34 := corner2 x0 x1 V0 e28 e13 e11
  have a11 := (corner2_keeps V0 main_v11 (by decide)).trans e11
  have a13 := (corner2_keeps V0 main_v13 (by decide)).trans e13
  have a17 := (corner2_keeps V0 main_v17 (by decide)).trans e17
  have a21 := (corner2_keeps V0 main_v21 (by decide)).trans e21
  have a24 := (corner2_keeps V0 main_v24 (by decide)).trans e24
  have a27 := (corner2_keeps V0 main_v27 (by decide)).trans e27
  have a28 := (corner2_keeps V0 main_v28 (by decide)).trans e28
  generalize after ops4 (after ops3 (after ops2 (after ops1 V0))) = V1 at *
  -- the second: the vertical cell with the horizontal next cell
  have e40 := corner3 x0 x1 V1 a28 a13 a17
  have b11 := (corner3_keeps V1 main_v11 (by decide)).trans a11
  have b17 := (corner3_keeps V1 main_v17 (by decide)).trans a17
  have b21 := (corner3_keeps V1 main_v21 (by decide)).trans a21
  have b24 := (corner3_keeps V1 main_v24 (by decide)).trans a24
  have b27 := (corner3_keeps V1 main_v27 (by decide)).trans a27
  have b28 := (corner3_keeps V1 main_v28 (by decide)).trans a28
  have b34 := (corner3_keeps V1 main_v34 (by decide)).trans e34
  generalize after ops8 (after ops7 (after ops6 (after ops5 V1))) = V2 at *
  -- the third: the vertical next cell with the horizontal cell
  have e46 := corner4 x0 x1 V2 b28 b21 b11
  have c17 := (corner4_keeps V2 main_v17 (by decide)).trans b17
  have c21 := (corner4_keeps V2 main_v21 (by decide)).trans b21
  have c24 := (corner4_keeps V2 main_v24 (by decide)).trans b24
  have c27 := (corner4_keeps V2 main_v27 (by decide)).trans b27
  have c28 := (corner4_keeps V2 main_v28 (by decide)).trans b28
  have c34 := (corner4_keeps V2 main_v34 (by decide)).trans b34
  have c40 := (corner4_keeps V2 main_v40 (by decide)).trans e40
  generalize after ops12 (after ops11 (after ops10 (after ops9 V2))) = V3 at *
  -- the fourth: the two next cells
  have e52 := corner5 x0 x1 V3 c28 c21 c17
  have d24 := (corner5_keeps V3 main_v24 (by decide)).trans c24
  have d27 := (corner5_keeps V3 main_v27 (by decide)).trans c27
  have d34 := (corner5_keeps V3 main_v34 (by decide)).trans c34
  have d40 := (corner5_keeps V3 main_v40 (by decide)).trans c40
  have d46 := (corner5_keeps V3 main_v46 (by decide)).trans e46
  generalize after ops16 (after ops15 (after ops14 (after ops13 V3))) = V4 at *
  exact blend x0 x1 V4 d34 d40 d46 e52 d24 d27

/-- No operation writes an argument. -/
theorem kept0 (W : Valuation τ sig (Elt F)) : after ops W (Proc.devRef .tc main_arg0) = W (Proc.devRef .tc main_arg0) := by
  unfold ops; after_results_simp
theorem kept1 (W : Valuation τ sig (Elt F)) : after ops W (Proc.devRef .tc main_arg1) = W (Proc.devRef .tc main_arg1) := by
  unfold ops; after_results_simp

/-- Every weakly fair execution of the reference terminates with the result buffer at the result stage of the
    two arguments as launched, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v79)
          = val_main_v79 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v79).trans (value _ _ _ rfl rfl),
      (h c main_arg0).trans (kept0 _), (h c main_arg1).trans (kept1 _)⟩)
    (run_seq scopedRefs_eq scopedSems_eq defs main (fun _ => ops) main_eq (fun _ => ops_sub) m ρ)

end Cert.ReferenceIdeal.RefRun

end
-- ==== Proof.RefPrelude.lean ====
/-
  The reference's cells, next cells, weights and flattened field, read at an index.

  From the points P[b, k, n] the reference computes, for the horizontal (k = 0) and the vertical (k = 1)
  coordinate, the clipped position, its cell word, the next cell's word and the weight, and it flattens each
  512 x 512 slice of the field. Read at an index each is the specification's scalar function of one entry of
  the points, and the flattened field at (b, c, y * 512 + x) is the field at (b, c, y, x).
-/
import proofs.«176174_j11175504904483_1_alg».proof.Proof.RefReadP
import proofs.«176174_j11175504904483_1_alg».proof.Proof.Spec
import Idealize.ShloMosaic.Lib.ValueIdx
import Idealize.ShloMosaic.Lib.ValueLayout
import Idealize.ShloMosaic.Lib.Pipeline.Value

noncomputable section

namespace Cert.ReferenceIdeal.RefPrelude

open Cert.ReferenceIdeal Cert.ReferenceIdeal.ReadP Idealize.ShloMosaic Idealize.ShloMosaic.TcCoe Idealize.ShloMosaic.ValueIdx Cert.Interp

variable (P : (⟨S16x2x16384, .f32⟩ : BufTy).Contents (Elt Ideal)) (R : (⟨S16x16x512x512, .f32⟩ : BufTy).Contents (Elt Ideal))

/-! ## Indices -/

/-- Entry (b, n) of the flattened slice of coordinate 0 is P[b, 0, n]. -/
theorem idx_x (b : Fin 16) (n : Fin 16384) : idx_main_v0 (idx_main_v1 (ix2 b n)) = ix3 b (0 : Fin 2) n := by
  funext a
  match a with
  | ⟨0, _⟩ => exact Fin.ext (by show (b.val * 16384 + n.val) / 16384 = b.val; omega)
  | ⟨1, _⟩ => exact Fin.ext (by show (0 : Nat) = 0; rfl)
  | ⟨2, _⟩ => exact Fin.ext (by show (b.val * 16384 + n.val) % 16384 = n.val; omega)

/-- Entry (b, n) of the flattened slice of coordinate 1 is P[b, 1, n]. -/
theorem idx_y (b : Fin 16) (n : Fin 16384) : idx_main_v5 (idx_main_v6 (ix2 b n)) = ix3 b (1 : Fin 2) n := by
  funext a
  match a with
  | ⟨0, _⟩ => exact Fin.ext (by show (b.val * 16384 + n.val) / 16384 = b.val; omega)
  | ⟨1, _⟩ => exact Fin.ext (by show 1 + 0 = 1; rfl)
  | ⟨2, _⟩ => exact Fin.ext (by show (b.val * 16384 + n.val) % 16384 = n.val; omega)

/-- Entry (b, 0, n) of a weight broadcast to [16, 1, 16384] is entry (b, n). -/
theorem idx_w (b : Fin 16) (n : Fin 16384) : idx_main_v24 (ix3 b (0 : Fin 1) n) = ix2 b n := by
  funext a
  match a with
  | ⟨0, _⟩ => rfl
  | ⟨1, _⟩ => rfl

/-! ## The upper clip bound -/

/-- The word 511 converted to a float is the real 511. -/
theorem sitofp_511 : FloatOps.sitofp (F := Ideal) .f32 (511#32 : BitVec 32) = ((511 : ℝ) : EReal) := by
  show (((511#32 : BitVec 32).toInt : ℝ) : EReal) = _
  have h : (511#32 : BitVec 32).toInt = 511 := by decide
  rw [h, Int.cast_ofNat]

/-! ## Positions -/

/-- The clipped horizontal position at (b, n) is the position of P[b, 0, n]. -/
theorem posx_apply (b : Fin 16) (n : Fin 16384) : (val_main_v4 (F := Ideal) P (ix2 b n) : EReal) = pos (P (ix3 b (0 : Fin 2) n)) := by
  rw [val_main_v4_apply, val_main_call0_v4_apply, val_main_call0_v3_apply, val_main_c_apply, val_main_call0_v2_apply,
    val_main_call0_v1_apply, val_main_call0_v0_apply, val_main_cst_0_apply, val_main_v3_apply, val_main_v2_apply, val_main_cst_apply,
    val_main_v1_apply, val_main_v0_apply, idx_x, sitofp_511]
  show min ((511 : ℝ) : EReal) (max (Ideal.ofBits .f32 0x00000000#32) (P (ix3 b (0 : Fin 2) n) * Ideal.ofBits .f32 0x43FF8000#32)) = _
  rw [ofBits_511, Ideal.ofBits_zero_f32]
  rfl

/-- The clipped vertical position at (b, n) is the position of P[b, 1, n]. -/
theorem posy_apply (b : Fin 16) (n : Fin 16384) : (val_main_v9 (F := Ideal) P (ix2 b n) : EReal) = pos (P (ix3 b (1 : Fin 2) n)) := by
  rw [val_main_v9_apply, val_main_call1_v4_apply, val_main_call1_v3_apply, val_main_c_3_apply, val_main_call1_v2_apply,
    val_main_call1_v1_apply, val_main_call1_v0_apply, val_main_cst_2_apply, val_main_v8_apply, val_main_v7_apply, val_main_cst_1_apply,
    val_main_v6_apply, val_main_v5_apply, idx_y, sitofp_511]
  show min ((511 : ℝ) : EReal) (max (Ideal.ofBits .f32 0x00000000#32) (P (ix3 b (1 : Fin 2) n) * Ideal.ofBits .f32 0x43FF8000#32)) = _
  rw [ofBits_511, Ideal.ofBits_zero_f32]
  rfl

/-! ## Cells, next cells, weights -/

theorem x0_apply (b : Fin 16) (n : Fin 16384) : (val_main_v11 (F := Ideal) P (ix2 b n) : BitVec 32) = cell (P (ix3 b (0 : Fin 2) n)) := by
  show Ideal.fptosi 32 (Ideal.liftRound Int.floor (val_main_v4 (F := Ideal) P (ix2 b n))) = _
  rw [posx_apply]
  rfl

theorem y0_apply (b : Fin 16) (n : Fin 16384) : (val_main_v13 (F := Ideal) P (ix2 b n) : BitVec 32) = cell (P (ix3 b (1 : Fin 2) n)) := by
  show Ideal.fptosi 32 (Ideal.liftRound Int.floor (val_main_v9 (F := Ideal) P (ix2 b n))) = _
  rw [posy_apply]
  rfl

theorem x1_apply (b : Fin 16) (n : Fin 16384) : (val_main_v17 (F := Ideal) P (ix2 b n) : BitVec 32) = cellUp (P (ix3 b (0 : Fin 2) n)) := by
  rw [val_main_v17_apply, val_main_v15_apply, val_main_v14_apply, val_main_c_4_apply, val_main_v16_apply, val_main_c_5_apply, x0_apply]
  rfl

theorem y1_apply (b : Fin 16) (n : Fin 16384) : (val_main_v21 (F := Ideal) P (ix2 b n) : BitVec 32) = cellUp (P (ix3 b (1 : Fin 2) n)) := by
  rw [val_main_v21_apply, val_main_v19_apply, val_main_v18_apply, val_main_c_6_apply, val_main_v20_apply, val_main_c_7_apply, y0_apply]
  rfl

theorem wx_apply (b : Fin 16) (n : Fin 16384) : (val_main_v24 (F := Ideal) P (ix3 b (0 : Fin 1) n) : EReal) = frac (P (ix3 b (0 : Fin 2) n)) := by
  rw [val_main_v24_apply, idx_w, val_main_v23_apply, val_main_v22_apply, posx_apply, x0_apply]
  rfl

theorem wy_apply (b : Fin 16) (n : Fin 16384) : (val_main_v27 (F := Ideal) P (ix3 b (0 : Fin 1) n) : EReal) = frac (P (ix3 b (1 : Fin 2) n)) := by
  rw [val_main_v27_apply, show idx_main_v27 (ix3 b (0 : Fin 1) n) = ix2 b n from idx_w b n, val_main_v26_apply, val_main_v25_apply, posy_apply, y0_apply]
  rfl

/-- The flattened field at (b, c, y * 512 + x) is the field at (b, c, y, x). -/
theorem flat_apply (b c : Fin 16) (y x : Fin 512) (k : Fin 262144) (hk : k.val = y.val * 512 + x.val) :
    (val_main_v28 (F := Ideal) R (ix3 b c k) : EReal) = R (ix4 b c y x) := by
  rw [val_main_v28_apply]
  refine congrArg R (funext fun a => ?_)
  have hb := b.isLt
  have hc := c.isLt
  have hy := y.isLt
  have hx := x.isLt
  match a with
  | ⟨0, _⟩ => exact Fin.ext (by show ((b.val * 16 + c.val) * 262144 + k.val) / 4194304 = b.val; omega)
  | ⟨1, _⟩ => exact Fin.ext (by show ((b.val * 16 + c.val) * 262144 + k.val) / 262144 % 16 = c.val; omega)
  | ⟨2, _⟩ => exact Fin.ext (by show ((b.val * 16 + c.val) * 262144 + k.val) / 512 % 512 = y.val; omega)
  | ⟨3, _⟩ => exact Fin.ext (by show ((b.val * 16 + c.val) * 262144 + k.val) % 512 = x.val; omega)

end Cert.ReferenceIdeal.RefPrelude

end
-- ==== Proof.TakeAlong.lean ====
/-
  A gather along the last axis, with out-of-range indices filled.

  The reference reads the flattened field flat[b, c, .] (16 x 16 x 262144) at an index array idx[b, c, n] of
  32-bit words: a negative index is first shifted up by the axis length, the shifted index is tested for
  0 <= . <= 262143, the gather reads flat[b, c, index] (batch axes b and c paired, the index clamped into the
  axis), and where the test fails a filler replaces the gathered value. When the word at (b, c, n) denotes a
  number k in [0, 262143] nothing is shifted, the test passes, nothing is clamped, and the result is
  flat[b, c, k].
-/
import proofs.«176174_j11175504904483_1_alg».proof.Proof.Gen.ReferenceIdeal
import proofs.«176174_j11175504904483_1_alg».proof.Proof.Spec
import Idealize.ShloMosaic.Lib.ValueIdx
import Idealize.ShloMosaic.Lib.ValueLayout
import Idealize.ShloMosaic.Lib.Pipeline.Value
import Idealize.ShloMosaic.Lib.ReduceAll
import Idealize.ShloMosaic.Lib.StableHlo.Predicate

noncomputable section

namespace Cert.ReferenceIdeal.TakeAlong

open Cert.ReferenceIdeal Cert.ReferenceIdeal.Gen Idealize.ShloMosaic Idealize.ShloMosaic.TcCoe Idealize.ShloMosaic.ValueIdx

variable {F : FTy → Type} [FloatOps F]

/-- The index array with negative entries shifted up by the axis length, as a column [16, 16, 16384, 1]. -/
def shifted (idx : (⟨S16x16x16384, .i32⟩ : BufTy).Contents (Elt F)) : (⟨S16x16x16384x1, .i32⟩ : BufTy).Contents (Elt F) :=
  shapeCast _ (select (cmpi .slt idx (broadcastInDim S16x16x16384 ![] bcast_S_S16x16x16384 (constantI S_ 32 0#32)))
      (addi idx (broadcastInDim S16x16x16384 ![] bcast_S_S16x16x16384 (constantI S_ 32 262144#32))) idx)
    shapeCasts_S16x16x16384_S16x16x16384x1

/-- The gather along the flattened axis with its range test and filler, as the reference composes it. -/
def takeAlong (flat : (⟨S16x16x262144, .f32⟩ : BufTy).Contents (Elt F)) (idx : (⟨S16x16x16384, .i32⟩ : BufTy).Contents (Elt F)) :
    (⟨S16x16x16384, .f32⟩ : BufTy).Contents (Elt F) :=
  select
    (Host.reduce IntOp.andi
      (andi (cmpi .sge (shifted (F := F) idx) (broadcastInDim S16x16x16384x1 ![] bcast_S_S16x16x16384x1 (constantI S_ 32 0#32)))
        (cmpi .sle (shifted (F := F) idx) (broadcastInDim S16x16x16384x1 ![0, 1, 2, 3] bcast_S1x1x1x1_S16x16x16384x1_0_1_2_3
          (broadcastInDim S1x1x1x1 ![3] bcast_S1_S1x1x1x1_3 (constantI S1 32 262143#32)))))
      (constantI S_ 1 1#1) reducesTo_S16x16x16384x1_S16x16x16384_d3 h_S_)
    (Host.gather gather_S16x16x262144_S16x16x16384x1_S16x16x16384_n_2_01_01_2_3_111 flat (shifted (F := F) idx))
    (broadcastInDim S16x16x16384 ![] bcast_S_S16x16x16384 (constant S_ .f32 0x7FC00000#32))

/-! ## The gather read at an index -/

/-- The gather's dimension numbers: operand axes 0 and 1 paired with the index array's axes 0 and 1, operand
    axis 2 collapsed and addressed by the one component of the index vector on axis 3. -/
abbrev gd : GatherDims S16x16x262144 S16x16x16384x1 S16x16x16384 :=
  gather_S16x16x262144_S16x16x16384x1_S16x16x16384_n_2_01_01_2_3_111

theorem mem_ob0 : (0 : Fin 3) ∈ gd.operandBatchingDims := by decide
theorem mem_ob1 : (1 : Fin 3) ∈ gd.operandBatchingDims := by decide
theorem not_mem_ob2 : (2 : Fin 3) ∉ gd.operandBatchingDims := by decide
theorem mem_sim2 : (2 : Fin 3) ∈ gd.startIndexMap := by decide
theorem mem_col2 : (2 : Fin 3) ∈ gd.collapsedSliceDims := by decide

/-- Operand axis 0 is a batch axis: its coordinate is the result's coordinate `b`. -/
theorem gather_ax0 (col : IVec S16x16x16384x1 32) (b c : Fin 16) (n : Fin 16384) :
    gd.start (ix3 b c n) col 0 + gd.batchCoord (ix3 b c n) 0 + gd.offCoord (ix3 b c n) 0 = b.val := by
  rw [gd.start_batching _ _ _ mem_ob0, gd.offCoord_eq_zero _ _ (fun h => ((gd.mem_sKept _).mp h).2 mem_ob0),
    Nat.zero_add, Nat.add_zero]
  rfl

/-- Operand axis 1 is a batch axis: its coordinate is the result's coordinate `c`. -/
theorem gather_ax1 (col : IVec S16x16x16384x1 32) (b c : Fin 16) (n : Fin 16384) :
    gd.start (ix3 b c n) col 1 + gd.batchCoord (ix3 b c n) 1 + gd.offCoord (ix3 b c n) 1 = c.val := by
  rw [gd.start_batching _ _ _ mem_ob1, gd.offCoord_eq_zero _ _ (fun h => ((gd.mem_sKept _).mp h).2 mem_ob1),
    Nat.zero_add, Nat.add_zero]
  rfl

/-- Operand axis 2 is the collapsed axis the index addresses: its coordinate is the column's word at
    `(b, c, n, 0)`, read signed and clamped into the axis; a word that denotes `k` inside the axis gives `k`. -/
theorem gather_ax2 (col : IVec S16x16x16384x1 32) (b c : Fin 16) (n : Fin 16384) (k : Fin 262144)
    (hk : (col (ix4 b c n (0 : Fin 1))).toInt = (k.val : ℤ)) :
    gd.start (ix3 b c n) col 2 + gd.batchCoord (ix3 b c n) 2 + gd.offCoord (ix3 b c n) 2 = k.val := by
  rw [gd.batchCoord_eq_zero _ _ not_mem_ob2, gd.offCoord_eq_zero _ _ (fun h => ((gd.mem_sKept _).mp h).1 mem_col2)]
  simp only [Nat.add_zero]
  unfold GatherDims.start
  rw [dif_pos mem_sim2]
  have hsi : gd.siIdx (ix3 b c n) ⟨List.idxOf (2 : Fin 3) gd.startIndexMap, List.idxOf_lt_length_iff.2 mem_sim2⟩
      = ix4 b c n (0 : Fin 1) := by
    funext e; refine Fin.ext ?_
    match e with
    | ⟨0, _⟩ => rfl
    | ⟨1, _⟩ => rfl
    | ⟨2, _⟩ => rfl
    | ⟨3, _⟩ => rfl
  rw [hsi, hk]
  show min ((k.val : ℤ)).toNat (262144 - 1) = k.val
  have := k.isLt
  rw [Int.toNat_natCast]
  omega

/-- The gather at `(b, c, n)`, where the column's word there denotes `k` inside the axis: the operand at
    `(b, c, k)`. -/
theorem gather_apply {α : Type} (flat : S16x16x262144.Idx → α) (col : IVec S16x16x16384x1 32) (b c : Fin 16) (n : Fin 16384)
    (k : Fin 262144) (hk : (col (ix4 b c n (0 : Fin 1))).toInt = (k.val : ℤ)) :
    Host.gather gd flat col (ix3 b c n) = flat (ix3 b c k) := by
  unfold Host.gather
  refine congrArg flat ?_
  funext a
  refine Fin.ext ?_
  match a with
  | ⟨0, _⟩ => exact gather_ax0 col b c n
  | ⟨1, _⟩ => exact gather_ax1 col b c n
  | ⟨2, _⟩ => exact gather_ax2 col b c n k hk

/-! ## The shifted index column and the range test -/

/-- A rank-0 constant broadcast to any shape reads the constant everywhere. -/
theorem bconst_apply {t : Shape} {w : ℕ} (h : S_.BroadcastsInDim t (![] : Fin 0 → Fin t.rank)) (v : BitVec w) (j : t.Idx) :
    broadcastInDim t ![] h (constantI S_ w v) j = v := rfl

/-- A `[16, 16, 16384]` array reshaped to the column `[16, 16, 16384, 1]` reads, at `(b, c, n, u)`, the operand at
    `(b, c, n)`. -/
theorem cast_col_apply {α : Type} (x : S16x16x16384.Idx → α) (h : S16x16x16384.ShapeCasts S16x16x16384x1)
    (b c : Fin 16) (n : Fin 16384) (u : Fin 1) :
    shapeCast S16x16x16384x1 x h (ix4 b c n u) = x (ix3 b c n) :=
  shapeCast_apply x h _ _ (by
    have hu : u.val = 0 := by omega
    rw [Shape.rowMajor_val_three, Shape.rowMajor_val_four]
    show (b.val * 16 + c.val) * 16384 + n.val = ((b.val * 16 + c.val) * 16384 + n.val) * 1 + u.val
    omega)

/-- Where the index word is not negative nothing is shifted: the column at `(b, c, n, u)` is the word itself. -/
theorem shifted_apply (idx : (⟨S16x16x16384, .i32⟩ : BufTy).Contents (Elt Ideal)) (b c : Fin 16) (n : Fin 16384) (u : Fin 1)
    (h0 : 0 ≤ ((idx (ix3 b c n) : BitVec 32)).toInt) :
    shifted (F := Ideal) idx (ix4 b c n u) = idx (ix3 b c n) := by
  unfold shifted
  refine (cast_col_apply _ _ b c n u).trans ?_
  show Scalar.select (IntOp.cmpi .slt (idx (ix3 b c n) : BitVec 32) 0#32) (IntOp.addi (idx (ix3 b c n)) 262144#32) (idx (ix3 b c n))
    = idx (ix3 b c n)
  have hz : IntOp.cmpi .slt (idx (ix3 b c n) : BitVec 32) 0#32 = 0#1 :=
    eq_zero_of_ne_one fun h => by
      have h1 := IntOp.cmpi_slt.1 h
      rw [show (0#32 : BitVec 32).toInt = 0 from by decide] at h1
      omega
  rw [hz, select_zero]

/-- A fold over an index set of one element is the operation applied to that element and the initial value. -/
theorem fold_unit {α : Type} (f : α → α → α) [Std.Commutative f] [Std.Associative f] (init : α) {m : ℕ} (hm : m = 1)
    (g : Fin m → α) : (Finset.univ : Finset (Fin m)).fold f init g = f (g ⟨0, by omega⟩) init := by
  subst hm
  rw [Finset.univ_unique, Finset.fold_singleton]
  rfl

/-- The range test at `(b, c, n)` passes where the index word denotes `k` inside the axis. -/
theorem test_apply (idx : (⟨S16x16x16384, .i32⟩ : BufTy).Contents (Elt Ideal)) (b c : Fin 16) (n : Fin 16384) (k : Fin 262144)
    (hk : ((idx (ix3 b c n) : BitVec 32)).toInt = (k.val : ℤ)) :
    Host.reduce IntOp.andi
      (andi (cmpi .sge (shifted (F := Ideal) idx) (broadcastInDim S16x16x16384x1 ![] bcast_S_S16x16x16384x1 (constantI S_ 32 0#32)))
        (cmpi .sle (shifted (F := Ideal) idx) (broadcastInDim S16x16x16384x1 ![0, 1, 2, 3] bcast_S1x1x1x1_S16x16x16384x1_0_1_2_3
          (broadcastInDim S1x1x1x1 ![3] bcast_S1_S1x1x1x1_3 (constantI S1 32 262143#32)))))
      (constantI S_ 1 1#1) reducesTo_S16x16x16384x1_S16x16x16384_d3 h_S_ (ix3 b c n) = 1#1 := by
  have hred : S16x16x16384x1.Reduces [3] S16x16x16384 := by decide
  rw [Host.reduce_eq_fold_single IntOp.andi _ _ reducesTo_S16x16x16384x1_S16x16x16384_d3 hred h_S_ (ix3 b c n)]
  refine (fold_unit IntOp.andi _ (m := S16x16x16384x1.size 3) rfl _).trans ?_
  have hl : hred.lift (ix3 b c n) (⟨0, by decide⟩ : Fin (S16x16x16384x1.size 3)) = ix4 b c n (0 : Fin 1) := by
    funext a; refine Fin.ext ?_
    match a with
    | ⟨0, _⟩ => rfl
    | ⟨1, _⟩ => rfl
    | ⟨2, _⟩ => rfl
    | ⟨3, _⟩ => rfl
  have h0 : 0 ≤ ((idx (ix3 b c n) : BitVec 32)).toInt := by rw [hk]; exact Int.natCast_nonneg _
  refine IntOp.andi_eq_one.2 ⟨?_, rfl⟩
  show IntOp.andi (IntOp.cmpi .sge (shifted (F := Ideal) idx (hred.lift (ix3 b c n) ⟨0, by decide⟩)) 0#32)
      (IntOp.cmpi .sle (shifted (F := Ideal) idx (hred.lift (ix3 b c n) ⟨0, by decide⟩)) 262143#32) = 1#1
  rw [hl, shifted_apply idx b c n 0 h0]
  refine IntOp.andi_eq_one.2 ⟨IntOp.cmpi_sge.2 ?_, IntOp.cmpi_sle.2 ?_⟩
  · rw [show (0#32 : BitVec 32).toInt = 0 from by decide]; exact h0
  · rw [show (262143#32 : BitVec 32).toInt = 262143 from by decide, hk]
    have := k.isLt
    omega
/-- Where the index word denotes k in [0, 262143], the result is the flattened field at (b, c, k). -/
theorem takeAlong_apply (flat : (⟨S16x16x262144, .f32⟩ : BufTy).Contents (Elt Ideal))
    (idx : (⟨S16x16x16384, .i32⟩ : BufTy).Contents (Elt Ideal)) (b c : Fin 16) (n : Fin 16384) (k : Fin 262144)
    (hk : ((idx (ix3 b c n) : BitVec 32)).toInt = (k.val : ℤ)) :
    takeAlong (F := Ideal) flat idx (ix3 b c n) = flat (ix3 b c k) := by
  unfold takeAlong
  have h0 : 0 ≤ ((idx (ix3 b c n) : BitVec 32)).toInt := by rw [hk]; exact Int.natCast_nonneg _
  rw [select_apply, test_apply idx b c n k hk, select_one]
  exact gather_apply flat (shifted (F := Ideal) idx) b c n k (by rw [shifted_apply idx b c n 0 h0]; exact hk)

end Cert.ReferenceIdeal.TakeAlong

end
-- ==== Proof.RefValue.lean ====
/-
  The reference's result is the blend of the four corners.

  The reference computes the same cells, next cells and weights from the points, flattens each 512 x 512
  slice of the field, gathers the four corners at the flat indices cell_y * 512 + cell_x (a gather along the
  flattened axis that would return a filler outside [0, 262143]: the indices are inside, the cells being
  below 512), and blends them with the weights. Read at an index this is the specification's G.
-/
import proofs.«176174_j11175504904483_1_alg».proof.Proof.RefReadP
import proofs.«176174_j11175504904483_1_alg».proof.Proof.RefPrelude
import proofs.«176174_j11175504904483_1_alg».proof.Proof.TakeAlong
import proofs.«176174_j11175504904483_1_alg».proof.Proof.Spec
import Idealize.ShloMosaic.Lib.ValueIdx
import Idealize.ShloMosaic.Lib.ValueLayout
import Idealize.ShloMosaic.Lib.Pipeline.Value
import Idealize.ShloMosaic.Lib.ReduceAll

noncomputable section

namespace Cert.ReferenceIdeal.RefValue

open Cert.ReferenceIdeal Cert.ReferenceIdeal.ReadP Cert.ReferenceIdeal.RefPrelude Cert.ReferenceIdeal.TakeAlong Idealize.ShloMosaic Idealize.ShloMosaic.TcCoe Idealize.ShloMosaic.ValueIdx Cert.Interp

/-! ## Each gather call is the composed gather of the flattened field at its index array -/

theorem bridge_v34 (R : (⟨S16x16x512x512, .f32⟩ : BufTy).Contents (Elt Ideal)) (P : (⟨S16x2x16384, .f32⟩ : BufTy).Contents (Elt Ideal)) :
    val_main_v34 (F := Ideal) R P = takeAlong (F := Ideal) (val_main_v28 (F := Ideal) R) (val_main_v33 (F := Ideal) P) := by
  rfl

theorem bridge_v40 (R : (⟨S16x16x512x512, .f32⟩ : BufTy).Contents (Elt Ideal)) (P : (⟨S16x2x16384, .f32⟩ : BufTy).Contents (Elt Ideal)) :
    val_main_v40 (F := Ideal) R P = takeAlong (F := Ideal) (val_main_v28 (F := Ideal) R) (val_main_v39 (F := Ideal) P) := by
  rfl

theorem bridge_v46 (R : (⟨S16x16x512x512, .f32⟩ : BufTy).Contents (Elt Ideal)) (P : (⟨S16x2x16384, .f32⟩ : BufTy).Contents (Elt Ideal)) :
    val_main_v46 (F := Ideal) R P = takeAlong (F := Ideal) (val_main_v28 (F := Ideal) R) (val_main_v45 (F := Ideal) P) := by
  rfl

theorem bridge_v52 (R : (⟨S16x16x512x512, .f32⟩ : BufTy).Contents (Elt Ideal)) (P : (⟨S16x2x16384, .f32⟩ : BufTy).Contents (Elt Ideal)) :
    val_main_v52 (F := Ideal) R P = takeAlong (F := Ideal) (val_main_v28 (F := Ideal) R) (val_main_v51 (F := Ideal) P) := by
  rfl

/-! ## The four index arrays at (b, c, n): the flat index words of the cells -/

theorem idx_v33 (P : (⟨S16x2x16384, .f32⟩ : BufTy).Contents (Elt Ideal)) (b c : Fin 16) (n : Fin 16384) :
    (val_main_v33 (F := Ideal) P (ix3 b c n) : BitVec 32)
      = IntOp.addi (IntOp.muli (cell (P (ix3 b (1 : Fin 2) n))) 512#32) (cell (P (ix3 b (0 : Fin 2) n))) := by
  have e : idx_main_v32 (idx_main_v33 (ix3 b c n)) = ix2 b n := by
    funext a; match a with | ⟨0, _⟩ => rfl | ⟨1, _⟩ => rfl
  rw [val_main_v33_apply, val_main_v32_apply, e, val_main_v31_apply, val_main_v30_apply,
    val_main_v29_apply, val_main_c_8_apply, x0_apply P b n, y0_apply P b n]

theorem idx_v39 (P : (⟨S16x2x16384, .f32⟩ : BufTy).Contents (Elt Ideal)) (b c : Fin 16) (n : Fin 16384) :
    (val_main_v39 (F := Ideal) P (ix3 b c n) : BitVec 32)
      = IntOp.addi (IntOp.muli (cell (P (ix3 b (1 : Fin 2) n))) 512#32) (cellUp (P (ix3 b (0 : Fin 2) n))) := by
  have e : idx_main_v38 (idx_main_v39 (ix3 b c n)) = ix2 b n := by
    funext a; match a with | ⟨0, _⟩ => rfl | ⟨1, _⟩ => rfl
  rw [val_main_v39_apply, val_main_v38_apply, e, val_main_v37_apply, val_main_v36_apply,
    val_main_v35_apply, val_main_c_9_apply, x1_apply P b n, y0_apply P b n]

theorem idx_v45 (P : (⟨S16x2x16384, .f32⟩ : BufTy).Contents (Elt Ideal)) (b c : Fin 16) (n : Fin 16384) :
    (val_main_v45 (F := Ideal) P (ix3 b c n) : BitVec 32)
      = IntOp.addi (IntOp.muli (cellUp (P (ix3 b (1 : Fin 2) n))) 512#32) (cell (P (ix3 b (0 : Fin 2) n))) := by
  have e : idx_main_v44 (idx_main_v45 (ix3 b c n)) = ix2 b n := by
    funext a; match a with | ⟨0, _⟩ => rfl | ⟨1, _⟩ => rfl
  rw [val_main_v45_apply, val_main_v44_apply, e, val_main_v43_apply, val_main_v42_apply,
    val_main_v41_apply, val_main_c_10_apply, x0_apply P b n, y1_apply P b n]

theorem idx_v51 (P : (⟨S16x2x16384, .f32⟩ : BufTy).Contents (Elt Ideal)) (b c : Fin 16) (n : Fin 16384) :
    (val_main_v51 (F := Ideal) P (ix3 b c n) : BitVec 32)
      = IntOp.addi (IntOp.muli (cellUp (P (ix3 b (1 : Fin 2) n))) 512#32) (cellUp (P (ix3 b (0 : Fin 2) n))) := by
  have e : idx_main_v50 (idx_main_v51 (ix3 b c n)) = ix2 b n := by
    funext a; match a with | ⟨0, _⟩ => rfl | ⟨1, _⟩ => rfl
  rw [val_main_v51_apply, val_main_v50_apply, e, val_main_v49_apply, val_main_v48_apply,
    val_main_v47_apply, val_main_c_11_apply, x1_apply P b n, y1_apply P b n]

/-! ## The four corners -/

/-- A gather of the flattened field at the flat index word of two words below 512 reads the field there. -/
theorem corner (R : (⟨S16x16x512x512, .f32⟩ : BufTy).Contents (Elt Ideal)) (idx : (⟨S16x16x16384, .i32⟩ : BufTy).Contents (Elt Ideal))
    (b c : Fin 16) (n : Fin 16384) (u v : BitVec 32) (hu : u.toNat < 512) (hv : v.toNat < 512)
    (hidx : (idx (ix3 b c n) : BitVec 32) = IntOp.addi (IntOp.muli u 512#32) v) :
    (takeAlong (F := Ideal) (val_main_v28 (F := Ideal) R) idx (ix3 b c n) : EReal)
      = R (ix4 b c (⟨u.toNat, hu⟩ : Fin 512) (⟨v.toNat, hv⟩ : Fin 512)) := by
  have hk : u.toNat * 512 + v.toNat < 262144 := by omega
  rw [takeAlong_apply _ idx b c n ⟨u.toNat * 512 + v.toNat, hk⟩ (by rw [hidx, flat_toInt u v hu hv])]
  exact flat_apply R b c ⟨u.toNat, hu⟩ ⟨v.toNat, hv⟩ ⟨_, hk⟩ rfl

theorem v34_at (R : (⟨S16x16x512x512, .f32⟩ : BufTy).Contents (Elt Ideal)) (P : (⟨S16x2x16384, .f32⟩ : BufTy).Contents (Elt Ideal)) (b c : Fin 16) (n : Fin 16384) :
    (val_main_v34 (F := Ideal) R P (ix3 b c n) : EReal)
      = R (ix4 b c (lo (P (ix3 b (1 : Fin 2) n))) (lo (P (ix3 b (0 : Fin 2) n)))) := by
  rw [bridge_v34]
  exact corner R _ b c n _ _ (cell_lt _) (cell_lt _) (idx_v33 P b c n)

theorem v40_at (R : (⟨S16x16x512x512, .f32⟩ : BufTy).Contents (Elt Ideal)) (P : (⟨S16x2x16384, .f32⟩ : BufTy).Contents (Elt Ideal)) (b c : Fin 16) (n : Fin 16384) :
    (val_main_v40 (F := Ideal) R P (ix3 b c n) : EReal)
      = R (ix4 b c (lo (P (ix3 b (1 : Fin 2) n))) (up (P (ix3 b (0 : Fin 2) n)))) := by
  rw [bridge_v40]
  exact corner R _ b c n _ _ (cell_lt _) (cellUp_lt _) (idx_v39 P b c n)

theorem v46_at (R : (⟨S16x16x512x512, .f32⟩ : BufTy).Contents (Elt Ideal)) (P : (⟨S16x2x16384, .f32⟩ : BufTy).Contents (Elt Ideal)) (b c : Fin 16) (n : Fin 16384) :
    (val_main_v46 (F := Ideal) R P (ix3 b c n) : EReal)
      = R (ix4 b c (up (P (ix3 b (1 : Fin 2) n))) (lo (P (ix3 b (0 : Fin 2) n)))) := by
  rw [bridge_v46]
  exact corner R _ b c n _ _ (cellUp_lt _) (cell_lt _) (idx_v45 P b c n)

theorem v52_at (R : (⟨S16x16x512x512, .f32⟩ : BufTy).Contents (Elt Ideal)) (P : (⟨S16x2x16384, .f32⟩ : BufTy).Contents (Elt Ideal)) (b c : Fin 16) (n : Fin 16384) :
    (val_main_v52 (F := Ideal) R P (ix3 b c n) : EReal)
      = R (ix4 b c (up (P (ix3 b (1 : Fin 2) n))) (up (P (ix3 b (0 : Fin 2) n)))) := by
  rw [bridge_v52]
  exact corner R _ b c n _ _ (cellUp_lt _) (cellUp_lt _) (idx_v51 P b c n)

/-! ## The weights, broadcast over the channel axis -/

theorem w_v55 (P : (⟨S16x2x16384, .f32⟩ : BufTy).Contents (Elt Ideal)) (b c : Fin 16) (n : Fin 16384) :
    (val_main_v55 (F := Ideal) P (ix3 b c n) : EReal) = 1 - frac (P (ix3 b (0 : Fin 2) n)) := by
  have e : idx_main_v55 (ix3 b c n) = ix3 b (0 : Fin 1) n := by
    funext a; match a with | ⟨0, _⟩ => rfl | ⟨1, _⟩ => rfl | ⟨2, _⟩ => rfl
  rw [val_main_v55_apply, e, val_main_v54_apply, val_main_v53_apply, val_main_cst_12_apply, wx_apply P b n,
    Ideal.subf_def, Ideal.ofBits_def, ofBits_one]

theorem w_v59 (P : (⟨S16x2x16384, .f32⟩ : BufTy).Contents (Elt Ideal)) (b c : Fin 16) (n : Fin 16384) :
    (val_main_v59 (F := Ideal) P (ix3 b c n) : EReal) = 1 - frac (P (ix3 b (1 : Fin 2) n)) := by
  have e : idx_main_v59 (ix3 b c n) = ix3 b (0 : Fin 1) n := by
    funext a; match a with | ⟨0, _⟩ => rfl | ⟨1, _⟩ => rfl | ⟨2, _⟩ => rfl
  rw [val_main_v59_apply, e, val_main_v58_apply, val_main_v57_apply, val_main_cst_13_apply, wy_apply P b n,
    Ideal.subf_def, Ideal.ofBits_def, ofBits_one]

theorem w_v61 (P : (⟨S16x2x16384, .f32⟩ : BufTy).Contents (Elt Ideal)) (b c : Fin 16) (n : Fin 16384) :
    (val_main_v61 (F := Ideal) P (ix3 b c n) : EReal) = frac (P (ix3 b (0 : Fin 2) n)) := by
  have e : idx_main_v61 (ix3 b c n) = ix3 b (0 : Fin 1) n := by
    funext a; match a with | ⟨0, _⟩ => rfl | ⟨1, _⟩ => rfl | ⟨2, _⟩ => rfl
  rw [val_main_v61_apply, e, wx_apply P b n]

theorem w_v65 (P : (⟨S16x2x16384, .f32⟩ : BufTy).Contents (Elt Ideal)) (b c : Fin 16) (n : Fin 16384) :
    (val_main_v65 (F := Ideal) P (ix3 b c n) : EReal) = 1 - frac (P (ix3 b (1 : Fin 2) n)) := by
  have e : idx_main_v65 (ix3 b c n) = ix3 b (0 : Fin 1) n := by
    funext a; match a with | ⟨0, _⟩ => rfl | ⟨1, _⟩ => rfl | ⟨2, _⟩ => rfl
  rw [val_main_v65_apply, e, val_main_v64_apply, val_main_v63_apply, val_main_cst_14_apply, wy_apply P b n,
    Ideal.subf_def, Ideal.ofBits_def, ofBits_one]

theorem w_v70 (P : (⟨S16x2x16384, .f32⟩ : BufTy).Contents (Elt Ideal)) (b c : Fin 16) (n : Fin 16384) :
    (val_main_v70 (F := Ideal) P (ix3 b c n) : EReal) = 1 - frac (P (ix3 b (0 : Fin 2) n)) := by
  have e : idx_main_v70 (ix3 b c n) = ix3 b (0 : Fin 1) n := by
    funext a; match a with | ⟨0, _⟩ => rfl | ⟨1, _⟩ => rfl | ⟨2, _⟩ => rfl
  rw [val_main_v70_apply, e, val_main_v69_apply, val_main_v68_apply, val_main_cst_15_apply, wx_apply P b n,
    Ideal.subf_def, Ideal.ofBits_def, ofBits_one]

theorem w_v72 (P : (⟨S16x2x16384, .f32⟩ : BufTy).Contents (Elt Ideal)) (b c : Fin 16) (n : Fin 16384) :
    (val_main_v72 (F := Ideal) P (ix3 b c n) : EReal) = frac (P (ix3 b (1 : Fin 2) n)) := by
  have e : idx_main_v72 (ix3 b c n) = ix3 b (0 : Fin 1) n := by
    funext a; match a with | ⟨0, _⟩ => rfl | ⟨1, _⟩ => rfl | ⟨2, _⟩ => rfl
  rw [val_main_v72_apply, e, wy_apply P b n]

theorem w_v75 (P : (⟨S16x2x16384, .f32⟩ : BufTy).Contents (Elt Ideal)) (b c : Fin 16) (n : Fin 16384) :
    (val_main_v75 (F := Ideal) P (ix3 b c n) : EReal) = frac (P (ix3 b (0 : Fin 2) n)) := by
  have e : idx_main_v75 (ix3 b c n) = ix3 b (0 : Fin 1) n := by
    funext a; match a with | ⟨0, _⟩ => rfl | ⟨1, _⟩ => rfl | ⟨2, _⟩ => rfl
  rw [val_main_v75_apply, e, wx_apply P b n]

theorem w_v77 (P : (⟨S16x2x16384, .f32⟩ : BufTy).Contents (Elt Ideal)) (b c : Fin 16) (n : Fin 16384) :
    (val_main_v77 (F := Ideal) P (ix3 b c n) : EReal) = frac (P (ix3 b (1 : Fin 2) n)) := by
  have e : idx_main_v77 (ix3 b c n) = ix3 b (0 : Fin 1) n := by
    funext a; match a with | ⟨0, _⟩ => rfl | ⟨1, _⟩ => rfl | ⟨2, _⟩ => rfl
  rw [val_main_v77_apply, e, wy_apply P b n]

/-- The reference's result stage, as a function of the field and the points, is G. -/
theorem ref_eq (R : (⟨S16x16x512x512, .f32⟩ : BufTy).Contents (Elt Ideal)) (P : (⟨S16x2x16384, .f32⟩ : BufTy).Contents (Elt Ideal)) :
    val_main_v79 (F := Ideal) R P = G R P := by
  funext i
  obtain ⟨b, c, n, rfl⟩ : ∃ (b c : Fin 16) (n : Fin 16384), i = ix3 b c n := ⟨i 0, i 1, i 2, eq_ix3 i⟩
  rw [val_main_v79_apply, val_main_v74_apply, val_main_v78_apply, val_main_v67_apply, val_main_v73_apply,
    val_main_v60_apply, val_main_v66_apply, val_main_v56_apply, val_main_v62_apply, val_main_v71_apply,
    val_main_v76_apply,
    v34_at, v40_at, v46_at, v52_at, w_v55, w_v59, w_v61, w_v65, w_v70, w_v72, w_v75, w_v77]
  rfl

end Cert.ReferenceIdeal.RefValue

end
-- ==== Proof.lean ====
/-
  Bilinear interpolation of a field at sparse points: the kernel against its reference, on the extended reals.

  The field R[b, c, h, w] (16 x 16 x 512 x 512) is sampled at points P[b, k, n] (16 x 2 x 16384) given in
  normalized coordinates. Both programs scale a coordinate to [0, 511] and clip it, take its integer part as
  the cell and the next cell capped at 511, and the fractional part as the weight of the next cell.

  The reference flattens each 512 x 512 slice, gathers the four corners at the flat indices cell_y * 512 +
  cell_x and blends them: G (Proof/Spec.lean; the reference's stages read at an index in Proof/RefPrelude.lean,
  the gather with its range test in Proof/TakeAlong.lean, the blend in Proof/RefValue.lean; its run in
  Proof/RefRun.lean).

  The kernel works on tiles of 2048 points of one batch: it builds a row selector over the 512 rows with
  weight 1 - wy at the cell and wy at the next cell, a column selector likewise, and for each channel contracts
  the channel's 512 x 512 slice with the row selector by a matrix product into a zero accumulator, multiplies
  by the column selector and sums over the columns (Proof/Payload.lean; the arrays it stages in
  Proof/Windows.lean). A change of float format is the identity on the extended reals, a zero weight times a
  real entry is zero, so each sum keeps the one or two terms its selector meets; the products then distribute
  over the sums, which needs the field's entries to be real numbers: that is what the precondition gives
  (Proof/Finite.lean). So every block the kernel writes is a block of G, and the blocks tile the output
  (Proof/Whole.lean).

  The three frames: the two kernel programs' are their frame certificates; the reference's is its run with the
  result dropped. The idealization rewrote nothing, so there is nothing to preserve.
-/
import proofs.«176174_j11175504904483_1_alg».proof.Defs
import proofs.«176174_j11175504904483_1_alg».proof.Proof.Gen.Kernel
import proofs.«176174_j11175504904483_1_alg».proof.Proof.Gen.Kernel.Skeleton
import proofs.«176174_j11175504904483_1_alg».proof.Proof.Gen.Kernel.Launch
import proofs.«176174_j11175504904483_1_alg».proof.Proof.Gen.Kernel.Points
import proofs.«176174_j11175504904483_1_alg».proof.Proof.Gen.Kernel.Frame
import proofs.«176174_j11175504904483_1_alg».proof.Proof.Gen.KernelIdeal
import proofs.«176174_j11175504904483_1_alg».proof.Proof.Gen.KernelIdeal.Skeleton
import proofs.«176174_j11175504904483_1_alg».proof.Proof.Gen.KernelIdeal.Launch
import proofs.«176174_j11175504904483_1_alg».proof.Proof.Gen.KernelIdeal.Points
import proofs.«176174_j11175504904483_1_alg».proof.Proof.Gen.KernelIdeal.Frame
import proofs.«176174_j11175504904483_1_alg».proof.Proof.Gen.KernelIdeal.Value
import proofs.«176174_j11175504904483_1_alg».proof.Proof.Gen.ReferenceIdeal
import proofs.«176174_j11175504904483_1_alg».proof.Proof.Gen.Pre_finite_inputs
import proofs.«176174_j11175504904483_1_alg».proof.Proof.Spec
import proofs.«176174_j11175504904483_1_alg».proof.Proof.Finite
import proofs.«176174_j11175504904483_1_alg».proof.Proof.Whole
import proofs.«176174_j11175504904483_1_alg».proof.Proof.RefRun
import proofs.«176174_j11175504904483_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, with the result's value dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- Both programs end with the interpolated field G of the arguments: the kernel's output array by its blocks,
    the reference's result by its stages; the arguments agree, so the two results are equal entry by entry. -/
theorem algebraic : Cert.algebraic_KernelIdeal_ReferenceIdeal := by
  intro m ρ m' ρ' hpre hagree
  have hfin : ∀ c i, ∃ q : ℝ, Cert.KernelIdeal.Windows.field m c i = (q : EReal) :=
    fun c i => Cert.Interp.Finite.field_real _ _ (hpre c) i
  refine ⟨fun c => Cert.Interp.G (Cert.KernelIdeal.Windows.field m c) (Cert.KernelIdeal.Windows.pts m c),
    Cert.KernelIdeal.Whole.run m ρ hfin, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2]
  exact Cert.ReferenceIdeal.RefValue.ref_eq _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
